-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S2048x256x49 : Shape := ⟨3, ![2048, 256, 49]⟩
abbrev S32768x256 : Shape := ⟨2, ![32768, 256]⟩
abbrev S32768 : Shape := ⟨1, ![32768]⟩
abbrev S64 : Shape := ⟨1, ![64]⟩
abbrev S256 : Shape := ⟨1, ![256]⟩
abbrev S256x12544 : Shape := ⟨2, ![256, 12544]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S2048x256x49 : S_.BroadcastsInDim S2048x256x49 (![] : Fin 0 → Fin S2048x256x49.rank)
  reducesTo_S2048x256x49_S_d0_1_2 : S2048x256x49.ReducesTo [0, 1, 2] S_
  bcast_S_S32768x256 : S_.BroadcastsInDim S32768x256 (![] : Fin 0 → Fin S32768x256.rank)
  reducesTo_S32768x256_S_d0_1 : S32768x256.ReducesTo [0, 1] S_
  bcast_S_S32768 : S_.BroadcastsInDim S32768 (![] : Fin 0 → Fin S32768.rank)
  reducesTo_S32768_S_d0 : S32768.ReducesTo [0] S_
  bcast_S_S64 : S_.BroadcastsInDim S64 (![] : Fin 0 → Fin S64.rank)
  reducesTo_S64_S_d0 : S64.ReducesTo [0] S_
  bcast_S_S256 : S_.BroadcastsInDim S256 (![] : Fin 0 → Fin S256.rank)
  reducesTo_S256_S_d0 : S256.ReducesTo [0] S_
  bcast_S_S256x12544 : S_.BroadcastsInDim S256x12544 (![] : Fin 0 → Fin S256x12544.rank)
  reducesTo_S256x12544_S_d0_1 : S256x12544.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S256 .f32) (main_arg13 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S256 .f32) (main_arg8 : FVec F S256x12544 .f32) (main_arg9 : FVec F S256 .f32) (main_arg10 : FVec F S256 .f32) (main_arg11 : FVec F S256 .f32) (main_arg12 : FVec F S256 .f32) (main_arg13 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x12544 .f32 := Host.absf main_arg8
  let main_cst_14 : FVec F S_ .f32 := constant S_ .f32 0x7F800000#32
  let main_v40 : FVec F S256x12544 .f32 := broadcastInDim S256x12544 ![] bcast_S_S256x12544 main_cst_14
  let main_v41 : IVec S256x12544 1 := cmpf .olt main_v39 main_v40
  let main_c_15 : IVec S_ 1 := constantI S_ 1 1#1
  let main_v42 : IVec S_ 1 := (fun x v => Host.reduce IntOp.andi x v reducesTo_S256x12544_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_v48 main_v49 main_v50

def fn_part1 {F : FTy → Type} [FloatOps F] (main_arg4 : FVec F S64 .f32) (main_arg5 : FVec F S64 .f32) (main_arg6 : FVec F S256 .f32) (main_arg7 : FVec F S256 .f32) (main_arg8 : FVec F S256x12544 .f32) (main_arg9 : FVec F S256 .f32) (main_arg10 : FVec F S256 .f32) (main_arg11 : FVec F S256 .f32) (main_arg12 : FVec F S256 .f32) (main_arg13 : FVec F S256 .f32) (main_v13 : IVec S_ 1) (main_v16 : IVec S32768 1) : IVec S_ 1 :=
  let main_c_5 : IVec S_ 1 := constantI S_ 1 1#1
  let main_v17 : IVec S_ 1 := (fun x v => Host.reduce IntOp.andi x v reducesTo_S32768_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S2048x256 .f32) (main_arg1 : FVec F S2048x256x49 .f32) (main_arg2 : FVec F S32768x256 .f32) (main_arg3 : FVec F S32768 .f32) (main_arg4 : FVec F S64 .f32) (main_arg5 : FVec F S64 .f32) (main_arg6 : FVec F S256 .f32) (main_arg7 : FVec F S256 .f32) (main_arg8 : FVec F S256x12544 .f32) (main_arg9 : FVec F S256 .f32) (main_arg10 : FVec F S256 .f32) (main_arg11 : FVec F S256 .f32) (main_arg12 : FVec F S256 .f32) (main_arg13 : FVec F S256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x256x49 .f32 := Host.absf main_arg1
  let main_cst_0 : FVec F S_ .f32 := constant S_ .f32 0x7F800000#32
  let main_v5 : FVec F S2048x256x49 .f32 := broadcastInDim S2048x256x49 ![] bcast_S_S2048x256x49 main_cst_0
  let main_v6 : IVec S2048x256x49 1 := cmpf .olt main_v4 main_v5
  let main_c_1 : IVec S_ 1 := constantI S_ 1 1#1
  let main_v7 : IVec S_ 1 := (fun x v => Host.reduce IntOp.andi x v reducesTo_S2048x256x49_S_d0_1_2 h_S_) main_v6 main_c_1
  let main_v8 : IVec S_ 1 := andi main_v3 main_v7
  let main_v9 : FVec F S32768x256 .f32 := Host.absf main_arg2
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  let main_v14 : FVec F S32768 .f32 := Host.absf main_arg3
  let main_cst_4 : FVec F S_ .f32 := constant S_ .f32 0x7F800000#32
  let main_v15 : FVec F S32768 .f32 := broadcastInDim S32768 ![] bcast_S_S32768 main_cst_4
  let main_v16 : IVec S32768 1 := cmpf .olt main_v14 main_v15
  fn_part1 (F := F) main_arg4 main_arg5 main_arg6 main_arg7 main_arg8 main_arg9 main_arg10 main_arg11 main_arg12 main_arg13 main_v13 main_v16
-- ==== Kernel.lean ====
abbrev S2048x256 : Shape := ⟨2, ![2048, 256]⟩
abbrev S2048x256x49 : Shape := ⟨3, ![2048, 256, 49]⟩
abbrev S32768x256 : Shape := ⟨2, ![32768, 256]⟩
abbrev S32768 : Shape := ⟨1, ![32768]⟩
abbrev S64 : Shape := ⟨1, ![64]⟩
abbrev S256 : Shape := ⟨1, ![256]⟩
abbrev S256x12544 : Shape := ⟨2, ![256, 12544]⟩
abbrev S16384x256 : Shape := ⟨2, ![16384, 256]⟩
abbrev S256x16384 : Shape := ⟨2, ![256, 16384]⟩
abbrev S16384 : Shape := ⟨1, ![16384]⟩
abbrev S12544x256 : Shape := ⟨2, ![12544, 256]⟩
abbrev S32x256 : Shape := ⟨2, ![32, 256]⟩
abbrev S32x256x49 : Shape := ⟨3, ![32, 256, 49]⟩
abbrev S32x16384 : Shape := ⟨2, ![32, 16384]⟩
abbrev S1x16384 : Shape := ⟨2, ![1, 16384]⟩
abbrev S32x256x64 : Shape := ⟨3, ![32, 256, 64]⟩
abbrev S32x49x256 : Shape := ⟨3, ![32, 49, 256]⟩
abbrev S32x49x64 : Shape := ⟨3, ![32, 49, 64]⟩
abbrev S32x49 : Shape := ⟨2, ![32, 49]⟩
abbrev S32x49x1 : Shape := ⟨3, ![32, 49, 1]⟩
abbrev S1x1x64 : Shape := ⟨3, ![1, 1, 64]⟩
abbrev S32x64x256 : Shape := ⟨3, ![32, 64, 256]⟩
abbrev S1x1x256 : Shape := ⟨3, ![1, 1, 256]⟩
abbrev S32x12544 : Shape := ⟨2, ![32, 12544]⟩
abbrev S1x256 : Shape := ⟨2, ![1, 256]⟩
abbrev S32 : Shape := ⟨1, ![32]⟩
abbrev S32x1 : Shape := ⟨2, ![32, 1]⟩

abbrev nBuf : Space → Nat
  | .hbm => 25
  | .vmem => 20
  | .smem => 0
  | _ => 0

abbrev bufTy : (tb : Table) → Fin (tcTables nBuf tb) → BufTy
  | .hbm, ⟨0, _⟩ => ⟨S2048x256, .f32⟩
  | .hbm, ⟨1, _⟩ => ⟨S2048x256x49, .f32⟩
  | .hbm, ⟨2, _⟩ => ⟨S32768x256, .f32⟩
  | .hbm, ⟨3, _⟩ => ⟨S32768, .f32⟩
  | .hbm, ⟨4, _⟩ => ⟨S64, .f32⟩
  | .hbm, ⟨5, _⟩ => ⟨S64, .f32⟩
  | .hbm, ⟨6, _⟩ => ⟨S256, .f32⟩
  | .hbm, ⟨7, _⟩ => ⟨S256, .f32⟩
  | .hbm, ⟨8, _⟩ => ⟨S256x12544, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S16384x256, .f32⟩
  | .hbm, ⟨15, _⟩ => ⟨S256x16384, .f32⟩
  | .hbm, ⟨16, _⟩ => ⟨S256x16384, .bf16⟩
  | .hbm, ⟨17, _⟩ => ⟨S16384x256, .f32⟩
  | .hbm, ⟨18, _⟩ => ⟨S256x16384, .f32⟩
  | .hbm, ⟨19, _⟩ => ⟨S256x16384, .bf16⟩
  | .hbm, ⟨20, _⟩ => ⟨S16384, .f32⟩
  | .hbm, ⟨21, _⟩ => ⟨S16384, .f32⟩
  | .hbm, ⟨22, _⟩ => ⟨S12544x256, .f32⟩
  | .hbm, ⟨23, _⟩ => ⟨S12544x256, .bf16⟩
  | .hbm, ⟨24, _⟩ => ⟨S2048x256, .f32⟩
  | .local _ .vmem, ⟨0, _⟩ => ⟨S32x256, .f32⟩
  | .local _ .vmem, ⟨1, _⟩ => ⟨S32x256, .f32⟩
  | .local _ .vmem, ⟨2, _⟩ => ⟨S32x256x49, .f32⟩
  | .local _ .vmem, ⟨3, _⟩ => ⟨S32x256x49, .f32⟩
  | .local _ .vmem, ⟨4, _⟩ => ⟨S256x16384, .bf16⟩
  | .local _ .vmem, ⟨5, _⟩ => ⟨S256x16384, .bf16⟩
  | .local _ .vmem, ⟨6, _⟩ => ⟨S16384, .f32⟩
  | .local _ .vmem, ⟨7, _⟩ => ⟨S16384, .f32⟩
  | .local _ .vmem, ⟨8, _⟩ => ⟨S64, .f32⟩
  | .local _ .vmem, ⟨9, _⟩ => ⟨S64, .f32⟩
  | .local _ .vmem, ⟨10, _⟩ => ⟨S256, .f32⟩
  | .local _ .vmem, ⟨11, _⟩ => ⟨S256, .f32⟩
  | .local _ .vmem, ⟨12, _⟩ => ⟨S12544x256, .bf16⟩
  | .local _ .vmem, ⟨13, _⟩ => ⟨S256, .f32⟩
  | .local _ .vmem, ⟨14, _⟩ => ⟨S256, .f32⟩
  | .local _ .vmem, ⟨15, _⟩ => ⟨S256, .f32⟩
  | .local _ .vmem, ⟨16, _⟩ => ⟨S256, .f32⟩
  | .local _ .vmem, ⟨17, _⟩ => ⟨S256, .f32⟩
  | .local _ .vmem, ⟨18, _⟩ => ⟨S32x256, .f32⟩
  | .local _ .vmem, ⟨19, _⟩ => ⟨S32x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256x49 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S12544x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S32x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S32768x256_S16384x256_0_0 : S32768x256.Slices ![0, 0] S16384x256
  transposes_S16384x256_S256x16384_1_0 : S16384x256.Transposes [1, 0] S256x16384
  bitsLt_bf16_f32 : FTy.bits .bf16 < FTy.bits .f32
  slices_S32768x256_S16384x256_16384_0 : S32768x256.Slices ![16384, 0] S16384x256
  slices_S32768_S16384_0 : S32768.Slices ![0] S16384
  slices_S32768_S16384_16384 : S32768.Slices ![16384] S16384
  transposes_S256x12544_S12544x256_1_0 : S256x12544.Transposes [1, 0] S12544x256
  inb_S32x256_S32x256_0_0 : ∀ a, (![0, 0] : Fin 2 → Nat) a + S32x256.size a ≤ S32x256.size a
  h_S32x256 : 0 < S32x256.numel
  inb_S256x16384_S256x16384_0_0 : ∀ a, (![0, 0] : Fin 2 → Nat) a + S256x16384.size a ≤ S256x16384.size a
  h_S256x16384 : 0 < S256x16384.numel
  shapeCasts_S256x16384_S256x16384 : S256x16384.ShapeCasts S256x16384
  inb_S16384_S16384_0 : ∀ a, (![0] : Fin 1 → Nat) a + S16384.size a ≤ S16384.size a
  h_S16384 : 0 < S16384.numel
  shapeCasts_S16384_S16384 : S16384.ShapeCasts S16384
  shapeCasts_S16384_S1x16384 : S16384.ShapeCasts S1x16384
  broadcasts_S1x16384_S32x16384 : S1x16384.Broadcasts S32x16384
  shapeCasts_S32x16384_S32x256x64 : S32x16384.ShapeCasts S32x256x64
  inb_S32x256x49_S32x256x49_0_0_0 : ∀ a, (![0, 0, 0] : Fin 3 → Nat) a + S32x256x49.size a ≤ S32x256x49.size a
  h_S32x256x49 : 0 < S32x256x49.numel
  transposes_S32x256x49_p0_2_1_S32x49x256 : S32x256x49.Transposes [0, 2, 1] S32x49x256
  inb_S64_S64_0 : ∀ a, (![0] : Fin 1 → Nat) a + S64.size a ≤ S64.size a
  h_S64 : 0 < S64.numel
  reduces_S32x49x64_S32x49 : S32x49x64.Reduces [2] S32x49
  shapeCasts_S32x49_S32x49x1 : S32x49.ShapeCasts S32x49x1
  broadcasts_S32x49x1_S32x49x64 : S32x49x1.Broadcasts S32x49x64
  shapeCasts_S64_S1x1x64 : S64.ShapeCasts S1x1x64
  broadcasts_S1x1x64_S32x49x64 : S1x1x64.Broadcasts S32x49x64
  shapeCasts_S32x16384_S32x64x256 : S32x16384.ShapeCasts S32x64x256
  inb_S256_S256_0 : ∀ a, (![0] : Fin 1 → Nat) a + S256.size a ≤ S256.size a
  h_S256 : 0 < S256.numel
  reduces_S32x49x256_S32x49 : S32x49x256.Reduces [2] S32x49
  broadcasts_S32x49x1_S32x49x256 : S32x49x1.Broadcasts S32x49x256
  shapeCasts_S256_S1x1x256 : S256.ShapeCasts S1x1x256
  broadcasts_S1x1x256_S32x49x256 : S1x1x256.Broadcasts S32x49x256
  shapeCasts_S32x49x256_S32x12544 : S32x49x256.ShapeCasts S32x12544
  inb_S12544x256_S12544x256_0_0 : ∀ a, (![0, 0] : Fin 2 → Nat) a + S12544x256.size a ≤ S12544x256.size a
  h_S12544x256 : 0 < S12544x256.numel
  shapeCasts_S12544x256_S12544x256 : S12544x256.ShapeCasts S12544x256
  shapeCasts_S256_S1x256 : S256.ShapeCasts S1x256
  broadcasts_S1x256_S32x256 : S1x256.Broadcasts S32x256
  reduces_S32x256_S32 : S32x256.Reduces [1] S32
  shapeCasts_S32_S32x1 : S32.ShapeCasts S32x1
  broadcasts_S32x1_S32x256 : S32x1.Broadcasts S32x256
  dot_S32x256_S256x16384_S32x16384_1_0_0_1_n_n_wf : DotDims.WF S32x256 S256x16384 S32x16384 [1] [0] [0] [1] [] []
  dot_S32x49x256_S32x256x64_S32x49x64_2_1_1_2_0_0_wf : DotDims.WF S32x49x256 S32x256x64 S32x49x64 [2] [1] [1] [2] [0] [0]
  dot_S32x49x64_S32x64x256_S32x49x256_2_1_1_2_0_0_wf : DotDims.WF S32x49x64 S32x64x256 S32x49x256 [2] [1] [1] [2] [0] [0]
  dot_S32x12544_S12544x256_S32x256_1_0_0_1_n_n_wf : DotDims.WF S32x12544 S12544x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S2048x256.size a
  hwx0_0 : ∀ i : grid0.Coords, EltTy.bits .f32 = 32 ∨ (Rect.block (s := S2048x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256x49.size a ≤ S2048x256x49.size a
  hwx0_1 : ∀ i : grid0.Coords, EltTy.bits .f32 = 32 ∨ (Rect.block (s := S2048x256x49) S32x256x49.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x16384.size a ≤ S256x16384.size a
  hwx0_2 : ∀ i : grid0.Coords, EltTy.bits .bf16 = 32 ∨ (Rect.block (s := S256x16384) S256x16384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16384.size a ≤ S256x16384.size a
  hwx0_3 : ∀ i : grid0.Coords, EltTy.bits .bf16 = 32 ∨ (Rect.block (s := S256x16384) S256x16384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16384.size a ≤ S16384.size a
  hwx0_4 : ∀ i : grid0.Coords, EltTy.bits .f32 = 32 ∨ (Rect.block (s := S16384) S16384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16384.size a ≤ S16384.size a
  hwx0_5 : ∀ i : grid0.Coords, EltTy.bits .f32 = 32 ∨ (Rect.block (s := S16384) S16384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S12544x256.size a ≤ S12544x256.size a
  hwx0_10 : ∀ i : grid0.Coords, EltTy.bits .bf16 = 32 ∨ (Rect.block (s := S12544x256) S12544x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S32x256.size a ≤ S2048x256.size a
  hwx0_16 : ∀ i : grid0.Coords, EltTy.bits .f32 = 32 ∨ (Rect.block (s := S2048x256) S32x256.size (cc0_transform_16 i) (hinb0_16 i)).WholeWords (EltTy.packing .f32)

variable [Facts₀]

def dot_S32x256_S256x16384_S32x16384_1_0_0_1_n_n : DotDims S32x256 S256x16384 S32x16384 where
  lhsContracting := [1]
  rhsContracting := [0]
  lhsNonContracting := [0]
  rhsNonContracting := [1]
  lhsBatch := []
  rhsBatch := []
  wf := dot_S32x256_S256x16384_S32x16384_1_0_0_1_n_n_wf
def dot_S32x49x256_S32x256x64_S32x49x64_2_1_1_2_0_0 : DotDims S32x49x256 S32x256x64 S32x49x64 where
  lhsContracting := [2]
  rhsContracting := [1]
  lhsNonContracting := [1]
  rhsNonContracting := [2]
  lhsBatch := [0]
  rhsBatch := [0]
  wf := dot_S32x49x256_S32x256x64_S32x49x64_2_1_1_2_0_0_wf
def dot_S32x49x64_S32x64x256_S32x49x256_2_1_1_2_0_0 : DotDims S32x49x64 S32x64x256 S32x49x256 where
  lhsContracting := [2]
  rhsContracting := [1]
  lhsNonContracting := [1]
  rhsNonContracting := [2]
  lhsBatch := [0]
  rhsBatch := [0]
  wf := dot_S32x49x64_S32x64x256_S32x49x256_2_1_1_2_0_0_wf
def dot_S32x12544_S12544x256_S32x256_1_0_0_1_n_n : DotDims S32x12544 S12544x256 S32x256 where
  lhsContracting := [1]
  rhsContracting := [0]
  lhsNonContracting := [0]
  rhsNonContracting := [1]
  lhsBatch := []
  rhsBatch := []
  wf := dot_S32x12544_S12544x256_S32x256_1_0_0_1_n_n_wf

abbrev win0_0 : Pipeline.Window sig grid0 :=
  Pipeline.Window.ofSpec (Memref.whole main_arg0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256x49.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S16384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S16384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S12544x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg12) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg13) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v10) S32x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S2048x256 : Shape := ⟨2, ![2048, 256]⟩
abbrev S2048x256x49 : Shape := ⟨3, ![2048, 256, 49]⟩
abbrev S32768x256 : Shape := ⟨2, ![32768, 256]⟩
abbrev S32768 : Shape := ⟨1, ![32768]⟩
abbrev S64 : Shape := ⟨1, ![64]⟩
abbrev S256 : Shape := ⟨1, ![256]⟩
abbrev S256x12544 : Shape := ⟨2, ![256, 12544]⟩
abbrev S2048x49x256 : Shape := ⟨3, ![2048, 49, 256]⟩
abbrev S256x32768 : Shape := ⟨2, ![256, 32768]⟩
abbrev S2048x32768 : Shape := ⟨2, ![2048, 32768]⟩
abbrev S1x32768 : Shape := ⟨2, ![1, 32768]⟩
abbrev S2048x16384 : Shape := ⟨2, ![2048, 16384]⟩
abbrev S2048x256x64 : Shape := ⟨3, ![2048, 256, 64]⟩
abbrev S2048x49x64 : Shape := ⟨3, ![2048, 49, 64]⟩
abbrev S_ : Shape := ⟨0, ![]⟩
abbrev S2048x49 : Shape := ⟨2, ![2048, 49]⟩
abbrev S2048x49x1 : Shape := ⟨3, ![2048, 49, 1]⟩
abbrev S1x1x64 : Shape := ⟨3, ![1, 1, 64]⟩
abbrev S2048x64x256 : Shape := ⟨3, ![2048, 64, 256]⟩
abbrev S1x1x256 : Shape := ⟨3, ![1, 1, 256]⟩
abbrev S2048x12544 : Shape := ⟨2, ![2048, 12544]⟩
abbrev S12544x256 : Shape := ⟨2, ![12544, 256]⟩
abbrev S1x256 : Shape := ⟨2, ![1, 256]⟩
abbrev S2048 : Shape := ⟨1, ![2048]⟩
abbrev S2048x1 : Shape := ⟨2, ![2048, 1]⟩

abbrev nBuf : Space → Nat
  | .hbm => 158
  | .vmem => 0
  | .smem => 0
  | _ => 0

abbrev hbmTy0_0 (i : Nat) : BufTy := match i % 128 with
  | 0 => ⟨S2048x256, .f32⟩
  | 1 => ⟨S2048x256x49, .f32⟩
  | 2 => ⟨S32768x256, .f32⟩
  | 3 => ⟨S32768, .f32⟩
  | 4 => ⟨S64, .f32⟩
  | 5 => ⟨S64, .f32⟩
  | 6 => ⟨S256, .f32⟩
  | 7 => ⟨S256, .f32⟩
  | 8 => ⟨S256x12544, .f32⟩
  | 9 => ⟨S256, .f32⟩
  | 10 => ⟨S256, .f32⟩
  | 11 => ⟨S256, .f32⟩
  | 12 => ⟨S256, .f32⟩
  | 13 => ⟨S256, .f32⟩
  | 14 => ⟨S2048x49x256, .f32⟩
  | 15 => ⟨S256x32768, .f32⟩
  | 16 => ⟨S2048x32768, .f32⟩
  | 17 => ⟨S1x32768, .f32⟩
  | 18 => ⟨S2048x32768, .f32⟩
  | 19 => ⟨S2048x32768, .f32⟩
  | 20 => ⟨S2048x16384, .f32⟩
  | 21 => ⟨S2048x256x64, .f32⟩
  | 22 => ⟨S2048x49x64, .f32⟩
  | 23 => ⟨S_, .f32⟩
  | 24 => ⟨S2048x49, .f32⟩
  | 25 => ⟨S2048x49x1, .f32⟩
  | 26 => ⟨S_, .f32⟩
  | 27 => ⟨S2048x49x1, .f32⟩
  | 28 => ⟨S2048x49x1, .f32⟩
  | 29 => ⟨S2048x49x64, .f32⟩
  | 30 => ⟨S2048x49x64, .f32⟩
  | 31 => ⟨S2048x49x64, .f32⟩
  | 32 => ⟨S_, .f32⟩
  | 33 => ⟨S2048x49, .f32⟩
  | 34 => ⟨S2048x49x1, .f32⟩
  | 35 => ⟨S_, .f32⟩
  | 36 => ⟨S2048x49x1, .f32⟩
  | 37 => ⟨S2048x49x1, .f32⟩
  | 38 => ⟨S2048x49x64, .f32⟩
  | 39 => ⟨S2048x49x64, .f32⟩
  | 40 => ⟨S_, .f32⟩
  | 41 => ⟨S2048x49x1, .f32⟩
  | 42 => ⟨S2048x49x1, .f32⟩
  | 43 => ⟨S2048x49x1, .f32⟩
  | 44 => ⟨S2048x49x64, .f32⟩
  | 45 => ⟨S2048x49x64, .f32⟩
  | 46 => ⟨S1x1x64, .f32⟩
  | 47 => ⟨S2048x49x64, .f32⟩
  | 48 => ⟨S2048x49x64, .f32⟩
  | 49 => ⟨S1x1x64, .f32⟩
  | 50 => ⟨S2048x49x64, .f32⟩
  | 51 => ⟨S2048x49x64, .f32⟩
  | 52 => ⟨S_, .f32⟩
  | 53 => ⟨S2048x49x64, .f32⟩
  | 54 => ⟨S2048x49x64, .f32⟩
  | 55 => ⟨S2048x16384, .f32⟩
  | 56 => ⟨S2048x64x256, .f32⟩
  | 57 => ⟨S2048x49x256, .f32⟩
  | 58 => ⟨S_, .f32⟩
  | 59 => ⟨S2048x49, .f32⟩
  | 60 => ⟨S2048x49x1, .f32⟩
  | 61 => ⟨S_, .f32⟩
  | 62 => ⟨S2048x49x1, .f32⟩
  | 63 => ⟨S2048x49x1, .f32⟩
  | 64 => ⟨S2048x49x256, .f32⟩
  | 65 => ⟨S2048x49x256, .f32⟩
  | 66 => ⟨S2048x49x256, .f32⟩
  | 67 => ⟨S_, .f32⟩
  | 68 => ⟨S2048x49, .f32⟩
  | 69 => ⟨S2048x49x1, .f32⟩
  | 70 => ⟨S_, .f32⟩
  | 71 => ⟨S2048x49x1, .f32⟩
  | 72 => ⟨S2048x49x1, .f32⟩
  | 73 => ⟨S2048x49x256, .f32⟩
  | 74 => ⟨S2048x49x256, .f32⟩
  | 75 => ⟨S_, .f32⟩
  | 76 => ⟨S2048x49x1, .f32⟩
  | 77 => ⟨S2048x49x1, .f32⟩
  | 78 => ⟨S2048x49x1, .f32⟩
  | 79 => ⟨S2048x49x256, .f32⟩
  | 80 => ⟨S2048x49x256, .f32⟩
  | 81 => ⟨S1x1x256, .f32⟩
  | 82 => ⟨S2048x49x256, .f32⟩
  | 83 => ⟨S2048x49x256, .f32⟩
  | 84 => ⟨S1x1x256, .f32⟩
  | 85 => ⟨S2048x49x256, .f32⟩
  | 86 => ⟨S2048x49x256, .f32⟩
  | 87 => ⟨S_, .f32⟩
  | 88 => ⟨S2048x49x256, .f32⟩
  | 89 => ⟨S2048x49x256, .f32⟩
  | 90 => ⟨S2048x12544, .f32⟩
  | 91 => ⟨S12544x256, .f32⟩
  | 92 => ⟨S2048x256, .f32⟩
  | 93 => ⟨S1x256, .f32⟩
  | 94 => ⟨S2048x256, .f32⟩
  | 95 => ⟨S2048x256, .f32⟩
  | 96 => ⟨S_, .f32⟩
  | 97 => ⟨S2048, .f32⟩
  | 98 => ⟨S2048x1, .f32⟩
  | 99 => ⟨S_, .f32⟩
  | 100 => ⟨S2048x1, .f32⟩
  | 101 => ⟨S2048x1, .f32⟩
  | 102 => ⟨S2048x256, .f32⟩
  | 103 => ⟨S2048x256, .f32⟩
  | 104 => ⟨S2048x256, .f32⟩
  | 105 => ⟨S_, .f32⟩
  | 106 => ⟨S2048, .f32⟩
  | 107 => ⟨S2048x1, .f32⟩
  | 108 => ⟨S_, .f32⟩
  | 109 => ⟨S2048x1, .f32⟩
  | 110 => ⟨S2048x1, .f32⟩
  | 111 => ⟨S2048x256, .f32⟩
  | 112 => ⟨S2048x256, .f32⟩
  | 113 => ⟨S_, .f32⟩
  | 114 => ⟨S2048x1, .f32⟩
  | 115 => ⟨S2048x1, .f32⟩
  | 116 => ⟨S2048x1, .f32⟩
  | 117 => ⟨S2048x256, .f32⟩
  | 118 => ⟨S2048x256, .f32⟩
  | 119 => ⟨S1x256, .f32⟩
  | 120 => ⟨S2048x256, .f32⟩
  | 121 => ⟨S2048x256, .f32⟩
  | 122 => ⟨S1x256, .f32⟩
  | 123 => ⟨S2048x256, .f32⟩
  | 124 => ⟨S2048x256, .f32⟩
  | 125 => ⟨S_, .f32⟩
  | 126 => ⟨S2048x256, .f32⟩
  | 127 => ⟨S2048x256, .f32⟩
  | _ => ⟨S2048x256, .f32⟩

abbrev hbmTy0_1 (i : Nat) : BufTy := match i % 128 with
  | 0 => ⟨S2048x256, .f32⟩
  | 1 => ⟨S_, .f32⟩
  | 2 => ⟨S2048, .f32⟩
  | 3 => ⟨S2048x1, .f32⟩
  | 4 => ⟨S_, .f32⟩
  | 5 => ⟨S2048x1, .f32⟩
  | 6 => ⟨S2048x1, .f32⟩
  | 7 => ⟨S2048x256, .f32⟩
  | 8 => ⟨S2048x256, .f32⟩
  | 9 => ⟨S2048x256, .f32⟩
  | 10 => ⟨S_, .f32⟩
  | 11 => ⟨S2048, .f32⟩
  | 12 => ⟨S2048x1, .f32⟩
  | 13 => ⟨S_, .f32⟩
  | 14 => ⟨S2048x1, .f32⟩
  | 15 => ⟨S2048x1, .f32⟩
  | 16 => ⟨S2048x256, .f32⟩
  | 17 => ⟨S2048x256, .f32⟩
  | 18 => ⟨S_, .f32⟩
  | 19 => ⟨S2048x1, .f32⟩
  | 20 => ⟨S2048x1, .f32⟩
  | 21 => ⟨S2048x1, .f32⟩
  | 22 => ⟨S2048x256, .f32⟩
  | 23 => ⟨S2048x256, .f32⟩
  | 24 => ⟨S1x256, .f32⟩
  | 25 => ⟨S2048x256, .f32⟩
  | 26 => ⟨S2048x256, .f32⟩
  | 27 => ⟨S1x256, .f32⟩
  | 28 => ⟨S2048x256, .f32⟩
  | 29 => ⟨S2048x256, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_call1_cst : Ref sig .tc := ⟨.hbm, 87, rfl⟩
abbrev main_call1_v0 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_9 : Ref sig .tc := ⟨.hbm, 96, rfl⟩
abbrev main_v68 : Ref sig .tc := ⟨.hbm, 97, rfl⟩
abbrev main_v69 : Ref sig .tc := ⟨.hbm, 98, rfl⟩
abbrev main_cst_10 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_11 : Ref sig .tc := ⟨.hbm, 105, rfl⟩
abbrev main_v75 : Ref sig .tc := ⟨.hbm, 106, rfl⟩
abbrev main_v76 : Ref sig .tc := ⟨.hbm, 107, rfl⟩
abbrev main_cst_12 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_13 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_call2_cst : Ref sig .tc := ⟨.hbm, 125, rfl⟩
abbrev main_call2_v0 : Ref sig .tc := ⟨.hbm, 126, rfl⟩
abbrev main_v92 : Ref sig .tc := ⟨.hbm, 127, rfl⟩
abbrev main_v93 : Ref sig .tc := ⟨.hbm, 128, rfl⟩
abbrev main_cst_14 : Ref sig .tc := ⟨.hbm, 129, rfl⟩
abbrev main_v94 : Ref sig .tc := ⟨.hbm, 130, rfl⟩
abbrev main_v95 : Ref sig .tc := ⟨.hbm, 131, rfl⟩
abbrev main_cst_15 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_16 : Ref sig .tc := ⟨.hbm, 138, rfl⟩
abbrev main_v101 : Ref sig .tc := ⟨.hbm, 139, rfl⟩
abbrev main_v102 : Ref sig .tc := ⟨.hbm, 140, rfl⟩
abbrev main_cst_17 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_18 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩

abbrev nD : Nat := 1
abbrev τ : Topo := Topo.v7x

variable {F : FTy → Type} [FloatOps F]

class Facts₀ : Prop where
  transposes_S2048x256x49_S2048x49x256_0_2_1 : S2048x256x49.Transposes [0, 2, 1] S2048x49x256
  transposes_S32768x256_S256x32768_1_0 : S32768x256.Transposes [1, 0] S256x32768
  bcast_S32768_S1x32768_1 : S32768.BroadcastsInDim S1x32768 (![1] : Fin 1 → Fin S1x32768.rank)
  bcast_S1x32768_S2048x32768_0_1 : S1x32768.BroadcastsInDim S2048x32768 (![0, 1] : Fin 2 → Fin S2048x32768.rank)
  slices_S2048x32768_S2048x16384_0_0 : S2048x32768.Slices ![0, 0] S2048x16384
  shapeCasts_S2048x16384_S2048x256x64 : S2048x16384.ShapeCasts S2048x256x64
  reducesTo_S2048x49x64_S2048x49_d2 : S2048x49x64.ReducesTo [2] S2048x49
  h_S_ : 0 < S_.numel
  bcast_S2048x49_S2048x49x1_0_1 : S2048x49.BroadcastsInDim S2048x49x1 (![0, 1] : Fin 2 → Fin S2048x49x1.rank)
  bcast_S_S2048x49x1 : S_.BroadcastsInDim S2048x49x1 (![] : Fin 0 → Fin S2048x49x1.rank)
  bcast_S2048x49x1_S2048x49x64_0_1_2 : S2048x49x1.BroadcastsInDim S2048x49x64 (![0, 1, 2] : Fin 3 → Fin S2048x49x64.rank)
  bcast_S64_S1x1x64_2 : S64.BroadcastsInDim S1x1x64 (![2] : Fin 1 → Fin S1x1x64.rank)
  bcast_S1x1x64_S2048x49x64_0_1_2 : S1x1x64.BroadcastsInDim S2048x49x64 (![0, 1, 2] : Fin 3 → Fin S2048x49x64.rank)
  bcast_S_S2048x49x64 : S_.BroadcastsInDim S2048x49x64 (![] : Fin 0 → Fin S2048x49x64.rank)
  slices_S2048x32768_S2048x16384_0_16384 : S2048x32768.Slices ![0, 16384] S2048x16384
  shapeCasts_S2048x16384_S2048x64x256 : S2048x16384.ShapeCasts S2048x64x256
  reducesTo_S2048x49x256_S2048x49_d2 : S2048x49x256.ReducesTo [2] S2048x49
  bcast_S2048x49x1_S2048x49x256_0_1_2 : S2048x49x1.BroadcastsInDim S2048x49x256 (![0, 1, 2] : Fin 3 → Fin S2048x49x256.rank)
  bcast_S256_S1x1x256_2 : S256.BroadcastsInDim S1x1x256 (![2] : Fin 1 → Fin S1x1x256.rank)
  bcast_S1x1x256_S2048x49x256_0_1_2 : S1x1x256.BroadcastsInDim S2048x49x256 (![0, 1, 2] : Fin 3 → Fin S2048x49x256.rank)
  bcast_S_S2048x49x256 : S_.BroadcastsInDim S2048x49x256 (![] : Fin 0 → Fin S2048x49x256.rank)
  shapeCasts_S2048x49x256_S2048x12544 : S2048x49x256.ShapeCasts S2048x12544
  transposes_S256x12544_S12544x256_1_0 : S256x12544.Transposes [1, 0] S12544x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  reducesTo_S2048x256_S2048_d1 : S2048x256.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  bcast_S_S2048x256 : S_.BroadcastsInDim S2048x256 (![] : Fin 0 → Fin S2048x256.rank)
  dot_S2048x256_S256x32768_S2048x32768_1_0_0_1_n_n_wf : DotDims.WF S2048x256 S256x32768 S2048x32768 [1] [0] [0] [1] [] []
  dot_S2048x49x256_S2048x256x64_S2048x49x64_2_1_1_2_0_0_wf : DotDims.WF S2048x49x256 S2048x256x64 S2048x49x64 [2] [1] [1] [2] [0] [0]
  dot_S2048x49x64_S2048x64x256_S2048x49x256_2_1_1_2_0_0_wf : DotDims.WF S2048x49x64 S2048x64x256 S2048x49x256 [2] [1] [1] [2] [0] [0]
  dot_S2048x12544_S12544x256_S2048x256_1_0_0_1_n_n_wf : DotDims.WF S2048x12544 S12544x256 S2048x256 [1] [0] [0] [1] [] []

variable [Facts₀]

def dot_S2048x256_S256x32768_S2048x32768_1_0_0_1_n_n : DotDims S2048x256 S256x32768 S2048x32768 where
  lhsContracting := [1]
  rhsContracting := [0]
  lhsNonContracting := [0]
  rhsNonContracting := [1]
  lhsBatch := []
  rhsBatch := []
  wf := dot_S2048x256_S256x32768_S2048x32768_1_0_0_1_n_n_wf
def dot_S2048x49x256_S2048x256x64_S2048x49x64_2_1_1_2_0_0 : DotDims S2048x49x256 S2048x256x64 S2048x49x64 where
  lhsContracting := [2]
  rhsContracting := [1]
  lhsNonContracting := [1]
  rhsNonContracting := [2]
  lhsBatch := [0]
  rhsBatch := [0]
  wf := dot_S2048x49x256_S2048x256x64_S2048x49x64_2_1_1_2_0_0_wf
def dot_S2048x49x64_S2048x64x256_S2048x49x256_2_1_1_2_0_0 : DotDims S2048x49x64 S2048x64x256 S2048x49x256 where
  lhsContracting := [2]
  rhsContracting := [1]
  lhsNonContracting := [1]
  rhsNonContracting := [2]
  lhsBatch := [0]
  rhsBatch := [0]
  wf := dot_S2048x49x64_S2048x64x256_S2048x49x256_2_1_1_2_0_0_wf
def dot_S2048x12544_S12544x256_S2048x256_1_0_0_1_n_n : DotDims S2048x12544 S12544x256 S2048x256 where
  lhsContracting := [1]
  rhsContracting := [0]
  lhsNonContracting := [0]
  rhsNonContracting := [1]
  lhsBatch := []
  rhsBatch := []
  wf := dot_S2048x12544_S12544x256_S2048x256_1_0_0_1_n_n_wf

class Facts : Prop extends Facts₀ where

variable [Facts]
-- ==== Proof.Consts.lean ====
/-
  The float constants the two programs spell, as the extended reals their bit patterns denote at the ideal
  instance: the two divisors of the means (64 and 256), the variance offset (a positive real a little under
  1/100000), and zero. Unfolded here once; every other module reads them from here.
-/
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The pattern of `64.0`, the divisor of a mean over 64 entries, denotes the real `64`. -/
theorem ofBits_64 : Ideal.ofBits .f32 0x42800000#32 = ((64 : ℝ) : EReal) := by
  simp [Ideal.ofBits, Ideal.ieee, -EReal.coe_mul]; norm_num

/-- The pattern of `256.0`, the divisor of a mean over 256 entries, denotes the real `256`. -/
theorem ofBits_256 : Ideal.ofBits .f32 0x43800000#32 = ((256 : ℝ) : EReal) := by
  simp [Ideal.ofBits, Ideal.ieee, -EReal.coe_mul]; norm_num

/-- The variance offset: the real the pattern `0x3727C5AC` denotes, `10995116 · 2⁻⁴⁰`. -/
def epsR : ℝ := 10995116 * (2 : ℝ) ^ (-40 : Int)

theorem epsR_pos : 0 < epsR := by unfold epsR; positivity

/-- The pattern of the variance offset denotes `epsR`. -/
theorem ofBits_eps : Ideal.ofBits .f32 0x3727C5AC#32 = ((epsR : ℝ) : EReal) := by
  unfold epsR
  simp [Ideal.ofBits, Ideal.ieee, -EReal.coe_mul]

end Cert.Consts

end
-- ==== Proof.NormLaw.lean ====
/-
  The one law that joins the two layer norms. The kernel scales a centred entry by the reciprocal square root of
  the offset variance, `d · rsqrt s`; the reference divides it by the square root, `d / sqrt s`. On the extended
  reals the two agree whenever `0 < s` (a positive real, or `+∞` where both are `0`), for EVERY `d`, the
  infinities included. And the offset variance is always positive: a square `d · d` is never negative on the
  extended reals (`(±∞)·(±∞) = +∞`), so neither is a sum of squares, nor that sum divided by a positive real, and
  adding the positive offset makes it positive. So the law needs no finiteness of the inputs.
-/
import Idealize.ShloMosaic.PureOps.Ideal

noncomputable section

namespace Cert.NormLaw

open Idealize.ShloMosaic

/-- For `0 < s`: scaling by the reciprocal square root is dividing by the square root, whatever is scaled. -/
theorem mul_rsqrt_eq_div_sqrt (a s : EReal) (hs : 0 < s) : a * Ideal.rsqrt s = Ideal.div a (Ideal.sqrt s) := by
  induction s using EReal.rec with
  | bot => exact absurd hs (not_lt.mpr bot_le)
  | top =>
    rw [Ideal.rsqrt_top, Ideal.sqrt_top, Ideal.div, if_neg EReal.top_ne_zero, EReal.inv_top]
  | coe r =>
    have hr : 0 < r := by exact_mod_cast hs
    have hsq : Real.sqrt r ≠ 0 := (Real.sqrt_pos.mpr hr).ne'
    simp only [Ideal.rsqrt_coe, Ideal.sqrt_coe, if_neg (not_lt.mpr hr.le), if_neg hr.ne']
    rw [Ideal.div, if_neg (by exact_mod_cast hsq), EReal.coe_inv]

/-- A square is never negative on the extended reals. -/
theorem square_nonneg (d : EReal) : 0 ≤ d * d := by
  induction d using EReal.rec with
  | bot => rw [EReal.bot_mul_bot]; exact le_top
  | top => rw [EReal.top_mul_top]; exact le_top
  | coe r => rw [← EReal.coe_mul]; exact_mod_cast _root_.mul_self_nonneg r

/-- A sum of squares is never negative. -/
theorem sum_mul_self_nonneg {ι : Type} (s : Finset ι) (d : ι → EReal) : 0 ≤ ∑ k ∈ s, d k * d k :=
  Finset.sum_nonneg fun k _ => square_nonneg (d k)

/-- Dividing a non-negative extended real by a positive real leaves it non-negative. -/
theorem div_coe_nonneg {S : EReal} (hS : 0 ≤ S) {N : ℝ} (hN : 0 < N) : 0 ≤ Ideal.div S (N : EReal) := by
  rw [Ideal.div_coe hN.ne']
  exact mul_nonneg hS (by exact_mod_cast (one_div_pos.mpr hN).le)

/-- The offset variance — a mean of squares plus a positive real — is positive. -/
theorem offset_var_pos {ι : Type} (s : Finset ι) (d : ι → EReal) {N e : ℝ} (hN : 0 < N) (he : 0 < e) :
    0 < Ideal.div (∑ k ∈ s, d k * d k) (N : EReal) + (e : EReal) :=
  lt_of_lt_of_le (by exact_mod_cast he)
    (le_add_of_nonneg_left (div_coe_nonneg (sum_mul_self_nonneg s d) hN))

end Cert.NormLaw

end
-- ==== Proof.Spec.lean ====
/-
  The specification: what one row of the result is, as a function of that row of `x`, that row of `v` and the
  weights. For a row `x : Fin 256 → EReal`, `v : Fin 256 → Fin 49 → EReal`:

    q₁ j = Σ_c x c · W₁ j c + c₁ j,            q₂ j = Σ_c x c · W₂ j c + c₂ j          (j < 16384)
    t₁ k h = Σ_u v u k · q₁ (64·u + h)                                                 (k < 49, h < 64)
    a₁ k · = max (LN₆₄ (t₁ k ·) g₀ b₀) 0
    t₂ k u = Σ_h a₁ k h · q₂ (256·h + u)                                               (u < 256)
    a₂ k · = max (LN₂₅₆ (t₂ k ·) g₁ b₁) 0
    w o    = Σ_j a₂ (j / 256) (j % 256) · Wv o j + cv o                                (j < 12544, o < 256)
    r o    = x o + max (LN₂₅₆ w gv bv o) 0
    out    = LN₂₅₆ r gf bf

  where `LN_N f g b i = scale (f i − μ) (σ² + ε) · g i + b i`, `μ` the mean of `f` and `σ²` the mean of the squared
  deviations. The kernel scales by the reciprocal square root (`scaleK`), the reference divides by the square root
  (`scaleR`); since the offset variance is positive the two layer norms are one function, and so are the two rows.
-/
import Idealize.ShloMosaic.PureOps.Ideal
import Idealize.ShloMosaic.Lib.ValueIdx
import proofs.«115709_j66700842107138_1_alg».proof.Proof.Consts
import proofs.«115709_j66700842107138_1_alg».proof.Proof.NormLaw

noncomputable section

namespace Cert.Spec

open Idealize.ShloMosaic Idealize.ShloMosaic.ValueIdx

/-- The kernel's scaling step: times the reciprocal square root. -/
def scaleK (a s : EReal) : EReal := a * Ideal.rsqrt s
/-- The reference's scaling step: divided by the square root. -/
def scaleR (a s : EReal) : EReal := Ideal.div a (Ideal.sqrt s)

/-- The three float literals both programs spell, kept as their patterns. -/
abbrev c64 : EReal := Ideal.ofBits .f32 0x42800000#32
abbrev c256 : EReal := Ideal.ofBits .f32 0x43800000#32
abbrev cEps : EReal := Ideal.ofBits .f32 0x3727C5AC#32
abbrev cZero : EReal := Ideal.ofBits .f32 0x00000000#32

/-- The mean of `n` entries: their sum divided by `N`. -/
def mean {n : Nat} (N : EReal) (f : Fin n → EReal) : EReal := Ideal.div (∑ k : Fin n, f k) N

/-- The mean of the squared deviations from the mean. -/
def var {n : Nat} (N : EReal) (f : Fin n → EReal) : EReal :=
  Ideal.div (∑ k : Fin n, (f k - mean N f) * (f k - mean N f)) N

/-- A layer norm over `n` entries, its scaling step a parameter. -/
def ln (scale : EReal → EReal → EReal) {n : Nat} (N e : EReal) (f g b : Fin n → EReal) (i : Fin n) : EReal :=
  scale (f i - mean N f) (var N f + e) * g i + b i

/-- With a positive real divisor and a positive real offset the two layer norms are one function. -/
theorem ln_scaleK_eq_scaleR {n : Nat} {N e : ℝ} (hN : 0 < N) (he : 0 < e) (f g b : Fin n → EReal) (i : Fin n) :
    ln scaleK (N : EReal) (e : EReal) f g b i = ln scaleR (N : EReal) (e : EReal) f g b i := by
  have hpos : 0 < var (N : EReal) f + (e : EReal) := by
    unfold var
    exact Cert.NormLaw.offset_var_pos Finset.univ (fun k => f k - mean (N : EReal) f) hN he
  unfold ln scaleK scaleR
  rw [Cert.NormLaw.mul_rsqrt_eq_div_sqrt _ _ hpos]

theorem ln64_eq {n : Nat} (f g b : Fin n → EReal) (i : Fin n) :
    ln scaleK c64 cEps f g b i = ln scaleR c64 cEps f g b i := by
  show ln scaleK (Ideal.ofBits .f32 0x42800000#32) (Ideal.ofBits .f32 0x3727C5AC#32) f g b i
    = ln scaleR (Ideal.ofBits .f32 0x42800000#32) (Ideal.ofBits .f32 0x3727C5AC#32) f g b i
  rw [Cert.Consts.ofBits_64, Cert.Consts.ofBits_eps]
  exact ln_scaleK_eq_scaleR (N := 64) (by norm_num) Cert.Consts.epsR_pos f g b i

theorem ln256_eq {n : Nat} (f g b : Fin n → EReal) (i : Fin n) :
    ln scaleK c256 cEps f g b i = ln scaleR c256 cEps f g b i := by
  show ln scaleK (Ideal.ofBits .f32 0x43800000#32) (Ideal.ofBits .f32 0x3727C5AC#32) f g b i
    = ln scaleR (Ideal.ofBits .f32 0x43800000#32) (Ideal.ofBits .f32 0x3727C5AC#32) f g b i
  rw [Cert.Consts.ofBits_256, Cert.Consts.ofBits_eps]
  exact ln_scaleK_eq_scaleR (N := 256) (by norm_num) Cert.Consts.epsR_pos f g b i

/-! ## Index arithmetic of the reshapes -/

/-- Entry `(u, h)` of the `[256, 64]` reshape of a `16384`-vector. -/
abbrev i1 (u : Fin 256) (h : Fin 64) : Fin 16384 := ⟨u.val * 64 + h.val, by have := u.isLt; have := h.isLt; omega⟩
/-- Entry `(h, u)` of the `[64, 256]` reshape of a `16384`-vector. -/
abbrev i2 (h : Fin 64) (u : Fin 256) : Fin 16384 := ⟨h.val * 256 + u.val, by have := u.isLt; have := h.isLt; omega⟩
/-- The `[49, 256]` coordinates of a position in the flattened `12544`-vector. -/
abbrev kOf (j : Fin 12544) : Fin 49 := ⟨j.val / 256, by have := j.isLt; omega⟩
abbrev uOf (j : Fin 12544) : Fin 256 := ⟨j.val % 256, by omega⟩

/-! ## One row -/

/-- A row times a weight matrix plus a bias: `Σ_c x c · W j c + c j`. -/
def lin (x : Fin 256 → EReal) (W : Fin 16384 → Fin 256 → EReal) (c : Fin 16384 → EReal) (j : Fin 16384) : EReal :=
  (∑ k : Fin 256, x k * W j k) + c j

section Row

variable (scale : EReal → EReal → EReal)
variable (xr : Fin 256 → EReal) (vr : Fin 256 → Fin 49 → EReal)
  (W1 W2 : Fin 16384 → Fin 256 → EReal) (c1 c2 : Fin 16384 → EReal)
  (g0 b0 : Fin 64 → EReal) (g1 b1 : Fin 256 → EReal)
  (Wv : Fin 256 → Fin 12544 → EReal) (cv gv bv gf bf : Fin 256 → EReal)

/-- The first per-sample product: `v`ᵀ against the `[256, 64]` reshape of `q₁`. -/
def t1 (k : Fin 49) (h : Fin 64) : EReal := ∑ u : Fin 256, vr u k * lin xr W1 c1 (i1 u h)

/-- Its layer norm over the 64 entries. -/
def z1 (k : Fin 49) (h : Fin 64) : EReal := ln scale c64 cEps (t1 xr vr W1 c1 k) g0 b0 h

/-- … and the positive part. -/
def a1 (k : Fin 49) (h : Fin 64) : EReal := max (z1 scale xr vr W1 c1 g0 b0 k h) cZero

/-- The second per-sample product: against the `[64, 256]` reshape of `q₂`. -/
def t2 (k : Fin 49) (u : Fin 256) : EReal :=
  ∑ h : Fin 64, a1 scale xr vr W1 c1 g0 b0 k h * lin xr W2 c2 (i2 h u)

def z2 (k : Fin 49) (u : Fin 256) : EReal := ln scale c256 cEps (t2 scale xr vr W1 W2 c1 c2 g0 b0 k) g1 b1 u

def a2 (k : Fin 49) (u : Fin 256) : EReal := max (z2 scale xr vr W1 W2 c1 c2 g0 b0 g1 b1 k u) cZero

/-- The flattened `[49·256]` vector against `Wv`, plus its bias. -/
def w (o : Fin 256) : EReal :=
  (∑ j : Fin 12544, a2 scale xr vr W1 W2 c1 c2 g0 b0 g1 b1 (kOf j) (uOf j) * Wv o j) + cv o

def z3 (o : Fin 256) : EReal := ln scale c256 cEps (w scale xr vr W1 W2 c1 c2 g0 b0 g1 b1 Wv cv) gv bv o

/-- The residual: the row plus the positive part of the third layer norm. -/
def r (o : Fin 256) : EReal := xr o + max (z3 scale xr vr W1 W2 c1 c2 g0 b0 g1 b1 Wv cv gv bv o) cZero

/-- The row of the result. -/
def out (o : Fin 256) : EReal := ln scale c256 cEps (r scale xr vr W1 W2 c1 c2 g0 b0 g1 b1 Wv cv gv bv) gf bf o

end Row

section Law

variable (xr : Fin 256 → EReal) (vr : Fin 256 → Fin 49 → EReal)
  (W1 W2 : Fin 16384 → Fin 256 → EReal) (c1 c2 : Fin 16384 → EReal)
  (g0 b0 : Fin 64 → EReal) (g1 b1 : Fin 256 → EReal)
  (Wv : Fin 256 → Fin 12544 → EReal) (cv gv bv gf bf : Fin 256 → EReal)

theorem z1_eq : z1 scaleK xr vr W1 c1 g0 b0 = z1 scaleR xr vr W1 c1 g0 b0 := by
  funext k h; exact ln64_eq _ _ _ _

theorem a1_eq : a1 scaleK xr vr W1 c1 g0 b0 = a1 scaleR xr vr W1 c1 g0 b0 := by
  funext k h; unfold a1; rw [z1_eq]

theorem t2_eq : t2 scaleK xr vr W1 W2 c1 c2 g0 b0 = t2 scaleR xr vr W1 W2 c1 c2 g0 b0 := by
  funext k u; unfold t2; rw [a1_eq]

theorem z2_eq : z2 scaleK xr vr W1 W2 c1 c2 g0 b0 g1 b1 = z2 scaleR xr vr W1 W2 c1 c2 g0 b0 g1 b1 := by
  funext k u; unfold z2; rw [t2_eq]; exact ln256_eq _ _ _ _

theorem a2_eq : a2 scaleK xr vr W1 W2 c1 c2 g0 b0 g1 b1 = a2 scaleR xr vr W1 W2 c1 c2 g0 b0 g1 b1 := by
  funext k u; unfold a2; rw [z2_eq]

theorem w_eq : w scaleK xr vr W1 W2 c1 c2 g0 b0 g1 b1 Wv cv = w scaleR xr vr W1 W2 c1 c2 g0 b0 g1 b1 Wv cv := by
  funext o; unfold w; rw [a2_eq]

theorem z3_eq : z3 scaleK xr vr W1 W2 c1 c2 g0 b0 g1 b1 Wv cv gv bv = z3 scaleR xr vr W1 W2 c1 c2 g0 b0 g1 b1 Wv cv gv bv := by
  funext o; unfold z3; rw [w_eq]; exact ln256_eq _ _ _ _

theorem r_eq : r scaleK xr vr W1 W2 c1 c2 g0 b0 g1 b1 Wv cv gv bv = r scaleR xr vr W1 W2 c1 c2 g0 b0 g1 b1 Wv cv gv bv := by
  funext o; unfold r; rw [z3_eq]

/-- The kernel's row and the reference's row are one function. -/
theorem out_eq : out scaleK xr vr W1 W2 c1 c2 g0 b0 g1 b1 Wv cv gv bv gf bf
    = out scaleR xr vr W1 W2 c1 c2 g0 b0 g1 b1 Wv cv gv bv gf bf := by
  funext o; unfold out; rw [r_eq]; exact ln256_eq _ _ _ _

end Law

/-! ## Rows of the whole arrays

The same functions with the rows taken out of the argument arrays: row `g` of `x` and of `v`, the two halves of
the fused weight `Wq` and of its bias (rows `j` and `16384 + j`), each vector through its one coordinate. -/

/-- Row `j` of the first half of the fused weight. -/
abbrev lo (j : Fin 16384) : Fin 32768 := ⟨j.val, by have := j.isLt; omega⟩
/-- Row `j` of the second half. -/
abbrev hi (j : Fin 16384) : Fin 32768 := ⟨16384 + j.val, by have := j.isLt; omega⟩

section Whole

variable (scale : EReal → EReal → EReal)
variable (x : (⟨2, ![2048, 256]⟩ : Shape).Idx → EReal) (v : (⟨3, ![2048, 256, 49]⟩ : Shape).Idx → EReal)
  (Wq : (⟨2, ![32768, 256]⟩ : Shape).Idx → EReal) (bq : (⟨1, ![32768]⟩ : Shape).Idx → EReal)
  (g0 b0 : (⟨1, ![64]⟩ : Shape).Idx → EReal) (g1 b1 : (⟨1, ![256]⟩ : Shape).Idx → EReal)
  (Wv : (⟨2, ![256, 12544]⟩ : Shape).Idx → EReal) (cv gv bv gf bf : (⟨1, ![256]⟩ : Shape).Idx → EReal)

/-- Entry `j` of row `g` of `x · Wqᵀ + bq`, over all `32768` columns. -/
def Gq (g : Fin 2048) (j : Fin 32768) : EReal := (∑ c : Fin 256, x (ix2 g c) * Wq (ix2 j c)) + bq (ix1 j)

def Gz1 (g : Fin 2048) (k : Fin 49) (h : Fin 64) : EReal :=
  z1 scale (fun c => x (ix2 g c)) (fun u k => v (ix3 g u k)) (fun j c => Wq (ix2 (lo j) c)) (fun j => bq (ix1 (lo j)))
    (fun h => g0 (ix1 h)) (fun h => b0 (ix1 h)) k h

def Ga1 (g : Fin 2048) (k : Fin 49) (h : Fin 64) : EReal :=
  a1 scale (fun c => x (ix2 g c)) (fun u k => v (ix3 g u k)) (fun j c => Wq (ix2 (lo j) c)) (fun j => bq (ix1 (lo j)))
    (fun h => g0 (ix1 h)) (fun h => b0 (ix1 h)) k h

def Ga2 (g : Fin 2048) (k : Fin 49) (u : Fin 256) : EReal :=
  a2 scale (fun c => x (ix2 g c)) (fun u k => v (ix3 g u k)) (fun j c => Wq (ix2 (lo j) c)) (fun j c => Wq (ix2 (hi j) c))
    (fun j => bq (ix1 (lo j))) (fun j => bq (ix1 (hi j))) (fun h => g0 (ix1 h)) (fun h => b0 (ix1 h))
    (fun u => g1 (ix1 u)) (fun u => b1 (ix1 u)) k u

def Gr (g : Fin 2048) (o : Fin 256) : EReal :=
  r scale (fun c => x (ix2 g c)) (fun u k => v (ix3 g u k)) (fun j c => Wq (ix2 (lo j) c)) (fun j c => Wq (ix2 (hi j) c))
    (fun j => bq (ix1 (lo j))) (fun j => bq (ix1 (hi j))) (fun h => g0 (ix1 h)) (fun h => b0 (ix1 h))
    (fun u => g1 (ix1 u)) (fun u => b1 (ix1 u)) (fun o j => Wv (ix2 o j)) (fun o => cv (ix1 o))
    (fun o => gv (ix1 o)) (fun o => bv (ix1 o)) o

/-- Entry `(g, o)` of the result. -/
def Gout (g : Fin 2048) (o : Fin 256) : EReal :=
  out scale (fun c => x (ix2 g c)) (fun u k => v (ix3 g u k)) (fun j c => Wq (ix2 (lo j) c)) (fun j c => Wq (ix2 (hi j) c))
    (fun j => bq (ix1 (lo j))) (fun j => bq (ix1 (hi j))) (fun h => g0 (ix1 h)) (fun h => b0 (ix1 h))
    (fun u => g1 (ix1 u)) (fun u => b1 (ix1 u)) (fun o j => Wv (ix2 o j)) (fun o => cv (ix1 o))
    (fun o => gv (ix1 o)) (fun o => bv (ix1 o)) (fun o => gf (ix1 o)) (fun o => bf (ix1 o)) o

end Whole

/-- The kernel's result array and the reference's are one function of the argument arrays. -/
theorem Gout_eq (x : (⟨2, ![2048, 256]⟩ : Shape).Idx → EReal) (v : (⟨3, ![2048, 256, 49]⟩ : Shape).Idx → EReal)
    (Wq : (⟨2, ![32768, 256]⟩ : Shape).Idx → EReal) (bq : (⟨1, ![32768]⟩ : Shape).Idx → EReal)
    (g0 b0 : (⟨1, ![64]⟩ : Shape).Idx → EReal) (g1 b1 : (⟨1, ![256]⟩ : Shape).Idx → EReal)
    (Wv : (⟨2, ![256, 12544]⟩ : Shape).Idx → EReal) (cv gv bv gf bf : (⟨1, ![256]⟩ : Shape).Idx → EReal) :
    Gout scaleK x v Wq bq g0 b0 g1 b1 Wv cv gv bv gf bf = Gout scaleR x v Wq bq g0 b0 g1 b1 Wv cv gv bv gf bf := by
  funext g o; unfold Gout; rw [out_eq]

end Cert.Spec

end
-- ==== Proof.KLin.lean ====
/-
  A block row times a resident weight matrix plus its bias, read at an entry. The kernel computes
  `x_blk · Wᵀ + c` for the whole 32-row block at once (a matrix product into a zero accumulator, the bias
  broadcast down the rows); entry `(n, j)` of it is `Σ_c x_blk[n, c] · Wᵀ[c, j] + c[j]`, which is the
  specification's `lin` of row `n`.
-/
import proofs.«115709_j66700842107138_1_alg».proof.Proof.Gen.KernelIdeal.Skeleton
import proofs.«115709_j66700842107138_1_alg».proof.Proof.Spec
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx Cert.Spec

namespace KLin

/-- The left operand's index of the block product: its row is the output's row. -/
theorem lhs_lin_0 (i : S32x16384.Idx) (q : dot_S32x256_S256x16384_S32x16384_1_0_0_1_n_n.contr.Idx) :
    (dot_S32x256_S256x16384_S32x16384_1_0_0_1_n_n.lhsIdx i q 0).val = (i 0).val := by
  unfold DotDims.lhsIdx
  rw [dif_neg (show ¬(0 : Fin S32x256.rank) ∈ dot_S32x256_S256x16384_S32x16384_1_0_0_1_n_n.lhsBatch by decide), dif_pos (show (0 : Fin S32x256.rank) ∈ dot_S32x256_S256x16384_S32x16384_1_0_0_1_n_n.lhsNonContracting by decide)]
  rfl
/-- … and its column is the contraction coordinate. -/
theorem lhs_lin_1 (i : S32x16384.Idx) (q : dot_S32x256_S256x16384_S32x16384_1_0_0_1_n_n.contr.Idx) :
    (dot_S32x256_S256x16384_S32x16384_1_0_0_1_n_n.lhsIdx i q 1).val = (q ⟨0, by decide⟩).val :=
  dot_S32x256_S256x16384_S32x16384_1_0_0_1_n_n.lhsIdx_val_of_single rfl i q
/-- The right operand's index: its row is the contraction coordinate. -/
theorem rhs_lin_0 (i : S32x16384.Idx) (q : dot_S32x256_S256x16384_S32x16384_1_0_0_1_n_n.contr.Idx) :
    (dot_S32x256_S256x16384_S32x16384_1_0_0_1_n_n.rhsIdx i q 0).val = (q ⟨0, by decide⟩).val :=
  dot_S32x256_S256x16384_S32x16384_1_0_0_1_n_n.rhsIdx_val_of_single rfl i q
/-- … and its column is the output's column. -/
theorem rhs_lin_1 (i : S32x16384.Idx) (q : dot_S32x256_S256x16384_S32x16384_1_0_0_1_n_n.contr.Idx) :
    (dot_S32x256_S256x16384_S32x16384_1_0_0_1_n_n.rhsIdx i q 1).val = (i 1).val := by
  unfold DotDims.rhsIdx
  rw [dif_neg (show ¬(1 : Fin S256x16384.rank) ∈ dot_S32x256_S256x16384_S32x16384_1_0_0_1_n_n.rhsBatch by decide), dif_pos (show (1 : Fin S256x16384.rank) ∈ dot_S32x256_S256x16384_S32x16384_1_0_0_1_n_n.rhsNonContracting by decide)]
  rfl

/-- The block product into the zero accumulator at entry `(n, j)`: the sum over the 256 columns of `V`. -/
theorem mm_lin_apply (V1 : FVec Ideal S32x256 .bf16) (R : FVec Ideal S256x16384 .bf16) (n : Fin 32) (j : Fin 16384) :
    matmul dot_S32x256_S256x16384_S32x16384_1_0_0_1_n_n none V1 R (constant S32x16384 .f32 0x00000000#32) (ix2 n j)
      = ∑ k : Fin 256, V1 (ix2 n k) * R (ix2 k j) := by
  refine (Ideal.matmul_constant_zero_apply dot_S32x256_S256x16384_S32x16384_1_0_0_1_n_n none V1 R (ix2 n j)).trans ?_
  rw [← Equiv.sum_comp (ValueIdx.contrEquiv1 dot_S32x256_S256x16384_S32x16384_1_0_0_1_n_n 256 rfl rfl).symm]
  refine Finset.sum_congr rfl fun k _ => ?_
  have hk := ValueIdx.contrEquiv1_symm_val dot_S32x256_S256x16384_S32x16384_1_0_0_1_n_n 256 rfl rfl k
  have el : dot_S32x256_S256x16384_S32x16384_1_0_0_1_n_n.lhsIdx (ix2 n j) ((ValueIdx.contrEquiv1 dot_S32x256_S256x16384_S32x16384_1_0_0_1_n_n 256 rfl rfl).symm k) = ix2 n k := funext fun a => Fin.ext (by
    match a with
    | ⟨0, _⟩ => exact lhs_lin_0 _ _
    | ⟨1, _⟩ => exact (lhs_lin_1 _ _).trans hk)
  have er : dot_S32x256_S256x16384_S32x16384_1_0_0_1_n_n.rhsIdx (ix2 n j) ((ValueIdx.contrEquiv1 dot_S32x256_S256x16384_S32x16384_1_0_0_1_n_n 256 rfl rfl).symm k) = ix2 k j := funext fun a => Fin.ext (by
    match a with
    | ⟨0, _⟩ => exact (rhs_lin_0 _ _).trans hk
    | ⟨1, _⟩ => exact rhs_lin_1 _ _)
  rw [el, er]

/-- The bias, cast to a one-row matrix and broadcast down the rows, at entry `(n, j)` is its entry `j`. -/
theorem bias_lin_apply (P2 : FVec Ideal S16384 .f32) (n : Fin 32) (j : Fin 16384) :
    broadcastTo S32x16384 (shapeCast S1x16384 (shapeCast S16384 P2 shapeCasts_S16384_S16384) shapeCasts_S16384_S1x16384)
        broadcasts_S1x16384_S32x16384 (ix2 n j) = P2 (ix1 j) := by
  refine (broadcastTo_apply _ broadcasts_S1x16384_S32x16384 (ix2 n j) (ix2 (0 : Fin 1) j) (fun a => match a with
    | ⟨0, _⟩ => by show 0 = (if (1 : Nat) = 1 then 0 else n.val); rw [if_pos rfl]
    | ⟨1, _⟩ => by show j.val = (if (16384 : Nat) = 1 then 0 else j.val); rw [if_neg (by decide)])).trans ?_
  refine (shapeCast_apply _ shapeCasts_S16384_S1x16384 (ix2 (0 : Fin 1) j) (ix1 j) (by
    rw [Shape.rowMajor_val_one, Shape.rowMajor_val_two]; show j.val = 0 * 16384 + j.val; omega)).trans ?_
  exact shapeCast_apply P2 shapeCasts_S16384_S16384 (ix1 j) (ix1 j) rfl

end KLin

/-- Entry `(n, j)` of `V · Wᵀ + c` is `lin` of row `n` of `V`. -/
theorem lin_apply (V1 : FVec Ideal S32x256 .bf16) (P1 : FVec Ideal S256x16384 .bf16) (P2 : FVec Ideal S16384 .f32)
    (n : Fin 32) (j : Fin 16384) :
    addf (matmul dot_S32x256_S256x16384_S32x16384_1_0_0_1_n_n none V1
            (shapeCast S256x16384 P1 shapeCasts_S256x16384_S256x16384) (constant S32x16384 .f32 0x00000000#32))
         (broadcastTo S32x16384 (shapeCast S1x16384 (shapeCast S16384 P2 shapeCasts_S16384_S16384) shapeCasts_S16384_S1x16384)
            broadcasts_S1x16384_S32x16384) (ix2 n j)
      = lin (fun c => V1 (ix2 n c)) (fun j c => P1 (ix2 c j)) (fun j => P2 (ix1 j)) j := by
  refine (addf_apply _ _ (ix2 n j)).trans ?_
  unfold lin
  refine congrArg₂ (· + ·) ?_ (KLin.bias_lin_apply P2 n j)
  refine (KLin.mm_lin_apply V1 _ n j).trans (Finset.sum_congr rfl fun k _ => ?_)
  exact congrArg (V1 (ix2 n k) * ·) (shapeCast_apply P1 shapeCasts_S256x16384_S256x16384 (ix2 k j) (ix2 k j) rfl)

end Cert.KernelIdeal.Hand

end
-- ==== Proof.KStage1.lean ====
/-
  The first stage of the kernel body at a block entry: `q₁` reshaped to `[256, 64]` per row, the per-row product
  with `v`ᵀ, and the layer norm over the 64 entries. Entry `(n, k, h)` is the specification's `z1` of row `n`.
-/
import proofs.«115709_j66700842107138_1_alg».proof.Proof.KLin

noncomputable section

namespace Cert.KernelIdeal.Hand

open Cert.KernelIdeal Cert.KernelIdeal.Gen Idealize.ShloMosaic Idealize.ShloMosaic.ValueIdx Cert.Spec

namespace KStage1

/-! ## The per-row product -/

/-- The left operand's index of the per-row product: the batch coordinate is the output's. -/
theorem lhs_0 (i : S32x49x64.Idx) (q : dot_S32x49x256_S32x256x64_S32x49x64_2_1_1_2_0_0.contr.Idx) :
    (dot_S32x49x256_S32x256x64_S32x49x64_2_1_1_2_0_0.lhsIdx i q 0).val = (i 0).val := by
  unfold DotDims.lhsIdx
  rw [dif_pos (show (0 : Fin S32x49x256.rank) ∈ dot_S32x49x256_S32x256x64_S32x49x64_2_1_1_2_0_0.lhsBatch by decide)]
  rfl
/-- Its row is the output's row. -/
theorem lhs_1 (i : S32x49x64.Idx) (q : dot_S32x49x256_S32x256x64_S32x49x64_2_1_1_2_0_0.contr.Idx) :
    (dot_S32x49x256_S32x256x64_S32x49x64_2_1_1_2_0_0.lhsIdx i q 1).val = (i 1).val := by
  unfold DotDims.lhsIdx
  rw [dif_neg (show ¬(1 : Fin S32x49x256.rank) ∈ dot_S32x49x256_S32x256x64_S32x49x64_2_1_1_2_0_0.lhsBatch by decide), dif_pos (show (1 : Fin S32x49x256.rank) ∈ dot_S32x49x256_S32x256x64_S32x49x64_2_1_1_2_0_0.lhsNonContracting by decide)]
  rfl
/-- Its column is the contraction coordinate. -/
theorem lhs_2 (i : S32x49x64.Idx) (q : dot_S32x49x256_S32x256x64_S32x49x64_2_1_1_2_0_0.contr.Idx) :
    (dot_S32x49x256_S32x256x64_S32x49x64_2_1_1_2_0_0.lhsIdx i q 2).val = (q ⟨0, by decide⟩).val :=
  dot_S32x49x256_S32x256x64_S32x49x64_2_1_1_2_0_0.lhsIdx_val_of_single rfl i q
/-- The right operand's index: the batch coordinate is the output's. -/
theorem rhs_0 (i : S32x49x64.Idx) (q : dot_S32x49x256_S32x256x64_S32x49x64_2_1_1_2_0_0.contr.Idx) :
    (dot_S32x49x256_S32x256x64_S32x49x64_2_1_1_2_0_0.rhsIdx i q 0).val = (i 0).val := by
  unfold DotDims.rhsIdx
  rw [dif_pos (show (0 : Fin S32x256x64.rank) ∈ dot_S32x49x256_S32x256x64_S32x49x64_2_1_1_2_0_0.rhsBatch by decide)]
  rfl
/-- Its row is the contraction coordinate. -/
theorem rhs_1 (i : S32x49x64.Idx) (q : dot_S32x49x256_S32x256x64_S32x49x64_2_1_1_2_0_0.contr.Idx) :
    (dot_S32x49x256_S32x256x64_S32x49x64_2_1_1_2_0_0.rhsIdx i q 1).val = (q ⟨0, by decide⟩).val :=
  dot_S32x49x256_S32x256x64_S32x49x64_2_1_1_2_0_0.rhsIdx_val_of_single rfl i q
/-- Its column is the output's column. -/
theorem rhs_2 (i : S32x49x64.Idx) (q : dot_S32x49x256_S32x256x64_S32x49x64_2_1_1_2_0_0.contr.Idx) :
    (dot_S32x49x256_S32x256x64_S32x49x64_2_1_1_2_0_0.rhsIdx i q 2).val = (i 2).val := by
  unfold DotDims.rhsIdx
  rw [dif_neg (show ¬(2 : Fin S32x256x64.rank) ∈ dot_S32x49x256_S32x256x64_S32x49x64_2_1_1_2_0_0.rhsBatch by decide), dif_pos (show (2 : Fin S32x256x64.rank) ∈ dot_S32x49x256_S32x256x64_S32x49x64_2_1_1_2_0_0.rhsNonContracting by decide)]
  rfl

/-- The product batched over the rows, into the zero accumulator, at entry `(n, k, h)`: the sum over the 256
    contracted coordinates. -/
theorem bmm_apply (A : FVec Ideal S32x49x256 .bf16) (B : FVec Ideal S32x256x64 .bf16) (n : Fin 32) (k : Fin 49) (h : Fin 64) :
    matmul dot_S32x49x256_S32x256x64_S32x49x64_2_1_1_2_0_0 none A B (constant S32x49x64 .f32 0x00000000#32) (ix3 n k h)
      = ∑ u : Fin 256, A (ix3 n k u) * B (ix3 n u h) := by
  refine (Ideal.matmul_constant_zero_apply dot_S32x49x256_S32x256x64_S32x49x64_2_1_1_2_0_0 none A B (ix3 n k h)).trans ?_
  rw [← Equiv.sum_comp (ValueIdx.contrEquiv1 dot_S32x49x256_S32x256x64_S32x49x64_2_1_1_2_0_0 256 rfl rfl).symm]
  refine Finset.sum_congr rfl fun u _ => ?_
  have hu := ValueIdx.contrEquiv1_symm_val dot_S32x49x256_S32x256x64_S32x49x64_2_1_1_2_0_0 256 rfl rfl u
  have el : dot_S32x49x256_S32x256x64_S32x49x64_2_1_1_2_0_0.lhsIdx (ix3 n k h) ((ValueIdx.contrEquiv1 dot_S32x49x256_S32x256x64_S32x49x64_2_1_1_2_0_0 256 rfl rfl).symm u) = ix3 n k u := funext fun a => Fin.ext (by
    match a with
    | ⟨0, _⟩ => exact lhs_0 _ _
    | ⟨1, _⟩ => exact lhs_1 _ _
    | ⟨2, _⟩ => exact (lhs_2 _ _).trans hu)
  have er : dot_S32x49x256_S32x256x64_S32x49x64_2_1_1_2_0_0.rhsIdx (ix3 n k h) ((ValueIdx.contrEquiv1 dot_S32x49x256_S32x256x64_S32x49x64_2_1_1_2_0_0 256 rfl rfl).symm u) = ix3 n u h := funext fun a => Fin.ext (by
    match a with
    | ⟨0, _⟩ => exact rhs_0 _ _
    | ⟨1, _⟩ => exact (rhs_1 _ _).trans hu
    | ⟨2, _⟩ => exact rhs_2 _ _)
  rw [el, er]

/-- The `[32, 16384] → [32, 256, 64]` reshape at `(n, u, h)` reads column `64·u + h` of row `n`. -/
theorem reshape_apply (Q : FVec Ideal S32x16384 .f32) (n : Fin 32) (u : Fin 256) (h : Fin 64) :
    shapeCast S32x256x64 Q shapeCasts_S32x16384_S32x256x64 (ix3 n u h) = Q (ix2 n (i1 u h)) := by
  refine shapeCast_apply Q shapeCasts_S32x16384_S32x256x64 (ix3 n u h) (ix2 n (i1 u h)) ?_
  rw [Shape.rowMajor_val_two, Shape.rowMajor_val_three]
  show n.val * 16384 + (u.val * 64 + h.val) = (n.val * 256 + u.val) * 64 + h.val
  omega

/-- The transpose of the last two axes at `(n, k, u)` reads `(n, u, k)`. -/
theorem transpose_apply' (P3 : FVec Ideal S32x256x49 .f32) (n : Fin 32) (k : Fin 49) (u : Fin 256) :
    transpose S32x49x256 [0, 2, 1] P3 transposes_S32x256x49_p0_2_1_S32x49x256 (ix3 n k u) = P3 (ix3 n u k) :=
  transpose_apply [0, 2, 1] P3 transposes_S32x256x49_p0_2_1_S32x49x256 (ix3 n k u) (ix3 n u k) (fun b => match b with
    | ⟨0, _⟩ => rfl
    | ⟨1, _⟩ => rfl
    | ⟨2, _⟩ => rfl)

/-- The first per-row product, as the tree of vector operations the kernel applies. -/
def t1Tree (P0 : FVec Ideal S32x256 .f32) (P1 : FVec Ideal S256x16384 .bf16) (P2 : FVec Ideal S16384 .f32)
    (P3 : FVec Ideal S32x256x49 .f32) : FVec Ideal S32x49x64 .f32 :=
  matmul dot_S32x49x256_S32x256x64_S32x49x64_2_1_1_2_0_0 none
    (truncf .bf16 (transpose S32x49x256 [0, 2, 1] P3 transposes_S32x256x49_p0_2_1_S32x49x256) bitsLt_bf16_f32)
    (truncf .bf16 (shapeCast S32x256x64
      (addf (matmul dot_S32x256_S256x16384_S32x16384_1_0_0_1_n_n none (k0_pay2 P0)
              (shapeCast S256x16384 P1 shapeCasts_S256x16384_S256x16384) (constant S32x16384 .f32 0x00000000#32))
            (broadcastTo S32x16384 (shapeCast S1x16384 (shapeCast S16384 P2 shapeCasts_S16384_S16384) shapeCasts_S16384_S1x16384)
              broadcasts_S1x16384_S32x16384))
      shapeCasts_S32x16384_S32x256x64) bitsLt_bf16_f32)
    (constant S32x49x64 .f32 0x00000000#32)

/-- Entry `(n, k, h)` of it is the specification's `t1` of row `n`. -/
theorem t1Tree_apply (P0 : FVec Ideal S32x256 .f32) (P1 : FVec Ideal S256x16384 .bf16) (P2 : FVec Ideal S16384 .f32)
    (P3 : FVec Ideal S32x256x49 .f32) (n : Fin 32) (k : Fin 49) (h : Fin 64) :
    t1Tree P0 P1 P2 P3 (ix3 n k h)
      = t1 (fun c => P0 (ix2 n c)) (fun u k => P3 (ix3 n u k)) (fun j c => P1 (ix2 c j)) (fun j => P2 (ix1 j)) k h := by
  unfold t1Tree t1
  refine (bmm_apply _ _ n k h).trans (Finset.sum_congr rfl fun u _ => ?_)
  refine congrArg₂ (· * ·) ?_ ?_
  · refine (truncf_apply _ bitsLt_bf16_f32 (ix3 n k u)).trans ?_
    exact transpose_apply' P3 n k u
  · refine (truncf_apply _ bitsLt_bf16_f32 (ix3 n u h)).trans ?_
    refine (reshape_apply _ n u h).trans ?_
    exact lin_apply (k0_pay2 P0) P1 P2 n (i1 u h)

/-! ## The layer norm over the last axis -/

/-- The sum over the last axis at `(n, k)`. -/
theorem sum64_apply (X : FVec Ideal S32x49x64 .f32) (n : Fin 32) (k : Fin 49) :
    multiReduction .add [2] S32x49 X 0x00000000#32 reduces_S32x49x64_S32x49 (.inl rfl) rfl (ix2 n k)
      = ∑ h : Fin 64, X (ix3 n k h) := by
  refine (Ideal.multiReduction_add_single X 0x00000000#32 reduces_S32x49x64_S32x49 (.inl rfl) rfl (ix2 n k)).trans ?_
  refine Finset.sum_congr rfl fun h _ => ?_
  exact congrArg X (funext fun a => Fin.ext (by match a with | ⟨0, _⟩ => rfl | ⟨1, _⟩ => rfl | ⟨2, _⟩ => rfl))

/-- A `[32, 49]` value as a `[32, 49, 1]` column. -/
theorem col_apply (Y : FVec Ideal S32x49 .f32) (n : Fin 32) (k : Fin 49) :
    shapeCast S32x49x1 Y shapeCasts_S32x49_S32x49x1 (ix3 n k (0 : Fin 1)) = Y (ix2 n k) := by
  refine shapeCast_apply Y shapeCasts_S32x49_S32x49x1 (ix3 n k (0 : Fin 1)) (ix2 n k) ?_
  rw [Shape.rowMajor_val_two, Shape.rowMajor_val_three]
  show n.val * 49 + k.val = (n.val * 49 + k.val) * 1 + 0
  omega

/-- A column broadcast back along the last axis. -/
theorem bcast_apply (Z : FVec Ideal S32x49x1 .f32) (n : Fin 32) (k : Fin 49) (h : Fin 64) :
    broadcastTo S32x49x64 Z broadcasts_S32x49x1_S32x49x64 (ix3 n k h) = Z (ix3 n k (0 : Fin 1)) :=
  broadcastTo_apply Z broadcasts_S32x49x1_S32x49x64 (ix3 n k h) (ix3 n k (0 : Fin 1)) (fun a => match a with
    | ⟨0, _⟩ => by show n.val = (if (32 : Nat) = 1 then 0 else n.val); rw [if_neg (by decide)]
    | ⟨1, _⟩ => by show k.val = (if (49 : Nat) = 1 then 0 else k.val); rw [if_neg (by decide)]
    | ⟨2, _⟩ => by show 0 = (if (1 : Nat) = 1 then 0 else h.val); rw [if_pos rfl])

/-- A 64-vector cast to `[1, 1, 64]` and broadcast over rows and positions. -/
theorem vec_apply (G : FVec Ideal S64 .f32) (n : Fin 32) (k : Fin 49) (h : Fin 64) :
    broadcastTo S32x49x64 (shapeCast S1x1x64 G shapeCasts_S64_S1x1x64) broadcasts_S1x1x64_S32x49x64 (ix3 n k h) = G (ix1 h) := by
  refine (broadcastTo_apply _ broadcasts_S1x1x64_S32x49x64 (ix3 n k h) (ix3 (0 : Fin 1) (0 : Fin 1) h) (fun a => match a with
    | ⟨0, _⟩ => by show 0 = (if (1 : Nat) = 1 then 0 else n.val); rw [if_pos rfl]
    | ⟨1, _⟩ => by show 0 = (if (1 : Nat) = 1 then 0 else k.val); rw [if_pos rfl]
    | ⟨2, _⟩ => by show h.val = (if (64 : Nat) = 1 then 0 else h.val); rw [if_neg (by decide)])).trans ?_
  refine shapeCast_apply G shapeCasts_S64_S1x1x64 (ix3 (0 : Fin 1) (0 : Fin 1) h) (ix1 h) ?_
  rw [Shape.rowMajor_val_one, Shape.rowMajor_val_three]
  show h.val = (0 * 1 + 0) * 64 + h.val
  omega

/-- The mean over the last axis, kept as a column. -/
def muTree (T : FVec Ideal S32x49x64 .f32) : FVec Ideal S32x49x1 .f32 :=
  divf (shapeCast S32x49x1 (multiReduction .add [2] S32x49 T 0x00000000#32 reduces_S32x49x64_S32x49 (.inl rfl) rfl) shapeCasts_S32x49_S32x49x1)
    (broadcast S32x49x1 (Scalar.ofBits .f32 0x42800000#32))

/-- The deviation from the mean. -/
def devTree (T : FVec Ideal S32x49x64 .f32) : FVec Ideal S32x49x64 .f32 :=
  subf T (broadcastTo S32x49x64 (muTree T) broadcasts_S32x49x1_S32x49x64)

/-- The reciprocal square root of the offset variance, a column. -/
def rsTree (T : FVec Ideal S32x49x64 .f32) : FVec Ideal S32x49x1 .f32 :=
  rsqrt (addf (muTree (mulf (devTree T) (devTree T))) (broadcast S32x49x1 (Scalar.ofBits .f32 0x3727C5AC#32)))

/-- The layer norm over the last axis with scale `G` and shift `B`. -/
def lnTree (T : FVec Ideal S32x49x64 .f32) (G B : FVec Ideal S64 .f32) : FVec Ideal S32x49x64 .f32 :=
  addf (mulf (mulf (devTree T) (broadcastTo S32x49x64 (rsTree T) broadcasts_S32x49x1_S32x49x64))
          (broadcastTo S32x49x64 (shapeCast S1x1x64 G shapeCasts_S64_S1x1x64) broadcasts_S1x1x64_S32x49x64))
    (broadcastTo S32x49x64 (shapeCast S1x1x64 B shapeCasts_S64_S1x1x64) broadcasts_S1x1x64_S32x49x64)

/-- The mean column at `(n, k)` is the specification's mean of the 64 entries there. -/
theorem mu_apply (T : FVec Ideal S32x49x64 .f32) (n : Fin 32) (k : Fin 49) :
    muTree T (ix3 n k (0 : Fin 1)) = mean c64 (fun h => T (ix3 n k h)) := by
  unfold muTree mean
  refine (divf_apply _ _ _).trans ?_
  refine congrArg (Ideal.div · c64) ?_
  exact (col_apply _ n k).trans (sum64_apply T n k)

/-- The deviation at `(n, k, h)` is the entry less that mean. -/
theorem dev_apply (T : FVec Ideal S32x49x64 .f32) (n : Fin 32) (k : Fin 49) (h : Fin 64) :
    devTree T (ix3 n k h) = T (ix3 n k h) - mean c64 (fun h => T (ix3 n k h)) := by
  unfold devTree
  refine (subf_apply _ _ _).trans ?_
  refine congrArg (T (ix3 n k h) - ·) ?_
  exact (bcast_apply _ n k h).trans (mu_apply T n k)

/-- The column of reciprocal square roots at `(n, k)`: of the specification's variance there plus the offset. -/
theorem rs_apply (T : FVec Ideal S32x49x64 .f32) (n : Fin 32) (k : Fin 49) :
    rsTree T (ix3 n k (0 : Fin 1)) = Ideal.rsqrt (var c64 (fun h => T (ix3 n k h)) + cEps) := by
  unfold rsTree
  show Ideal.rsqrt (muTree (mulf (devTree T) (devTree T)) (ix3 n k (0 : Fin 1)) + cEps) = _
  refine congrArg (fun s => Ideal.rsqrt (s + cEps)) ?_
  refine (mu_apply _ n k).trans ?_
  show mean c64 _ = mean c64 (fun h' => (T (ix3 n k h') - mean c64 (fun h => T (ix3 n k h))) * (T (ix3 n k h') - mean c64 (fun h => T (ix3 n k h))))
  refine congrArg (mean c64) (funext fun h' => ?_)
  show devTree T (ix3 n k h') * devTree T (ix3 n k h') = _
  rw [dev_apply]

/-- Entry `(n, k, h)` of the layer norm is the specification's `ln` of the 64 entries at `(n, k)`. -/
theorem lnTree_apply (T : FVec Ideal S32x49x64 .f32) (G B : FVec Ideal S64 .f32) (n : Fin 32) (k : Fin 49) (h : Fin 64) :
    lnTree T G B (ix3 n k h)
      = ln scaleK c64 cEps (fun h => T (ix3 n k h)) (fun h => G (ix1 h)) (fun h => B (ix1 h)) h := by
  unfold lnTree ln scaleK
  show devTree T (ix3 n k h) * broadcastTo S32x49x64 (rsTree T) broadcasts_S32x49x1_S32x49x64 (ix3 n k h)
        * broadcastTo S32x49x64 (shapeCast S1x1x64 G shapeCasts_S64_S1x1x64) broadcasts_S1x1x64_S32x49x64 (ix3 n k h)
      + broadcastTo S32x49x64 (shapeCast S1x1x64 B shapeCasts_S64_S1x1x64) broadcasts_S1x1x64_S32x49x64 (ix3 n k h) = _
  rw [dev_apply, vec_apply, vec_apply, bcast_apply, rs_apply]

end KStage1

/-- Entry `(n, k, h)` of the first stage's value is `z1` of row `n` of the blocks. -/
theorem pay3_apply (P0 : Vec Ideal S32x256 .f32) (P1 : Vec Ideal S256x16384 .bf16) (P2 : Vec Ideal S16384 .f32)
    (P3 : Vec Ideal S32x256x49 .f32) (P4 P5 : Vec Ideal S64 .f32) (n : Fin 32) (k : Fin 49) (h : Fin 64) :
    k0_pay3 P0 P1 P2 P3 P4 P5 (ix3 n k h)
      = z1 scaleK (fun c => P0 (ix2 n c)) (fun u k => P3 (ix3 n u k)) (fun j c => P1 (ix2 c j)) (fun j => P2 (ix1 j))
          (fun h => P4 (ix1 h)) (fun h => P5 (ix1 h)) k h := by
  have e : k0_pay3 P0 P1 P2 P3 P4 P5 = KStage1.lnTree (KStage1.t1Tree P0 P1 P2 P3) P4 P5 := rfl
  refine (congrFun e (ix3 n k h)).trans ?_
  refine (KStage1.lnTree_apply _ P4 P5 n k h).trans ?_
  unfold z1
  refine congrArg (fun f => ln scaleK c64 cEps f (fun h => P4 (ix1 h)) (fun h => P5 (ix1 h)) h) ?_
  exact funext fun h' => KStage1.t1Tree_apply P0 P1 P2 P3 n k h'

end Cert.KernelIdeal.Hand

end
-- ==== Proof.KStage2.lean ====
/-
  The second stage at a block entry: the positive part of the first stage, `q₂` reshaped to `[64, 256]` per row,
  their per-row product, the layer norm over the 256 entries, its positive part, and the flattening of
  `[49, 256]` to `12544`: entry `(n, j)` sits at `(k, u) = (j / 256, j % 256)`.
-/
import proofs.«115709_j66700842107138_1_alg».proof.Proof.KLin

noncomputable section

namespace Cert.KernelIdeal.Hand

open Cert.KernelIdeal Cert.KernelIdeal.Gen Idealize.ShloMosaic Idealize.ShloMosaic.ValueIdx Cert.Spec

namespace Stage2

/-! ## The layout operations of this stage, each read at an entry -/

/-- A row's sum with the summed axis kept as a unit axis: entry `(n, k, 0)` is the sum of row `(n, k, ·)`. -/
theorem rowSum_apply (X : FVec Ideal S32x49x256 .f32) (n : Fin 32) (k : Fin 49) (z : Fin 1) :
    shapeCast S32x49x1 (multiReduction .add [2] S32x49 X 0x00000000#32 reduces_S32x49x256_S32x49 (.inl rfl) rfl)
        shapeCasts_S32x49_S32x49x1 (ix3 n k z)
      = ∑ u : Fin 256, X (ix3 n k u) := by
  refine (shapeCast_apply _ shapeCasts_S32x49_S32x49x1 (ix3 n k z) (ix2 n k) ?_).trans ?_
  · rw [Shape.rowMajor_val_two, Shape.rowMajor_val_three]
    have hz := z.isLt
    show n.val * 49 + k.val = (n.val * 49 + k.val) * 1 + z.val
    omega
  · refine (Ideal.multiReduction_add_single X 0x00000000#32 reduces_S32x49x256_S32x49 (.inl rfl) rfl (ix2 n k)).trans ?_
    refine Finset.sum_congr rfl fun u _ => ?_
    exact congrArg X (funext fun a => Fin.ext (by match a with | ⟨0, _⟩ => rfl | ⟨1, _⟩ => rfl | ⟨2, _⟩ => rfl))

/-- A value with a unit last axis, broadcast along that axis: entry `(n, k, u)` is entry `(n, k, 0)`. -/
theorem bcastRow_apply (Y : FVec Ideal S32x49x1 .f32) (n : Fin 32) (k : Fin 49) (u : Fin 256) :
    broadcastTo S32x49x256 Y broadcasts_S32x49x1_S32x49x256 (ix3 n k u) = Y (ix3 n k (0 : Fin 1)) := by
  refine broadcastTo_apply Y broadcasts_S32x49x1_S32x49x256 (ix3 n k u) (ix3 n k (0 : Fin 1)) (fun a => ?_)
  match a with
  | ⟨0, _⟩ => show n.val = if (32 : Nat) = 1 then 0 else n.val; rw [if_neg (by decide)]
  | ⟨1, _⟩ => show k.val = if (49 : Nat) = 1 then 0 else k.val; rw [if_neg (by decide)]
  | ⟨2, _⟩ => show 0 = if (1 : Nat) = 1 then 0 else u.val; rw [if_pos rfl]

/-- A 256-vector laid along the last axis of `[32, 49, 256]`: entry `(n, k, u)` is its entry `u`. -/
theorem bcastLast_apply (G : Vec Ideal S256 .f32) (n : Fin 32) (k : Fin 49) (u : Fin 256) :
    broadcastTo S32x49x256 (shapeCast S1x1x256 G shapeCasts_S256_S1x1x256) broadcasts_S1x1x256_S32x49x256 (ix3 n k u)
      = G (ix1 u) := by
  refine (broadcastTo_apply _ broadcasts_S1x1x256_S32x49x256 (ix3 n k u) (ix3 (0 : Fin 1) (0 : Fin 1) u) (fun a => ?_)).trans ?_
  · match a with
    | ⟨0, _⟩ => show 0 = if (1 : Nat) = 1 then 0 else n.val; rw [if_pos rfl]
    | ⟨1, _⟩ => show 0 = if (1 : Nat) = 1 then 0 else k.val; rw [if_pos rfl]
    | ⟨2, _⟩ => show u.val = if (256 : Nat) = 1 then 0 else u.val; rw [if_neg (by decide)]
  · refine shapeCast_apply G shapeCasts_S256_S1x1x256 (ix3 (0 : Fin 1) (0 : Fin 1) u) (ix1 u) ?_
    rw [Shape.rowMajor_val_one, Shape.rowMajor_val_three]
    show u.val = (0 * 1 + 0) * 256 + u.val
    omega

/-- The reshape of `[32, 16384]` to `[32, 64, 256]`: entry `(n, h, u)` is entry `(n, h · 256 + u)`. -/
theorem reshape53_apply (X : FVec Ideal S32x16384 .f32) (n : Fin 32) (h : Fin 64) (u : Fin 256) :
    shapeCast S32x64x256 X shapeCasts_S32x16384_S32x64x256 (ix3 n h u) = X (ix2 n (i2 h u)) := by
  refine shapeCast_apply X shapeCasts_S32x16384_S32x64x256 (ix3 n h u) (ix2 n (i2 h u)) ?_
  rw [Shape.rowMajor_val_two, Shape.rowMajor_val_three]
  show n.val * 16384 + (h.val * 256 + u.val) = (n.val * 64 + h.val) * 256 + u.val
  omega

/-- The flattening of `[32, 49, 256]` to `[32, 12544]`: entry `(n, j)` is entry `(n, j / 256, j % 256)`. -/
theorem flatten85_apply (Y : FVec Ideal S32x49x256 .bf16) (n : Fin 32) (j : Fin 12544) :
    shapeCast S32x12544 Y shapeCasts_S32x49x256_S32x12544 (ix2 n j) = Y (ix3 n (kOf j) (uOf j)) := by
  refine shapeCast_apply Y shapeCasts_S32x49x256_S32x12544 (ix2 n j) (ix3 n (kOf j) (uOf j)) ?_
  rw [Shape.rowMajor_val_three, Shape.rowMajor_val_two]
  show (n.val * 49 + j.val / 256) * 256 + j.val % 256 = n.val * 12544 + j.val
  omega

/-! ## The per-row product -/

theorem lhs55_0 (i : S32x49x256.Idx) (q : dot_S32x49x64_S32x64x256_S32x49x256_2_1_1_2_0_0.contr.Idx) :
    (dot_S32x49x64_S32x64x256_S32x49x256_2_1_1_2_0_0.lhsIdx i q 0).val = (i 0).val := by
  unfold DotDims.lhsIdx
  rw [dif_pos (show (0 : Fin S32x49x64.rank) ∈ dot_S32x49x64_S32x64x256_S32x49x256_2_1_1_2_0_0.lhsBatch by decide)]
  rfl
theorem lhs55_1 (i : S32x49x256.Idx) (q : dot_S32x49x64_S32x64x256_S32x49x256_2_1_1_2_0_0.contr.Idx) :
    (dot_S32x49x64_S32x64x256_S32x49x256_2_1_1_2_0_0.lhsIdx i q 1).val = (i 1).val := by
  unfold DotDims.lhsIdx
  rw [dif_neg (show ¬(1 : Fin S32x49x64.rank) ∈ dot_S32x49x64_S32x64x256_S32x49x256_2_1_1_2_0_0.lhsBatch by decide),
    dif_pos (show (1 : Fin S32x49x64.rank) ∈ dot_S32x49x64_S32x64x256_S32x49x256_2_1_1_2_0_0.lhsNonContracting by decide)]
  rfl
theorem lhs55_2 (i : S32x49x256.Idx) (q : dot_S32x49x64_S32x64x256_S32x49x256_2_1_1_2_0_0.contr.Idx) :
    (dot_S32x49x64_S32x64x256_S32x49x256_2_1_1_2_0_0.lhsIdx i q 2).val = (q ⟨0, by decide⟩).val :=
  dot_S32x49x64_S32x64x256_S32x49x256_2_1_1_2_0_0.lhsIdx_val_of_single rfl i q
theorem rhs55_0 (i : S32x49x256.Idx) (q : dot_S32x49x64_S32x64x256_S32x49x256_2_1_1_2_0_0.contr.Idx) :
    (dot_S32x49x64_S32x64x256_S32x49x256_2_1_1_2_0_0.rhsIdx i q 0).val = (i 0).val := by
  unfold DotDims.rhsIdx
  rw [dif_pos (show (0 : Fin S32x64x256.rank) ∈ dot_S32x49x64_S32x64x256_S32x49x256_2_1_1_2_0_0.rhsBatch by decide)]
  rfl
theorem rhs55_1 (i : S32x49x256.Idx) (q : dot_S32x49x64_S32x64x256_S32x49x256_2_1_1_2_0_0.contr.Idx) :
    (dot_S32x49x64_S32x64x256_S32x49x256_2_1_1_2_0_0.rhsIdx i q 1).val = (q ⟨0, by decide⟩).val :=
  dot_S32x49x64_S32x64x256_S32x49x256_2_1_1_2_0_0.rhsIdx_val_of_single rfl i q
theorem rhs55_2 (i : S32x49x256.Idx) (q : dot_S32x49x64_S32x64x256_S32x49x256_2_1_1_2_0_0.contr.Idx) :
    (dot_S32x49x64_S32x64x256_S32x49x256_2_1_1_2_0_0.rhsIdx i q 2).val = (i 2).val := by
  unfold DotDims.rhsIdx
  rw [dif_neg (show ¬(2 : Fin S32x64x256.rank) ∈ dot_S32x49x64_S32x64x256_S32x49x256_2_1_1_2_0_0.rhsBatch by decide),
    dif_pos (show (2 : Fin S32x64x256.rank) ∈ dot_S32x49x64_S32x64x256_S32x49x256_2_1_1_2_0_0.rhsNonContracting by decide)]
  rfl

/-- The product batched over the rows, contracting the 64 entries, into a zero accumulator: entry `(n, k, u)` is
    `Σ_h L[n, k, h] · R[n, h, u]`. -/
theorem bmm_apply (Lh : FVec Ideal S32x49x64 .bf16) (Rh : FVec Ideal S32x64x256 .bf16) (n : Fin 32) (k : Fin 49) (u : Fin 256) :
    matmul dot_S32x49x64_S32x64x256_S32x49x256_2_1_1_2_0_0 none Lh Rh (constant S32x49x256 .f32 0x00000000#32) (ix3 n k u)
      = ∑ h : Fin 64, Lh (ix3 n k h) * Rh (ix3 n h u) := by
  refine (Ideal.matmul_constant_zero_apply dot_S32x49x64_S32x64x256_S32x49x256_2_1_1_2_0_0 none Lh Rh (ix3 n k u)).trans ?_
  rw [← Equiv.sum_comp (contrEquiv1 dot_S32x49x64_S32x64x256_S32x49x256_2_1_1_2_0_0 64 rfl rfl).symm]
  refine Finset.sum_congr rfl fun h _ => ?_
  have hk := contrEquiv1_symm_val dot_S32x49x64_S32x64x256_S32x49x256_2_1_1_2_0_0 64 rfl rfl h
  have el : dot_S32x49x64_S32x64x256_S32x49x256_2_1_1_2_0_0.lhsIdx (ix3 n k u) ((contrEquiv1 dot_S32x49x64_S32x64x256_S32x49x256_2_1_1_2_0_0 64 rfl rfl).symm h) = ix3 n k h :=
    funext fun a => Fin.ext (by
      match a with
      | ⟨0, _⟩ => exact lhs55_0 _ _
      | ⟨1, _⟩ => exact lhs55_1 _ _
      | ⟨2, _⟩ => exact (lhs55_2 _ _).trans hk)
  have er : dot_S32x49x64_S32x64x256_S32x49x256_2_1_1_2_0_0.rhsIdx (ix3 n k u) ((contrEquiv1 dot_S32x49x64_S32x64x256_S32x49x256_2_1_1_2_0_0 64 rfl rfl).symm h) = ix3 n h u :=
    funext fun a => Fin.ext (by
      match a with
      | ⟨0, _⟩ => exact rhs55_0 _ _
      | ⟨1, _⟩ => exact (rhs55_1 _ _).trans hk
      | ⟨2, _⟩ => exact rhs55_2 _ _)
  rw [el, er]

/-! ## The layer norm over the last axis, as the vector operations compute it -/

/-- The row means, the row axis kept as a unit axis. -/
def meanK3 (X : FVec Ideal S32x49x256 .f32) : FVec Ideal S32x49x1 .f32 :=
  divf (shapeCast S32x49x1 (multiReduction .add [2] S32x49 X 0x00000000#32 reduces_S32x49x256_S32x49 (.inl rfl) rfl)
      shapeCasts_S32x49_S32x49x1)
    (broadcast S32x49x1 (Scalar.ofBits .f32 0x43800000#32))

theorem meanK3_apply (X : FVec Ideal S32x49x256 .f32) (n : Fin 32) (k : Fin 49) (z : Fin 1) :
    meanK3 X (ix3 n k z) = mean c256 (fun u => X (ix3 n k u)) := by
  show Ideal.div (shapeCast S32x49x1 (multiReduction .add [2] S32x49 X 0x00000000#32 reduces_S32x49x256_S32x49 (.inl rfl) rfl)
      shapeCasts_S32x49_S32x49x1 (ix3 n k z)) (Ideal.ofBits .f32 0x43800000#32)
    = Ideal.div (∑ u : Fin 256, X (ix3 n k u)) c256
  rw [rowSum_apply]

/-- The deviations from the row means. -/
def devK3 (A : FVec Ideal S32x49x256 .f32) : FVec Ideal S32x49x256 .f32 :=
  subf A (broadcastTo S32x49x256 (meanK3 A) broadcasts_S32x49x1_S32x49x256)

theorem devK3_apply (A : FVec Ideal S32x49x256 .f32) (n : Fin 32) (k : Fin 49) (u : Fin 256) :
    devK3 A (ix3 n k u) = A (ix3 n k u) - mean c256 (fun u => A (ix3 n k u)) := by
  show A (ix3 n k u) - broadcastTo S32x49x256 (meanK3 A) broadcasts_S32x49x1_S32x49x256 (ix3 n k u) = _
  rw [bcastRow_apply, meanK3_apply]

/-- The reciprocal square roots of the row variances plus the offset. -/
def rstdK3 (A : FVec Ideal S32x49x256 .f32) : FVec Ideal S32x49x1 .f32 :=
  rsqrt (addf (meanK3 (mulf (devK3 A) (devK3 A))) (broadcast S32x49x1 (Scalar.ofBits .f32 0x3727C5AC#32)))

theorem rstdK3_apply (A : FVec Ideal S32x49x256 .f32) (n : Fin 32) (k : Fin 49) (z : Fin 1) :
    rstdK3 A (ix3 n k z) = Ideal.rsqrt (var c256 (fun u => A (ix3 n k u)) + cEps) := by
  show Ideal.rsqrt (meanK3 (mulf (devK3 A) (devK3 A)) (ix3 n k z) + Ideal.ofBits .f32 0x3727C5AC#32) = _
  rw [meanK3_apply]
  show Ideal.rsqrt (Ideal.div (∑ u : Fin 256, devK3 A (ix3 n k u) * devK3 A (ix3 n k u)) c256 + cEps)
    = Ideal.rsqrt (Ideal.div (∑ u : Fin 256, (A (ix3 n k u) - mean c256 (fun u => A (ix3 n k u)))
        * (A (ix3 n k u) - mean c256 (fun u => A (ix3 n k u)))) c256 + cEps)
  refine congrArg (fun s => Ideal.rsqrt (Ideal.div s c256 + cEps)) (Finset.sum_congr rfl fun u _ => ?_)
  rw [devK3_apply]

/-- The layer norm: deviations times the reciprocal root, times the scale, plus the shift. -/
def lnK3 (A : FVec Ideal S32x49x256 .f32) (G B : Vec Ideal S256 .f32) : FVec Ideal S32x49x256 .f32 :=
  addf
    (mulf (mulf (devK3 A) (broadcastTo S32x49x256 (rstdK3 A) broadcasts_S32x49x1_S32x49x256))
      (broadcastTo S32x49x256 (shapeCast S1x1x256 G shapeCasts_S256_S1x1x256) broadcasts_S1x1x256_S32x49x256))
    (broadcastTo S32x49x256 (shapeCast S1x1x256 B shapeCasts_S256_S1x1x256) broadcasts_S1x1x256_S32x49x256)

/-- At entry `(n, k, u)` it is the specification's layer norm of row `(n, k, ·)`, scaled by the reciprocal root. -/
theorem lnK3_apply (A : FVec Ideal S32x49x256 .f32) (G B : Vec Ideal S256 .f32) (n : Fin 32) (k : Fin 49) (u : Fin 256) :
    lnK3 A G B (ix3 n k u)
      = ln scaleK c256 cEps (fun u => A (ix3 n k u)) (fun u => G (ix1 u)) (fun u => B (ix1 u)) u := by
  show devK3 A (ix3 n k u) * broadcastTo S32x49x256 (rstdK3 A) broadcasts_S32x49x1_S32x49x256 (ix3 n k u)
        * broadcastTo S32x49x256 (shapeCast S1x1x256 G shapeCasts_S256_S1x1x256) broadcasts_S1x1x256_S32x49x256 (ix3 n k u)
      + broadcastTo S32x49x256 (shapeCast S1x1x256 B shapeCasts_S256_S1x1x256) broadcasts_S1x1x256_S32x49x256 (ix3 n k u)
    = (A (ix3 n k u) - mean c256 (fun u => A (ix3 n k u))) * Ideal.rsqrt (var c256 (fun u => A (ix3 n k u)) + cEps)
        * G (ix1 u) + B (ix1 u)
  rw [devK3_apply, bcastRow_apply, rstdK3_apply, bcastLast_apply, bcastLast_apply]

end Stage2

open Stage2

/-! ## The stage -/

/-- Entry `(n, j)` of the second stage's value, from row `n` of the first stage's. -/
theorem pay4_apply (V1 : FVec Ideal S32x256 .bf16) (V41 : FVec Ideal S32x49x64 .f32) (P6 : Vec Ideal S256x16384 .bf16)
    (P7 : Vec Ideal S16384 .f32) (P8 P9 : Vec Ideal S256 .f32) (n : Fin 32) (j : Fin 12544) :
    k0_pay4 V1 V41 P6 P7 P8 P9 (ix2 n j)
      = max (ln scaleK c256 cEps
              (fun u => ∑ h : Fin 64, max (V41 (ix3 n (kOf j) h)) cZero
                  * lin (fun c => V1 (ix2 n c)) (fun j c => P6 (ix2 c j)) (fun j => P7 (ix1 j)) (i2 h u))
              (fun u => P8 (ix1 u)) (fun u => P9 (ix1 u)) (uOf j)) cZero := by
  show shapeCast S32x12544
      (truncf .bf16
        (maximumf
          (lnK3
            (matmul dot_S32x49x64_S32x64x256_S32x49x256_2_1_1_2_0_0 none
              (truncf .bf16 (maximumf V41 (broadcast S32x49x64 (Scalar.ofBits .f32 0x00000000#32))) bitsLt_bf16_f32)
              (truncf .bf16
                (shapeCast S32x64x256
                  (addf (matmul dot_S32x256_S256x16384_S32x16384_1_0_0_1_n_n none V1
                      (shapeCast S256x16384 P6 shapeCasts_S256x16384_S256x16384) (constant S32x16384 .f32 0x00000000#32))
                    (broadcastTo S32x16384
                      (shapeCast S1x16384 (shapeCast S16384 P7 shapeCasts_S16384_S16384) shapeCasts_S16384_S1x16384)
                      broadcasts_S1x16384_S32x16384))
                  shapeCasts_S32x16384_S32x64x256)
                bitsLt_bf16_f32)
              (constant S32x49x256 .f32 0x00000000#32))
            P8 P9)
          (broadcast S32x49x256 (Scalar.ofBits .f32 0x00000000#32)))
        bitsLt_bf16_f32)
      shapeCasts_S32x49x256_S32x12544 (ix2 n j) = _
  refine (flatten85_apply _ n j).trans ?_
  refine congrArg (fun t => max t cZero) ?_
  refine (lnK3_apply _ P8 P9 n (kOf j) (uOf j)).trans ?_
  refine congrArg (fun f => ln scaleK c256 cEps f (fun u => P8 (ix1 u)) (fun u => P9 (ix1 u)) (uOf j)) (funext fun u => ?_)
  refine (bmm_apply _ _ n (kOf j) u).trans ?_
  refine Finset.sum_congr rfl fun h _ => ?_
  refine congrArg (fun t => max (V41 (ix3 n (kOf j) h)) cZero * t) ?_
  exact (reshape53_apply _ n h u).trans (lin_apply V1 P6 P7 n (i2 h u))

end Cert.KernelIdeal.Hand

end
-- ==== Proof.KStage3.lean ====
/-
  The last two stages at a block entry: the flattened vector against `Wv`ᵀ plus its bias, the layer norm over
  the 256 entries, its positive part added to the row of `x`; and the final layer norm of that sum.
-/
import proofs.«115709_j66700842107138_1_alg».proof.Proof.Gen.KernelIdeal.Skeleton
import proofs.«115709_j66700842107138_1_alg».proof.Proof.Spec
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx Cert.Spec

/-- The sum over the 256 columns of row `n`. -/
theorem rowSum_apply (X : FVec Ideal S32x256 .f32) (hφ : FKind.Formats .f32)
    (hacc : (0x00000000#32 : BitVec 32) = FKind.add.neutral .f32 hφ) (n : Fin 32) :
    multiReduction .add [1] S32 X 0x00000000#32 reduces_S32x256_S32 hφ hacc (ix1 n) = ∑ o : Fin 256, X (ix2 n o) := by
  refine (Ideal.multiReduction_add_single X 0x00000000#32 reduces_S32x256_S32 hφ hacc (ix1 n)).trans ?_
  show ∑ o : Fin 256, X (reduces_S32x256_S32.lift (ix1 n) o) = _
  refine Finset.sum_congr rfl fun o _ => congrArg X ?_
  funext a; apply Fin.ext
  match a with
  | ⟨0, _⟩ => rfl
  | ⟨1, _⟩ => rfl

/-- A 32-vector as a column: entry `(n, 0)` is entry `n`. -/
theorem col_apply (v : FVec Ideal S32 .f32) (n : Fin 32) (z : Fin 1) :
    shapeCast S32x1 v shapeCasts_S32_S32x1 (ix2 n z) = v (ix1 n) := by
  refine shapeCast_apply v shapeCasts_S32_S32x1 (ix2 n z) (ix1 n) ?_
  rw [Shape.rowMajor_val_one, Shape.rowMajor_val_two]
  show n.val = n.val * 1 + z.val
  omega

/-- A column spread over the 256 columns: entry `(n, o)` is entry `(n, 0)`. -/
theorem bcol_apply (v : FVec Ideal S32x1 .f32) (n : Fin 32) (o : Fin 256) :
    broadcastTo S32x256 v broadcasts_S32x1_S32x256 (ix2 n o) = v (ix2 n (0 : Fin 1)) := by
  refine broadcastTo_apply v broadcasts_S32x1_S32x256 (ix2 n o) (ix2 n (0 : Fin 1)) fun a => ?_
  match a with
  | ⟨0, _⟩ => show n.val = (if (32 : Nat) = 1 then 0 else n.val); rw [if_neg (by decide)]
  | ⟨1, _⟩ => show 0 = (if (1 : Nat) = 1 then 0 else o.val); rw [if_pos rfl]

/-- A 256-vector spread over the 32 rows: entry `(n, o)` is entry `o`. -/
theorem brow_apply (P : Vec Ideal S256 .f32) (n : Fin 32) (o : Fin 256) :
    broadcastTo S32x256 (shapeCast S1x256 P shapeCasts_S256_S1x256) broadcasts_S1x256_S32x256 (ix2 n o) = P (ix1 o) := by
  refine (broadcastTo_apply _ broadcasts_S1x256_S32x256 (ix2 n o) (ix2 (0 : Fin 1) o) fun a => ?_).trans ?_
  · match a with
    | ⟨0, _⟩ => show 0 = (if (1 : Nat) = 1 then 0 else n.val); rw [if_pos rfl]
    | ⟨1, _⟩ => show o.val = (if (256 : Nat) = 1 then 0 else o.val); rw [if_neg (by decide)]
  · refine shapeCast_apply P shapeCasts_S256_S1x256 (ix2 (0 : Fin 1) o) (ix1 o) ?_
    rw [Shape.rowMajor_val_one, Shape.rowMajor_val_two]
    show o.val = 0 * 256 + o.val
    omega

/-- The mean of each row, as a column. -/
def meanCol (X : FVec Ideal S32x256 .f32) : FVec Ideal S32x1 .f32 :=
  divf (shapeCast S32x1 (multiReduction .add [1] S32 X 0x00000000#32 reduces_S32x256_S32 (.inl rfl) rfl) shapeCasts_S32_S32x1)
    (broadcast S32x1 (Scalar.ofBits (F := Ideal) .f32 0x43800000#32))

theorem meanCol_apply (X : FVec Ideal S32x256 .f32) (n : Fin 32) (z : Fin 1) :
    meanCol X (ix2 n z) = mean c256 (fun o => X (ix2 n o)) :=
  congrArg (fun t => Ideal.div t c256) ((col_apply _ n z).trans (rowSum_apply X _ _ n))

/-- The squared deviations from the row means. -/
def sqDev (X : FVec Ideal S32x256 .f32) : FVec Ideal S32x256 .f32 :=
  mulf (subf X (broadcastTo S32x256 (meanCol X) broadcasts_S32x1_S32x256))
    (subf X (broadcastTo S32x256 (meanCol X) broadcasts_S32x1_S32x256))

theorem sqDev_apply (X : FVec Ideal S32x256 .f32) (n : Fin 32) (o : Fin 256) :
    sqDev X (ix2 n o) = (X (ix2 n o) - mean c256 (fun o' => X (ix2 n o'))) * (X (ix2 n o) - mean c256 (fun o' => X (ix2 n o'))) := by
  show (X (ix2 n o) - broadcastTo S32x256 (meanCol X) broadcasts_S32x1_S32x256 (ix2 n o))
      * (X (ix2 n o) - broadcastTo S32x256 (meanCol X) broadcasts_S32x1_S32x256 (ix2 n o)) = _
  rw [bcol_apply, meanCol_apply]

/-- The layer-norm tree over an arbitrary block, read at `(n, o)`. -/
theorem lnTree_apply (X : FVec Ideal S32x256 .f32) (G B : Vec Ideal S256 .f32) (n : Fin 32) (o : Fin 256) :
    k0_pay1 X G B (meanCol X) (sqDev X) (ix2 n o)
      = ln scaleK c256 cEps (fun o' => X (ix2 n o')) (fun o => G (ix1 o)) (fun o => B (ix1 o)) o := by
  have hv : shapeCast S32x1 (multiReduction .add [1] S32 (sqDev X) 0x00000000#32 reduces_S32x256_S32 (.inl rfl) rfl)
      shapeCasts_S32_S32x1 (ix2 n (0 : Fin 1))
        = ∑ k : Fin 256, (X (ix2 n k) - mean c256 (fun o' => X (ix2 n o'))) * (X (ix2 n k) - mean c256 (fun o' => X (ix2 n o'))) :=
    (col_apply _ n 0).trans ((rowSum_apply (sqDev X) _ _ n).trans (Finset.sum_congr rfl fun k _ => sqDev_apply X n k))
  show (X (ix2 n o) - broadcastTo S32x256 (meanCol X) broadcasts_S32x1_S32x256 (ix2 n o))
        * broadcastTo S32x256 (rsqrt (addf (divf (shapeCast S32x1 (multiReduction .add [1] S32 (sqDev X) 0x00000000#32
            reduces_S32x256_S32 (.inl rfl) rfl) shapeCasts_S32_S32x1) (broadcast S32x1 (Scalar.ofBits (F := Ideal) .f32 0x43800000#32)))
            (broadcast S32x1 (Scalar.ofBits (F := Ideal) .f32 0x3727C5AC#32)))) broadcasts_S32x1_S32x256 (ix2 n o)
        * broadcastTo S32x256 (shapeCast S1x256 G shapeCasts_S256_S1x256) broadcasts_S1x256_S32x256 (ix2 n o)
      + broadcastTo S32x256 (shapeCast S1x256 B shapeCasts_S256_S1x256) broadcasts_S1x256_S32x256 (ix2 n o) = _
  rw [brow_apply, brow_apply, bcol_apply, bcol_apply, meanCol_apply]
  show (X (ix2 n o) - mean c256 (fun o' => X (ix2 n o')))
        * Ideal.rsqrt (Ideal.div (shapeCast S32x1 (multiReduction .add [1] S32 (sqDev X) 0x00000000#32
            reduces_S32x256_S32 (.inl rfl) rfl) shapeCasts_S32_S32x1 (ix2 n (0 : Fin 1))) c256 + cEps)
        * G (ix1 o) + B (ix1 o) = _
  rw [hv]
  rfl

/-! ## The product against `Wv`ᵀ -/

theorem lhs_pay5_0 (i : S32x256.Idx) (q : dot_S32x12544_S12544x256_S32x256_1_0_0_1_n_n.contr.Idx) :
    (dot_S32x12544_S12544x256_S32x256_1_0_0_1_n_n.lhsIdx i q 0).val = (i 0).val := by
  unfold DotDims.lhsIdx
  rw [dif_neg (show ¬(0 : Fin S32x12544.rank) ∈ dot_S32x12544_S12544x256_S32x256_1_0_0_1_n_n.lhsBatch by decide), dif_pos (show (0 : Fin S32x12544.rank) ∈ dot_S32x12544_S12544x256_S32x256_1_0_0_1_n_n.lhsNonContracting by decide)]
  rfl
theorem lhs_pay5_1 (i : S32x256.Idx) (q : dot_S32x12544_S12544x256_S32x256_1_0_0_1_n_n.contr.Idx) :
    (dot_S32x12544_S12544x256_S32x256_1_0_0_1_n_n.lhsIdx i q 1).val = (q ⟨0, by decide⟩).val :=
  dot_S32x12544_S12544x256_S32x256_1_0_0_1_n_n.lhsIdx_val_of_single rfl i q
theorem rhs_pay5_0 (i : S32x256.Idx) (q : dot_S32x12544_S12544x256_S32x256_1_0_0_1_n_n.contr.Idx) :
    (dot_S32x12544_S12544x256_S32x256_1_0_0_1_n_n.rhsIdx i q 0).val = (q ⟨0, by decide⟩).val :=
  dot_S32x12544_S12544x256_S32x256_1_0_0_1_n_n.rhsIdx_val_of_single rfl i q
theorem rhs_pay5_1 (i : S32x256.Idx) (q : dot_S32x12544_S12544x256_S32x256_1_0_0_1_n_n.contr.Idx) :
    (dot_S32x12544_S12544x256_S32x256_1_0_0_1_n_n.rhsIdx i q 1).val = (i 1).val := by
  unfold DotDims.rhsIdx
  rw [dif_neg (show ¬(1 : Fin S12544x256.rank) ∈ dot_S32x12544_S12544x256_S32x256_1_0_0_1_n_n.rhsBatch by decide), dif_pos (show (1 : Fin S12544x256.rank) ∈ dot_S32x12544_S12544x256_S32x256_1_0_0_1_n_n.rhsNonContracting by decide)]
  rfl

/-- Entry `(n, o)` of the product into the zero accumulator: the sum over the 12544 contracted positions. -/
theorem prod_apply (A : FVec Ideal S32x12544 .bf16) (W : FVec Ideal S12544x256 .bf16) (n : Fin 32) (o : Fin 256) :
    matmul dot_S32x12544_S12544x256_S32x256_1_0_0_1_n_n none A W (constant S32x256 .f32 0x00000000#32) (ix2 n o)
      = ∑ j : Fin 12544, A (ix2 n j) * W (ix2 j o) := by
  simp only [matmul]
  rw [Ideal.matmul_constant_zero_apply, ← Equiv.sum_comp (contrEquiv1 dot_S32x12544_S12544x256_S32x256_1_0_0_1_n_n 12544 rfl rfl).symm]
  refine Finset.sum_congr rfl fun k _ => ?_
  have hk := contrEquiv1_symm_val dot_S32x12544_S12544x256_S32x256_1_0_0_1_n_n 12544 rfl rfl k
  have el : dot_S32x12544_S12544x256_S32x256_1_0_0_1_n_n.lhsIdx (ix2 n o) ((contrEquiv1 dot_S32x12544_S12544x256_S32x256_1_0_0_1_n_n 12544 rfl rfl).symm k) = ix2 n k := funext fun a => Fin.ext (by
    match a with
    | ⟨0, _⟩ => exact lhs_pay5_0 _ _
    | ⟨1, _⟩ => exact (lhs_pay5_1 _ _).trans hk)
  have er : dot_S32x12544_S12544x256_S32x256_1_0_0_1_n_n.rhsIdx (ix2 n o) ((contrEquiv1 dot_S32x12544_S12544x256_S32x256_1_0_0_1_n_n 12544 rfl rfl).symm k) = ix2 k o := funext fun a => Fin.ext (by
    match a with
    | ⟨0, _⟩ => exact (rhs_pay5_0 _ _).trans hk
    | ⟨1, _⟩ => exact rhs_pay5_1 _ _)
  rw [el, er]

/-- The product plus its bias, as a block. -/
def wBlock (V85 : FVec Ideal S32x12544 .bf16) (P10 : Vec Ideal S12544x256 .bf16) (P11 : Vec Ideal S256 .f32) : FVec Ideal S32x256 .f32 :=
  addf (matmul dot_S32x12544_S12544x256_S32x256_1_0_0_1_n_n none V85 (shapeCast S12544x256 P10 shapeCasts_S12544x256_S12544x256 : FVec Ideal S12544x256 .bf16)
      (constant S32x256 .f32 0x00000000#32))
    (broadcastTo S32x256 (shapeCast S1x256 P11 shapeCasts_S256_S1x256) broadcasts_S1x256_S32x256)

theorem wBlock_apply (V85 : FVec Ideal S32x12544 .bf16) (P10 : Vec Ideal S12544x256 .bf16) (P11 : Vec Ideal S256 .f32)
    (n : Fin 32) (o : Fin 256) :
    wBlock V85 P10 P11 (ix2 n o) = (∑ j : Fin 12544, V85 (ix2 n j) * P10 (ix2 j o)) + P11 (ix1 o) := by
  show matmul dot_S32x12544_S12544x256_S32x256_1_0_0_1_n_n none V85 (shapeCast S12544x256 P10 shapeCasts_S12544x256_S12544x256 : FVec Ideal S12544x256 .bf16)
      (constant S32x256 .f32 0x00000000#32) (ix2 n o)
    + broadcastTo S32x256 (shapeCast S1x256 P11 shapeCasts_S256_S1x256) broadcasts_S1x256_S32x256 (ix2 n o) = _
  rw [shapeCast_self, prod_apply, brow_apply]

/-- The residual block is the row block plus the positive part of the layer-norm tree over the product block. -/
theorem pay5_eq (P0 : Vec Ideal S32x256 .f32) (V85 : FVec Ideal S32x12544 .bf16) (P10 : Vec Ideal S12544x256 .bf16)
    (P11 P12 P13 : Vec Ideal S256 .f32) :
    k0_pay5 P0 V85 P10 P11 P12 P13
      = addf P0 (maximumf (k0_pay1 (wBlock V85 P10 P11) P12 P13 (meanCol (wBlock V85 P10 P11)) (sqDev (wBlock V85 P10 P11)))
          (broadcast S32x256 (Scalar.ofBits (F := Ideal) .f32 0x00000000#32))) := rfl

/-- Entry `(n, o)` of the residual `x + max (LN (flat · Wvᵀ + cv)) 0`. -/
theorem pay5_apply (P0 : Vec Ideal S32x256 .f32) (V85 : FVec Ideal S32x12544 .bf16) (P10 : Vec Ideal S12544x256 .bf16)
    (P11 P12 P13 : Vec Ideal S256 .f32) (n : Fin 32) (o : Fin 256) :
    k0_pay5 P0 V85 P10 P11 P12 P13 (ix2 n o)
      = P0 (ix2 n o) + max (ln scaleK c256 cEps
          (fun o' => (∑ j : Fin 12544, V85 (ix2 n j) * P10 (ix2 j o')) + P11 (ix1 o'))
          (fun o => P12 (ix1 o)) (fun o => P13 (ix1 o)) o) cZero := by
  rw [pay5_eq]
  show P0 (ix2 n o) + max (k0_pay1 (wBlock V85 P10 P11) P12 P13 (meanCol (wBlock V85 P10 P11)) (sqDev (wBlock V85 P10 P11)) (ix2 n o)) cZero = _
  rw [lnTree_apply]
  simp only [wBlock_apply]

/-- Entry `(n, o)` of the stored value: the layer norm of row `n` of the residual. -/
theorem pay1_apply (P0 : Vec Ideal S32x256 .f32) (V85 : FVec Ideal S32x12544 .bf16) (P10 : Vec Ideal S12544x256 .bf16)
    (P11 P12 P13 P14 P15 : Vec Ideal S256 .f32) (n : Fin 32) (o : Fin 256) :
    k0_pay1 (k0_pay5 P0 V85 P10 P11 P12 P13) P14 P15 (k0_pay6 P0 V85 P10 P11 P12 P13) (k0_pay7 P0 V85 P10 P11 P12 P13) (ix2 n o)
      = ln scaleK c256 cEps (fun o' => k0_pay5 P0 V85 P10 P11 P12 P13 (ix2 n o'))
          (fun o => P14 (ix1 o)) (fun o => P15 (ix1 o)) o := by
  exact lnTree_apply (k0_pay5 P0 V85 P10 P11 P12 P13) P14 P15 n o

end Cert.KernelIdeal.Hand

end
-- ==== Proof.KBody.lean ====
/-
  The whole body at a block entry: the value the kernel stores at `(n, o)` of its output block is the
  specification's row function `out` (with the kernel's scaling step) of row `n` of the `x` block, row `n` of
  the `v` block and the resident weights: the four stages composed.
-/
import proofs.«115709_j66700842107138_1_alg».proof.Proof.KStage1
import proofs.«115709_j66700842107138_1_alg».proof.Proof.KStage2
import proofs.«115709_j66700842107138_1_alg».proof.Proof.KStage3

noncomputable section

namespace Cert.KernelIdeal.Hand

open Cert.KernelIdeal Cert.KernelIdeal.Gen Idealize.ShloMosaic Idealize.ShloMosaic.ValueIdx Cert.Spec

/-- The format change of the `x` block is the identity at an entry. -/
theorem pay2_apply (P0 : Vec Ideal S32x256 .f32) (i : S32x256.Idx) : k0_pay2 P0 i = P0 i := rfl

/-- Entry `(n, o)` of the stored value is `out` of row `n`. -/
theorem payload_apply (P0 : Vec Ideal S32x256 .f32) (P1 : Vec Ideal S256x16384 .bf16) (P2 : Vec Ideal S16384 .f32)
    (P3 : Vec Ideal S32x256x49 .f32) (P4 P5 : Vec Ideal S64 .f32) (P6 : Vec Ideal S256x16384 .bf16)
    (P7 : Vec Ideal S16384 .f32) (P8 P9 : Vec Ideal S256 .f32) (P10 : Vec Ideal S12544x256 .bf16)
    (P11 P12 P13 P14 P15 : Vec Ideal S256 .f32) (n : Fin 32) (o : Fin 256) :
    k0_pay1 (k0_pay5 P0 (k0_pay4 (k0_pay2 P0) (k0_pay3 P0 P1 P2 P3 P4 P5) P6 P7 P8 P9) P10 P11 P12 P13) P14 P15
        (k0_pay6 P0 (k0_pay4 (k0_pay2 P0) (k0_pay3 P0 P1 P2 P3 P4 P5) P6 P7 P8 P9) P10 P11 P12 P13)
        (k0_pay7 P0 (k0_pay4 (k0_pay2 P0) (k0_pay3 P0 P1 P2 P3 P4 P5) P6 P7 P8 P9) P10 P11 P12 P13) (ix2 n o)
      = out scaleK (fun c => P0 (ix2 n c)) (fun u k => P3 (ix3 n u k)) (fun j c => P1 (ix2 c j)) (fun j c => P6 (ix2 c j))
          (fun j => P2 (ix1 j)) (fun j => P7 (ix1 j)) (fun h => P4 (ix1 h)) (fun h => P5 (ix1 h))
          (fun u => P8 (ix1 u)) (fun u => P9 (ix1 u)) (fun o j => P10 (ix2 j o)) (fun o => P11 (ix1 o))
          (fun o => P12 (ix1 o)) (fun o => P13 (ix1 o)) (fun o => P14 (ix1 o)) (fun o => P15 (ix1 o)) o := by
  rw [pay1_apply]
  simp only [pay5_apply, pay4_apply, pay3_apply, pay2_apply]
  rfl

end Cert.KernelIdeal.Hand

end
-- ==== Proof.KValue.lean ====
/-
  From blocks to the whole array. The kernel's grid has 64 points; point `t` stages rows `32·t … 32·t + 31` of
  `x` and of `v`, the whole of every weight, and writes back rows `32·t … 32·t + 31` of the result. The resident
  weights are made by the host before the launch: the two halves of the fused weight transposed, the two halves
  of its bias, and `Wv` transposed (each change of format the identity at the ideal instance). So entry
  `(n, ·)` of each block at point `t` is entry `(32·t + n, ·)` of `x`, of `v`, and the weights' entries are the
  arguments' at the transposed / shifted index; the body lemma then says what point `t` writes back is block `t`
  of the whole-array function `Gout`, and the 64 blocks cover the array.
-/
import proofs.«115709_j66700842107138_1_alg».proof.Proof.Gen.KernelIdeal.Value
import proofs.«115709_j66700842107138_1_alg».proof.Proof.KBody
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.ValueIdx Cert.Spec

variable (m : (ℓ : Loc nD τ sig) → Buf (Elt Ideal) ℓ) (ρ : Dev nD → PrngReg)

/-! ## The resident weights, as the host leaves them -/

/-- The first resident weight is the transpose of the first half of the fused weight. -/
theorem V_v2 (c : Dev nD) : (V m c main_v2 : S256x16384.Idx → EReal)
    = truncf (F := Ideal) .bf16 (transpose S256x16384 [1, 0] (extractStridedSlice S16384x256 ![0, 0] (m ((c : Thread nD τ).loc main_arg2)) slices_S32768x256_S16384x256_0_0) transposes_S16384x256_S256x16384_1_0) bitsLt_bf16_f32 := by
  dsimp only [Gen.V, Gen.hostOps0]; after_results

/-- The second resident weight is the transpose of the second half. -/
theorem V_v5 (c : Dev nD) : (V m c main_v5 : S256x16384.Idx → EReal)
    = truncf (F := Ideal) .bf16 (transpose S256x16384 [1, 0] (extractStridedSlice S16384x256 ![16384, 0] (m ((c : Thread nD τ).loc main_arg2)) slices_S32768x256_S16384x256_16384_0) transposes_S16384x256_S256x16384_1_0) bitsLt_bf16_f32 := by
  dsimp only [Gen.V, Gen.hostOps0]; after_results

/-- The two halves of the fused bias. -/
theorem V_v6 (c : Dev nD) : (V m c main_v6 : S16384.Idx → EReal)
    = extractStridedSlice S16384 ![0] (m ((c : Thread nD τ).loc main_arg3)) slices_S32768_S16384_0 := by
  dsimp only [Gen.V, Gen.hostOps0]; after_results

theorem V_v7 (c : Dev nD) : (V m c main_v7 : S16384.Idx → EReal)
    = extractStridedSlice S16384 ![16384] (m ((c : Thread nD τ).loc main_arg3)) slices_S32768_S16384_16384 := by
  dsimp only [Gen.V, Gen.hostOps0]; after_results

/-- The third resident weight is the transpose of `Wv`. -/
theorem V_v9 (c : Dev nD) : (V m c main_v9 : S12544x256.Idx → EReal)
    = truncf (F := Ideal) .bf16 (transpose S12544x256 [1, 0] (m ((c : Thread nD τ).loc main_arg8)) transposes_S256x12544_S12544x256_1_0) bitsLt_bf16_f32 := by
  dsimp only [Gen.V, Gen.hostOps0]; after_results

/-! ## The resident weights read at an entry -/

theorem v2_apply (c : Dev nD) (k : Fin 256) (j : Fin 16384) :
    V m c main_v2 (ix2 k j) = (m ((c : Thread nD τ).loc main_arg2)) (ix2 (lo j) k) := by
  rw [V_v2, truncf_apply]
  refine (transpose_apply [1, 0] _ transposes_S16384x256_S256x16384_1_0 (ix2 k j) (ix2 j k)
    (fun b => match b with | ⟨0, _⟩ => rfl | ⟨1, _⟩ => rfl)).trans ?_
  exact extractStridedSlice_apply ![0, 0] _ slices_S32768x256_S16384x256_0_0 (ix2 j k) (ix2 (lo j) k)
    (fun a => match a with
      | ⟨0, _⟩ => by show j.val = 0 + j.val; omega
      | ⟨1, _⟩ => by show k.val = 0 + k.val; omega)

theorem v5_apply (c : Dev nD) (k : Fin 256) (j : Fin 16384) :
    V m c main_v5 (ix2 k j) = (m ((c : Thread nD τ).loc main_arg2)) (ix2 (hi j) k) := by
  rw [V_v5, truncf_apply]
  refine (transpose_apply [1, 0] _ transposes_S16384x256_S256x16384_1_0 (ix2 k j) (ix2 j k)
    (fun b => match b with | ⟨0, _⟩ => rfl | ⟨1, _⟩ => rfl)).trans ?_
  exact extractStridedSlice_apply ![16384, 0] _ slices_S32768x256_S16384x256_16384_0 (ix2 j k) (ix2 (hi j) k)
    (fun a => match a with
      | ⟨0, _⟩ => by show 16384 + j.val = 16384 + j.val; rfl
      | ⟨1, _⟩ => by show k.val = 0 + k.val; omega)

theorem v6_apply (c : Dev nD) (j : Fin 16384) : V m c main_v6 (ix1 j) = (m ((c : Thread nD τ).loc main_arg3)) (ix1 (lo j)) := by
  rw [V_v6]
  exact extractStridedSlice_apply ![0] _ slices_S32768_S16384_0 (ix1 j) (ix1 (lo j))
    (fun a => match a with | ⟨0, _⟩ => by show j.val = 0 + j.val; omega)

theorem v7_apply (c : Dev nD) (j : Fin 16384) : V m c main_v7 (ix1 j) = (m ((c : Thread nD τ).loc main_arg3)) (ix1 (hi j)) := by
  rw [V_v7]
  exact extractStridedSlice_apply ![16384] _ slices_S32768_S16384_16384 (ix1 j) (ix1 (hi j))
    (fun a => match a with | ⟨0, _⟩ => by show 16384 + j.val = 16384 + j.val; rfl)

theorem v9_apply (c : Dev nD) (j : Fin 12544) (o : Fin 256) :
    V m c main_v9 (ix2 j o) = (m ((c : Thread nD τ).loc main_arg8)) (ix2 o j) := by
  rw [V_v9, truncf_apply]
  exact transpose_apply [1, 0] _ transposes_S256x12544_S12544x256_1_0 (ix2 j o) (ix2 o j)
    (fun b => match b with | ⟨0, _⟩ => rfl | ⟨1, _⟩ => rfl)

/-! ## The windows' index maps, decided over the 64 grid points -/

theorem idxRows : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_16.index t (0 : Fin 2) = t.val ∧ win0_16.index t (1 : Fin 2) = 0 :=
  (by decide +kernel : ∀ t : Fin grid0.N, _)

theorem idxMats : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0
    ∧ win0_10.index t (0 : Fin 2) = 0 ∧ win0_10.index t (1 : Fin 2) = 0 :=
  (by decide +kernel : ∀ t : Fin grid0.N, _)
theorem idxV6 : ∀ t : Fin cfg0.N, win0_6.index t (0 : Fin 1) = 0 := (by decide +kernel : ∀ t : Fin grid0.N, _)
theorem idxV7 : ∀ t : Fin cfg0.N, win0_7.index t (0 : Fin 1) = 0 := (by decide +kernel : ∀ t : Fin grid0.N, _)
theorem idxV8 : ∀ t : Fin cfg0.N, win0_8.index t (0 : Fin 1) = 0 := (by decide +kernel : ∀ t : Fin grid0.N, _)
theorem idxV9 : ∀ t : Fin cfg0.N, win0_9.index t (0 : Fin 1) = 0 := (by decide +kernel : ∀ t : Fin grid0.N, _)
theorem idxV11 : ∀ t : Fin cfg0.N, win0_11.index t (0 : Fin 1) = 0 := (by decide +kernel : ∀ t : Fin grid0.N, _)
theorem idxV12 : ∀ t : Fin cfg0.N, win0_12.index t (0 : Fin 1) = 0 := (by decide +kernel : ∀ t : Fin grid0.N, _)
theorem idxV13 : ∀ t : Fin cfg0.N, win0_13.index t (0 : Fin 1) = 0 := (by decide +kernel : ∀ t : Fin grid0.N, _)
theorem idxV14 : ∀ t : Fin cfg0.N, win0_14.index t (0 : Fin 1) = 0 := (by decide +kernel : ∀ t : Fin grid0.N, _)
theorem idxV15 : ∀ t : Fin cfg0.N, win0_15.index t (0 : Fin 1) = 0 := (by decide +kernel : ∀ t : Fin grid0.N, _)

/-- Row `n` of the block at point `t` is row `32·t + n` of the array. -/
abbrev row (t : Fin cfg0.N) (n : Fin 32) : Fin 2048 :=
  ⟨t.val * 32 + n.val, by have ht : t.val < 64 := t.isLt; have := n.isLt; omega⟩

/-! ## Each block read at an entry -/

theorem blk0_apply (c : Dev nD) (t : Fin cfg0.N) (n : Fin 32) (k : Fin 256) :
    iblk m c 0 t (ix2 n k) = (m ((c : Thread nD τ).loc main_arg0)) (ix2 (row t n) k) := by
  obtain ⟨e0, e1, -⟩ := idxRows t
  show V m c main_arg0 (((cfg0.win 0).blk t).view.emb (ix2 n k)) = _
  rw [V_main_arg0]
  refine congrArg _ (funext fun a => Fin.ext ?_)
  match a with
  | ⟨0, _⟩ => show win0_0.index t (0 : Fin 2) * 32 + 1 * n.val = t.val * 32 + n.val; omega
  | ⟨1, _⟩ => show win0_0.index t (1 : Fin 2) * 256 + 1 * k.val = k.val; omega

theorem blk1_apply (c : Dev nD) (t : Fin cfg0.N) (n : Fin 32) (u : Fin 256) (k : Fin 49) :
    iblk m c 1 t (ix3 n u k) = (m ((c : Thread nD τ).loc main_arg1)) (ix3 (row t n) u k) := by
  obtain ⟨-, -, e0, e1, e2, -⟩ := idxRows t
  show V m c main_arg1 (((cfg0.win 1).blk t).view.emb (ix3 n u k)) = _
  rw [V_main_arg1]
  refine congrArg _ (funext fun a => Fin.ext ?_)
  match a with
  | ⟨0, _⟩ => show win0_1.index t (0 : Fin 3) * 32 + 1 * n.val = t.val * 32 + n.val; omega
  | ⟨1, _⟩ => show win0_1.index t (1 : Fin 3) * 256 + 1 * u.val = u.val; omega
  | ⟨2, _⟩ => show win0_1.index t (2 : Fin 3) * 49 + 1 * k.val = k.val; omega

theorem blk2_apply (c : Dev nD) (t : Fin cfg0.N) (k : Fin 256) (j : Fin 16384) :
    iblk m c 2 t (ix2 k j) = (m ((c : Thread nD τ).loc main_arg2)) (ix2 (lo j) k) := by
  obtain ⟨e0, e1, -⟩ := idxMats t
  show V m c main_v2 (((cfg0.win 2).blk t).view.emb (ix2 k j)) = _
  refine Eq.trans (congrArg _ (funext fun a => Fin.ext ?_)) (v2_apply m c k j)
  match a with
  | ⟨0, _⟩ => show win0_2.index t (0 : Fin 2) * 256 + 1 * k.val = k.val; omega
  | ⟨1, _⟩ => show win0_2.index t (1 : Fin 2) * 16384 + 1 * j.val = j.val; omega

theorem blk3_apply (c : Dev nD) (t : Fin cfg0.N) (k : Fin 256) (j : Fin 16384) :
    iblk m c 3 t (ix2 k j) = (m ((c : Thread nD τ).loc main_arg2)) (ix2 (hi j) k) := by
  obtain ⟨-, -, e0, e1, -⟩ := idxMats t
  show V m c main_v5 (((cfg0.win 3).blk t).view.emb (ix2 k j)) = _
  refine Eq.trans (congrArg _ (funext fun a => Fin.ext ?_)) (v5_apply m c k j)
  match a with
  | ⟨0, _⟩ => show win0_3.index t (0 : Fin 2) * 256 + 1 * k.val = k.val; omega
  | ⟨1, _⟩ => show win0_3.index t (1 : Fin 2) * 16384 + 1 * j.val = j.val; omega

theorem blk4_apply (c : Dev nD) (t : Fin cfg0.N) (j : Fin 16384) :
    iblk m c 4 t (ix1 j) = (m ((c : Thread nD τ).loc main_arg3)) (ix1 (lo j)) := by
  obtain ⟨-, -, -, -, e0, -⟩ := idxMats t
  show V m c main_v6 (((cfg0.win 4).blk t).view.emb (ix1 j)) = _
  refine Eq.trans (congrArg _ (funext fun a => Fin.ext ?_)) (v6_apply m c j)
  match a with
  | ⟨0, _⟩ => show win0_4.index t (0 : Fin 1) * 16384 + 1 * j.val = j.val; omega

theorem blk5_apply (c : Dev nD) (t : Fin cfg0.N) (j : Fin 16384) :
    iblk m c 5 t (ix1 j) = (m ((c : Thread nD τ).loc main_arg3)) (ix1 (hi j)) := by
  obtain ⟨-, -, -, -, -, e0, -⟩ := idxMats t
  show V m c main_v7 (((cfg0.win 5).blk t).view.emb (ix1 j)) = _
  refine Eq.trans (congrArg _ (funext fun a => Fin.ext ?_)) (v7_apply m c j)
  match a with
  | ⟨0, _⟩ => show win0_5.index t (0 : Fin 1) * 16384 + 1 * j.val = j.val; omega

theorem blk10_apply (c : Dev nD) (t : Fin cfg0.N) (j : Fin 12544) (o : Fin 256) :
    iblk m c 10 t (ix2 j o) = (m ((c : Thread nD τ).loc main_arg8)) (ix2 o j) := by
  obtain ⟨-, -, -, -, -, -, e0, e1⟩ := idxMats t
  show V m c main_v9 (((cfg0.win 10).blk t).view.emb (ix2 j o)) = _
  refine Eq.trans (congrArg _ (funext fun a => Fin.ext ?_)) (v9_apply m c j o)
  match a with
  | ⟨0, _⟩ => show win0_10.index t (0 : Fin 2) * 12544 + 1 * j.val = j.val; omega
  | ⟨1, _⟩ => show win0_10.index t (1 : Fin 2) * 256 + 1 * o.val = o.val; omega

theorem blk6_apply (c : Dev nD) (t : Fin cfg0.N) (k : Fin 64) :
    iblk m c 6 t (ix1 k) = (m ((c : Thread nD τ).loc main_arg4)) (ix1 k) := by
  have e0 := idxV6 t
  show V m c main_arg4 (((cfg0.win 6).blk t).view.emb (ix1 k)) = _
  rw [V_main_arg4]
  refine congrArg _ (funext fun a => Fin.ext ?_)
  match a with
  | ⟨0, _⟩ => show win0_6.index t (0 : Fin 1) * 64 + 1 * k.val = k.val; omega

theorem blk7_apply (c : Dev nD) (t : Fin cfg0.N) (k : Fin 64) :
    iblk m c 7 t (ix1 k) = (m ((c : Thread nD τ).loc main_arg5)) (ix1 k) := by
  have e0 := idxV7 t
  show V m c main_arg5 (((cfg0.win 7).blk t).view.emb (ix1 k)) = _
  rw [V_main_arg5]
  refine congrArg _ (funext fun a => Fin.ext ?_)
  match a with
  | ⟨0, _⟩ => show win0_7.index t (0 : Fin 1) * 64 + 1 * k.val = k.val; omega

theorem blk8_apply (c : Dev nD) (t : Fin cfg0.N) (k : Fin 256) :
    iblk m c 8 t (ix1 k) = (m ((c : Thread nD τ).loc main_arg6)) (ix1 k) := by
  have e0 := idxV8 t
  show V m c main_arg6 (((cfg0.win 8).blk t).view.emb (ix1 k)) = _
  rw [V_main_arg6]
  refine congrArg _ (funext fun a => Fin.ext ?_)
  match a with
  | ⟨0, _⟩ => show win0_8.index t (0 : Fin 1) * 256 + 1 * k.val = k.val; omega

theorem blk9_apply (c : Dev nD) (t : Fin cfg0.N) (k : Fin 256) :
    iblk m c 9 t (ix1 k) = (m ((c : Thread nD τ).loc main_arg7)) (ix1 k) := by
  have e0 := idxV9 t
  show V m c main_arg7 (((cfg0.win 9).blk t).view.emb (ix1 k)) = _
  rw [V_main_arg7]
  refine congrArg _ (funext fun a => Fin.ext ?_)
  match a with
  | ⟨0, _⟩ => show win0_9.index t (0 : Fin 1) * 256 + 1 * k.val = k.val; omega

theorem blk11_apply (c : Dev nD) (t : Fin cfg0.N) (k : Fin 256) :
    iblk m c 11 t (ix1 k) = (m ((c : Thread nD τ).loc main_arg9)) (ix1 k) := by
  have e0 := idxV11 t
  show V m c main_arg9 (((cfg0.win 11).blk t).view.emb (ix1 k)) = _
  rw [V_main_arg9]
  refine congrArg _ (funext fun a => Fin.ext ?_)
  match a with
  | ⟨0, _⟩ => show win0_11.index t (0 : Fin 1) * 256 + 1 * k.val = k.val; omega

theorem blk12_apply (c : Dev nD) (t : Fin cfg0.N) (k : Fin 256) :
    iblk m c 12 t (ix1 k) = (m ((c : Thread nD τ).loc main_arg10)) (ix1 k) := by
  have e0 := idxV12 t
  show V m c main_arg10 (((cfg0.win 12).blk t).view.emb (ix1 k)) = _
  rw [V_main_arg10]
  refine congrArg _ (funext fun a => Fin.ext ?_)
  match a with
  | ⟨0, _⟩ => show win0_12.index t (0 : Fin 1) * 256 + 1 * k.val = k.val; omega

theorem blk13_apply (c : Dev nD) (t : Fin cfg0.N) (k : Fin 256) :
    iblk m c 13 t (ix1 k) = (m ((c : Thread nD τ).loc main_arg11)) (ix1 k) := by
  have e0 := idxV13 t
  show V m c main_arg11 (((cfg0.win 13).blk t).view.emb (ix1 k)) = _
  rw [V_main_arg11]
  refine congrArg _ (funext fun a => Fin.ext ?_)
  match a with
  | ⟨0, _⟩ => show win0_13.index t (0 : Fin 1) * 256 + 1 * k.val = k.val; omega

theorem blk14_apply (c : Dev nD) (t : Fin cfg0.N) (k : Fin 256) :
    iblk m c 14 t (ix1 k) = (m ((c : Thread nD τ).loc main_arg12)) (ix1 k) := by
  have e0 := idxV14 t
  show V m c main_arg12 (((cfg0.win 14).blk t).view.emb (ix1 k)) = _
  rw [V_main_arg12]
  refine congrArg _ (funext fun a => Fin.ext ?_)
  match a with
  | ⟨0, _⟩ => show win0_14.index t (0 : Fin 1) * 256 + 1 * k.val = k.val; omega

theorem blk15_apply (c : Dev nD) (t : Fin cfg0.N) (k : Fin 256) :
    iblk m c 15 t (ix1 k) = (m ((c : Thread nD τ).loc main_arg13)) (ix1 k) := by
  have e0 := idxV15 t
  show V m c main_arg13 (((cfg0.win 15).blk t).view.emb (ix1 k)) = _
  rw [V_main_arg13]
  refine congrArg _ (funext fun a => Fin.ext ?_)
  match a with
  | ⟨0, _⟩ => show win0_15.index t (0 : Fin 1) * 256 + 1 * k.val = k.val; omega

/-! ## The whole array -/

/-- The result array as one function of the argument arrays: entry `(g, o)` is `Gout` of row `g`. -/
def Garr (c : Dev nD) : S2048x256.Idx → Elt Ideal .f32 := fun i =>
  Gout scaleK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    ⟨(i 0).val, (i 0).isLt⟩ ⟨(i 1).val, (i 1).isLt⟩

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- What point `t` writes back is block `t` (rows `32·t … 32·t + 31`) of `Garr`. -/
theorem flushed_eq (c : Dev nD) (t : Fin cfg0.N) :
    (dats m 0 c).flushed 16 t = ((cfg0.win 16).blk t).view.read (Elt Ideal) (Garr m c) := by
  rw [Cert.KernelIdeal.Value.flushed16]
  unfold out0_16
  rw [View.canon_unit_zero hz2]
  simp only [View.ld_unit_zero (S := S32x256) hz2, View.ld_unit_zero (S := S256x16384) hz2,
    View.ld_unit_zero (S := S16384) hz1, View.ld_unit_zero (S := S32x256x49) hz3, View.ld_unit_zero (S := S64) hz1,
    View.ld_unit_zero (S := S256) hz1, View.ld_unit_zero (S := S12544x256) hz2]
  funext y
  obtain ⟨n, o, rfl⟩ : ∃ (n : Fin 32) (o : Fin 256), y = ix2 n o := ⟨y 0, y 1, eq_ix2 y⟩
  obtain ⟨-, -, -, -, -, e0, e1⟩ := idxRows t
  have hemb : ((cfg0.win 16).blk t).view.emb (ix2 n o) = ix2 (row t n) o := by
    funext a; apply Fin.ext
    match a with
    | ⟨0, _⟩ => show win0_16.index t (0 : Fin 2) * 32 + 1 * n.val = t.val * 32 + n.val; omega
    | ⟨1, _⟩ => show win0_16.index t (1 : Fin 2) * 256 + 1 * o.val = o.val; omega
  refine (payload_apply (iblk m c 0 t) (iblk m c 2 t) (iblk m c 4 t) (iblk m c 1 t) (iblk m c 6 t) (iblk m c 7 t)
    (iblk m c 3 t) (iblk m c 5 t) (iblk m c 8 t) (iblk m c 9 t) (iblk m c 10 t) (iblk m c 11 t) (iblk m c 12 t)
    (iblk m c 13 t) (iblk m c 14 t) (iblk m c 15 t) n o).trans ?_
  show _ = Garr m c (((cfg0.win 16).blk t).view.emb (ix2 n o))
  rw [hemb]
  show _ = Gout scaleK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (row t n) o
  unfold Gout
  simp only [blk0_apply, blk1_apply, blk2_apply, blk3_apply, blk4_apply, blk5_apply, blk6_apply, blk7_apply, blk8_apply, blk9_apply, blk10_apply, blk11_apply, blk12_apply, blk13_apply, blk14_apply, blk15_apply]

/-- The 64 blocks cover the array (row `r` lies in point `r / 32`'s block), so it ends holding `Garr`. -/
theorem final (c : Dev nD) : (dats m 0 c).arrAt 16 cfg0.N = Garr m c :=
  (dats m 0 c).arrAt_eq_of_cover 16 (Garr m c) (fun t _ => flushed_eq m c t) fun i => by
    have h0 : (i 0 : Nat) < 2048 := (i 0).isLt
    have h1 : (i 1 : Nat) < 256 := (i 1).isLt
    obtain ⟨t, ht⟩ : ∃ t : Fin cfg0.N, t.val = (i 0 : Nat) / 32 :=
      ⟨⟨(i 0 : Nat) / 32, by show (i 0 : Nat) / 32 < 64; omega⟩, rfl⟩
    obtain ⟨-, -, -, -, -, e0, e1⟩ := idxRows t
    refine ⟨t, flush0_16 t, ?_⟩
    show i ∈ ((View.whole main_v10).slice (win0_16.rect t)).set
    rw [View.set_slice_whole, Rect.mem_set_unit]
    intro a
    match a with
    | ⟨0, _⟩ =>
      show win0_16.index t (0 : Fin 2) * 32 ≤ (i 0 : Nat) ∧ (i 0 : Nat) < win0_16.index t (0 : Fin 2) * 32 + 32
      omega
    | ⟨1, _⟩ =>
      show win0_16.index t (1 : Fin 2) * 256 ≤ (i 1 : Nat) ∧ (i 1 : Nat) < win0_16.index t (1 : Fin 2) * 256 + 256
      omega

/-- The kernel's run, read: the result array ends at `Garr` of the arguments, the arguments unchanged. -/
theorem run : θ_run defs (onTc (τ := τ) (main (F := Ideal))) ⟨m, fun _ => 0, ρ⟩ fun r => ∀ c : Dev nD,
      r.2.mem ((c : Thread nD τ).loc main_v10) = Garr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩)
    (Cert.KernelIdeal.Value.run_blocks m ρ)

end Cert.KernelIdeal.Hand

end
-- ==== Proof.RStage1.lean ====
/-
  The reference's first stage read at an entry. Row `g` of `x · Wqᵀ + bq` over all 32768 columns; its first
  half reshaped to `[256, 64]`, multiplied per row with `v`ᵀ; the layer norm over the 64 entries (dividing by the
  square root) and its positive part: the specification's `z1` and `a1` of row `g`, with the first half of
  the fused weight.
-/
import proofs.«115709_j66700842107138_1_alg».proof.Proof.RefRead
import proofs.«115709_j66700842107138_1_alg».proof.Proof.Spec
import Idealize.ShloMosaic.Lib.ValueIdx
import Idealize.ShloMosaic.Lib.Pipeline.Value
import Idealize.ShloMosaic.PureOps.Ideal.Laws

noncomputable section

namespace Cert.ReferenceIdeal.Hand

open Cert.ReferenceIdeal Cert.ReferenceIdeal.Gen Cert.ReferenceIdeal.ReadP Idealize.ShloMosaic Idealize.ShloMosaic.ValueIdx Cert.Spec

/-- Entry `(g, j)` of `x · Wqᵀ + bq`. -/
theorem ref_q (x0 : (⟨S2048x256, .f32⟩ : BufTy).Contents (Elt Ideal)) (x2 : (⟨S32768x256, .f32⟩ : BufTy).Contents (Elt Ideal)) (x3 : (⟨S32768, .f32⟩ : BufTy).Contents (Elt Ideal)) (g : Fin 2048) (j : Fin 32768) :
    val_main_v5 (F := Ideal) x0 x2 x3 (ix2 g j) = Gq x0 x2 x3 g j := by
  rw [val_main_v5_apply, val_main_v2_apply, val_main_v4_apply, val_main_v3_apply]
  simp only [val_main_v1_apply]
  unfold Gq
  have e1 : ∀ k : Fin 256, lidx_main_v2 (ix2 g j) k = ix2 g k := fun k => funext fun a => Fin.ext (by
    match a with
    | ⟨0, _⟩ => rfl
    | ⟨1, _⟩ => rfl)
  have e2 : ∀ k : Fin 256, idx_main_v1 (ridx_main_v2 (ix2 g j) k) = ix2 j k := fun k => funext fun a => Fin.ext (by
    match a with
    | ⟨0, _⟩ => rfl
    | ⟨1, _⟩ => rfl)
  have e3 : idx_main_v3 (idx_main_v4 (ix2 g j)) = ix1 j := funext fun a => Fin.ext (by
    match a with
    | ⟨0, _⟩ => rfl)
  simp only [e1, e2, e3]
  rfl

/-- The first per-row product at entry `(g, k, h)`: the specification's `t1` of row `g`. -/
theorem ref_t1 (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (g : Fin 2048) (k : Fin 49) (h : Fin 64) :
    val_main_v8 (F := Ideal) x0 x1 x2 x3 (ix3 g k h)
      = t1 (fun c => x0 (ix2 g c)) (fun u k => x1 (ix3 g u k)) (fun j c => x2 (ix2 (lo j) c)) (fun j => x3 (ix1 (lo j))) k h := by
  rw [val_main_v8_apply]
  unfold t1
  refine Finset.sum_congr rfl fun u _ => ?_
  rw [val_main_v0_apply, val_main_v7_apply, val_main_v6_apply]
  have e0 : idx_main_v0 (lidx_main_v8 (ix3 g k h) u) = ix3 g u k := funext fun a => Fin.ext (by
    match a with
    | ⟨0, _⟩ => rfl
    | ⟨1, _⟩ => rfl
    | ⟨2, _⟩ => rfl)
  have e1 : idx_main_v6 (idx_main_v7 (ridx_main_v8 (ix3 g k h) u)) = ix2 g (lo (i1 u h)) := funext fun a => Fin.ext (by
    have hg := g.isLt
    have hu := u.isLt
    have hh := h.isLt
    match a with
    | ⟨0, _⟩ => show ((g.val * 256 + u.val) * 64 + h.val) / 16384 = g.val; omega
    | ⟨1, _⟩ => show ((g.val * 256 + u.val) * 64 + h.val) % 16384 = u.val * 64 + h.val; omega)
  rw [e0, e1, ref_q]
  rfl

/-- The mean of the 64 entries of `(g, k, ·)`, kept on a last axis of extent one. -/
theorem ref_mean1 (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (g : Fin 2048) (k : Fin 49) (z : Fin 1) :
    val_main_v12 (F := Ideal) x0 x1 x2 x3 (ix3 g k z) = mean c64 (fun h' : Fin 64 => val_main_v8 (F := Ideal) x0 x1 x2 x3 (ix3 g k h')) := by
  rw [val_main_v12_apply, val_main_v10_apply, val_main_v9_apply, val_main_v11_apply, val_main_cst_0_apply,
    val_main_cst_apply]
  unfold mean
  have e : ∀ h' : Fin 64, idx_main_v9 (idx_main_v10 (ix3 g k z)) h' = ix3 g k h' := fun h' => funext fun a => Fin.ext (by
    match a with
    | ⟨0, _⟩ => rfl
    | ⟨1, _⟩ => rfl
    | ⟨2, _⟩ => rfl)
  simp only [e, Ideal.hostDivf_def, Ideal.ofBits_def, Cert.Consts.ofBits_zero, zero_add]

/-- The mean of the squared deviations of the 64 entries of `(g, k, ·)`. -/
theorem ref_var1 (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (g : Fin 2048) (k : Fin 49) (z : Fin 1) :
    val_main_v19 (F := Ideal) x0 x1 x2 x3 (ix3 g k z) = var c64 (fun h' : Fin 64 => val_main_v8 (F := Ideal) x0 x1 x2 x3 (ix3 g k h')) := by
  rw [val_main_v19_apply, val_main_v17_apply, val_main_v16_apply, val_main_v18_apply, val_main_cst_2_apply,
    val_main_cst_1_apply]
  unfold var
  have e : ∀ h' : Fin 64, idx_main_v16 (idx_main_v17 (ix3 g k z)) h' = ix3 g k h' := fun h' => funext fun a => Fin.ext (by
    match a with
    | ⟨0, _⟩ => rfl
    | ⟨1, _⟩ => rfl
    | ⟨2, _⟩ => rfl)
  have e13 : ∀ h' : Fin 64, idx_main_v13 (ix3 g k h') = ix3 g k (⟨0, Nat.one_pos⟩ : Fin 1) := fun h' => funext fun a => Fin.ext (by
    match a with
    | ⟨0, _⟩ => rfl
    | ⟨1, _⟩ => rfl
    | ⟨2, _⟩ => rfl)
  simp only [e, val_main_v15_apply, val_main_v14_apply, val_main_v13_apply, e13, ref_mean1, Ideal.hostDivf_def,
    Ideal.mulf_def, Ideal.subf_def, Ideal.ofBits_def, Cert.Consts.ofBits_zero, zero_add]

/-- The layer norm over the 64 entries of `(g, k, ·)`, its input kept as a function. -/
theorem ref_ln1 (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (g : Fin 2048) (k : Fin 49) (h : Fin 64) :
    val_main_v32 (F := Ideal) x0 x1 x2 x3 x4 x5 (ix3 g k h)
      = ln scaleR c64 cEps (fun h' : Fin 64 => val_main_v8 (F := Ideal) x0 x1 x2 x3 (ix3 g k h')) (fun h => x4 (ix1 h)) (fun h => x5 (ix1 h)) h := by
  rw [val_main_v32_apply, val_main_v29_apply, val_main_v26_apply, val_main_v21_apply, val_main_v20_apply,
    val_main_v25_apply, val_main_v24_apply, val_main_v23_apply, val_main_v22_apply, val_main_cst_3_apply,
    val_main_v28_apply, val_main_v27_apply, val_main_v31_apply, val_main_v30_apply]
  have e20 : idx_main_v20 (ix3 g k h) = ix3 g k (⟨0, Nat.one_pos⟩ : Fin 1) := funext fun a => Fin.ext (by
    match a with
    | ⟨0, _⟩ => rfl
    | ⟨1, _⟩ => rfl
    | ⟨2, _⟩ => rfl)
  have e25 : idx_main_v25 (ix3 g k h) = ix3 g k (⟨0, Nat.one_pos⟩ : Fin 1) := funext fun a => Fin.ext (by
    match a with
    | ⟨0, _⟩ => rfl
    | ⟨1, _⟩ => rfl
    | ⟨2, _⟩ => rfl)
  have e28 : idx_main_v27 (idx_main_v28 (ix3 g k h)) = ix1 h := funext fun a => Fin.ext (by
    match a with
    | ⟨0, _⟩ => rfl)
  have e31 : idx_main_v30 (idx_main_v31 (ix3 g k h)) = ix1 h := funext fun a => Fin.ext (by
    match a with
    | ⟨0, _⟩ => rfl)
  rw [e20, e25, e28, e31, ref_mean1, ref_var1]
  unfold ln scaleR
  simp only [Ideal.addf_def, Ideal.mulf_def, Ideal.subf_def, Ideal.hostDivf_def, Ideal.hostUnary_sqrt_def,
    Ideal.ofBits_def]

/-- Entry `(g, k, h)` of the first layer norm. -/
theorem ref_z1 (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (g : Fin 2048) (k : Fin 49) (h : Fin 64) :
    val_main_v32 (F := Ideal) x0 x1 x2 x3 x4 x5 (ix3 g k h) = Gz1 scaleR x0 x1 x2 x3 x4 x5 g k h := by
  rw [ref_ln1]
  unfold Gz1 z1
  have ht : (fun h' : Fin 64 => val_main_v8 (F := Ideal) x0 x1 x2 x3 (ix3 g k h'))
      = t1 (fun c => x0 (ix2 g c)) (fun u k => x1 (ix3 g u k)) (fun j c => x2 (ix2 (lo j) c))
          (fun j => x3 (ix1 (lo j))) k := funext fun h' => ref_t1 x0 x1 x2 x3 g k h'
  rw [ht]

/-- … and of its positive part. -/
theorem ref_a1 (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (g : Fin 2048) (k : Fin 49) (h : Fin 64) :
    val_main_v33 (F := Ideal) x0 x1 x2 x3 x4 x5 (ix3 g k h) = Ga1 scaleR x0 x1 x2 x3 x4 x5 g k h := by
  rw [val_main_v33_apply, val_main_call0_v0_apply, val_main_call0_cst_apply, ref_z1]
  rfl

end Cert.ReferenceIdeal.Hand

end
-- ==== Proof.RStage2.lean ====
/-
  The reference's second stage read at an entry: the second half of `x · Wqᵀ + bq` reshaped to `[64, 256]`,
  the per-row product with the first stage, the layer norm over the 256 entries and its positive part: the
  specification's `a2` of row `g`.
-/
import proofs.«115709_j66700842107138_1_alg».proof.Proof.RStage1

noncomputable section

namespace Cert.ReferenceIdeal.Hand

open Cert.ReferenceIdeal Cert.ReferenceIdeal.Gen Cert.ReferenceIdeal.ReadP Idealize.ShloMosaic Idealize.ShloMosaic.ValueIdx Cert.Spec

/-- Entry `(g, h, u)` of the `[2048, 64, 256]` reshape of the second half of `x · Wqᵀ + bq`: position
    `256·h + u` of the second half of row `g`, that is column `16384 + 256·h + u` of the whole row. -/
theorem ref2_half (x0 : (⟨S2048x256, .f32⟩ : BufTy).Contents (Elt Ideal)) (x2 : (⟨S32768x256, .f32⟩ : BufTy).Contents (Elt Ideal)) (x3 : (⟨S32768, .f32⟩ : BufTy).Contents (Elt Ideal)) (g : Fin 2048) (h : Fin 64) (u : Fin 256) :
    val_main_v35 (F := Ideal) x0 x2 x3 (ix3 g h u)
      = lin (fun c => x0 (ix2 g c)) (fun j c => x2 (ix2 (hi j) c)) (fun j => x3 (ix1 (hi j))) (i2 h u) := by
  rw [val_main_v35_apply, val_main_v34_apply]
  have e : idx_main_v34 (idx_main_v35 (ix3 g h u)) = ix2 g (hi (i2 h u)) := funext fun a => Fin.ext (by
    match a with
    | ⟨0, _⟩ =>
      show ((g.val * 64 + h.val) * 256 + u.val) / 16384 = g.val
      have := h.isLt; have := u.isLt; omega
    | ⟨1, _⟩ =>
      show 16384 + ((g.val * 64 + h.val) * 256 + u.val) % 16384 = 16384 + (h.val * 256 + u.val)
      have := h.isLt; have := u.isLt; omega)
  rw [e, ref_q]
  rfl

/-- Entry `(g, k, u)` of the second per-row product: the sum over `h` of the first stage's `(g, k, h)` times
    the reshaped second half at `(g, h, u)`. -/
theorem ref2_prod (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (g : Fin 2048) (k : Fin 49) (u : Fin 256) :
    val_main_v36 (F := Ideal) x0 x1 x2 x3 x4 x5 (ix3 g k u)
      = t2 scaleR (fun c => x0 (ix2 g c)) (fun u k => x1 (ix3 g u k)) (fun j c => x2 (ix2 (lo j) c)) (fun j c => x2 (ix2 (hi j) c))
        (fun j => x3 (ix1 (lo j))) (fun j => x3 (ix1 (hi j))) (fun h => x4 (ix1 h)) (fun h => x5 (ix1 h)) k u := by
  rw [val_main_v36_apply]
  unfold t2
  refine Finset.sum_congr rfl fun h _ => ?_
  have el : lidx_main_v36 (ix3 g k u) h = ix3 g k h := funext fun a => Fin.ext (by
    match a with
    | ⟨0, _⟩ => rfl
    | ⟨1, _⟩ => rfl
    | ⟨2, _⟩ => rfl)
  have er : ridx_main_v36 (ix3 g k u) h = ix3 g h u := funext fun a => Fin.ext (by
    match a with
    | ⟨0, _⟩ => rfl
    | ⟨1, _⟩ => rfl
    | ⟨2, _⟩ => rfl)
  rw [el, er, ref_a1, ref2_half]
  rfl

/-- The mean of the 256 entries of the product's line `(g, k)`. -/
theorem ref2_mean (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (g : Fin 2048) (k : Fin 49) (z : Fin 1) :
    val_main_v40 (F := Ideal) x0 x1 x2 x3 x4 x5 (ix3 g k z)
      = mean c256 (fun u : Fin 256 => val_main_v36 (F := Ideal) x0 x1 x2 x3 x4 x5 (ix3 g k u)) := by
  rw [val_main_v40_apply, val_main_v38_apply, val_main_v37_apply, val_main_v39_apply, val_main_cst_4_apply,
    val_main_cst_5_apply]
  simp only [Ideal.hostDivf_def, Ideal.ofBits_def]
  rw [Cert.Consts.ofBits_zero, zero_add]
  unfold mean
  refine congrArg (Ideal.div · c256) (Finset.sum_congr rfl fun u _ => ?_)
  exact congrArg _ (funext fun a => Fin.ext (by
    match a with
    | ⟨0, _⟩ => rfl
    | ⟨1, _⟩ => rfl
    | ⟨2, _⟩ => rfl))

/-- The mean of the squared deviations of the line `(g, k)`. -/
theorem ref2_var (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (g : Fin 2048) (k : Fin 49) (z : Fin 1) :
    val_main_v47 (F := Ideal) x0 x1 x2 x3 x4 x5 (ix3 g k z)
      = var c256 (fun u : Fin 256 => val_main_v36 (F := Ideal) x0 x1 x2 x3 x4 x5 (ix3 g k u)) := by
  rw [val_main_v47_apply, val_main_v45_apply, val_main_v44_apply, val_main_v46_apply, val_main_cst_6_apply,
    val_main_cst_7_apply]
  simp only [Ideal.hostDivf_def, Ideal.ofBits_def]
  rw [Cert.Consts.ofBits_zero, zero_add]
  unfold var
  refine congrArg (Ideal.div · c256) (Finset.sum_congr rfl fun u _ => ?_)
  have e : idx_main_v44 (idx_main_v45 (ix3 g k z)) u = ix3 g k u := funext fun a => Fin.ext (by
    match a with
    | ⟨0, _⟩ => rfl
    | ⟨1, _⟩ => rfl
    | ⟨2, _⟩ => rfl)
  have e41 : idx_main_v41 (ix3 g k u) = ix3 g k (⟨0, Nat.one_pos⟩ : Fin 1) := funext fun a => Fin.ext (by
    match a with
    | ⟨0, _⟩ => rfl
    | ⟨1, _⟩ => rfl
    | ⟨2, _⟩ => rfl)
  rw [e, val_main_v43_apply, val_main_v42_apply, val_main_v41_apply, e41, ref2_mean]
  rfl

/-- Entry `(g, k, u)` of the second layer norm, as the layer norm of the product's line `(g, k)`. -/
theorem ref2_ln (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (x6 x7 : (⟨S256, .f32⟩ : BufTy).Contents (Elt Ideal)) (g : Fin 2048) (k : Fin 49) (u : Fin 256) :
    val_main_v60 (F := Ideal) x0 x1 x2 x3 x4 x5 x6 x7 (ix3 g k u)
      = ln scaleR c256 cEps (fun u : Fin 256 => val_main_v36 (F := Ideal) x0 x1 x2 x3 x4 x5 (ix3 g k u))
          (fun u => x6 (ix1 u)) (fun u => x7 (ix1 u)) u := by
  rw [val_main_v60_apply, val_main_v57_apply, val_main_v54_apply, val_main_v49_apply, val_main_v48_apply,
    val_main_v53_apply, val_main_v52_apply, val_main_v51_apply, val_main_v50_apply, val_main_cst_8_apply,
    val_main_v56_apply, val_main_v55_apply, val_main_v59_apply, val_main_v58_apply]
  have e48 : idx_main_v48 (ix3 g k u) = ix3 g k (⟨0, Nat.one_pos⟩ : Fin 1) := funext fun a => Fin.ext (by
    match a with
    | ⟨0, _⟩ => rfl
    | ⟨1, _⟩ => rfl
    | ⟨2, _⟩ => rfl)
  have e53 : idx_main_v53 (ix3 g k u) = ix3 g k (⟨0, Nat.one_pos⟩ : Fin 1) := funext fun a => Fin.ext (by
    match a with
    | ⟨0, _⟩ => rfl
    | ⟨1, _⟩ => rfl
    | ⟨2, _⟩ => rfl)
  have e56 : idx_main_v55 (idx_main_v56 (ix3 g k u)) = ix1 u := funext fun a => Fin.ext (by
    match a with
    | ⟨0, _⟩ => rfl)
  have e59 : idx_main_v58 (idx_main_v59 (ix3 g k u)) = ix1 u := funext fun a => Fin.ext (by
    match a with
    | ⟨0, _⟩ => rfl)
  rw [e48, e53, e56, e59, ref2_mean, ref2_var]
  rfl

/-- Entry `(g, k, u)` of the positive part of the second layer norm. -/
theorem ref_a2 (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (x6 x7 : (⟨S256, .f32⟩ : BufTy).Contents (Elt Ideal)) (g : Fin 2048) (k : Fin 49) (u : Fin 256) :
    val_main_v61 (F := Ideal) x0 x1 x2 x3 x4 x5 x6 x7 (ix3 g k u) = Ga2 scaleR x0 x1 x2 x3 x4 x5 x6 x7 g k u := by
  rw [val_main_v61_apply, val_main_call1_v0_apply, val_main_call1_cst_apply, ref2_ln]
  have ht : (fun u : Fin 256 => val_main_v36 (F := Ideal) x0 x1 x2 x3 x4 x5 (ix3 g k u))
      = t2 scaleR (fun c => x0 (ix2 g c)) (fun u k => x1 (ix3 g u k)) (fun j c => x2 (ix2 (lo j) c)) (fun j c => x2 (ix2 (hi j) c))
        (fun j => x3 (ix1 (lo j))) (fun j => x3 (ix1 (hi j))) (fun h => x4 (ix1 h)) (fun h => x5 (ix1 h)) k :=
    funext fun u => ref2_prod x0 x1 x2 x3 x4 x5 g k u
  rw [ht]
  rfl

end Cert.ReferenceIdeal.Hand

end
-- ==== Proof.RStage3.lean ====
/-
  The reference's last two stages read at an entry: the flattened second stage against `Wv`ᵀ plus its bias, the
  layer norm and positive part added to `x` (the specification's `r`), and the final layer norm (`out`).
-/
import proofs.«115709_j66700842107138_1_alg».proof.Proof.RStage2

noncomputable section

namespace Cert.ReferenceIdeal.Hand

open Cert.ReferenceIdeal Cert.ReferenceIdeal.Gen Cert.ReferenceIdeal.ReadP Idealize.ShloMosaic Idealize.ShloMosaic.ValueIdx Cert.Spec

namespace Stage3

/-- The layer norm of a row, spelt with the sums' zero start value, is the specification's. -/
theorem ln_row (Y : S2048x256.Idx → EReal) (G B : S256.Idx → EReal) (g : Fin 2048) (o : Fin 256)
    (m v : EReal)
    (hm : m = Ideal.div (Ideal.ofBits .f32 0x00000000#32 + ∑ k : Fin 256, Y (ix2 g k)) (Ideal.ofBits .f32 0x43800000#32))
    (hv : v = Ideal.div (Ideal.ofBits .f32 0x00000000#32 + ∑ k : Fin 256, (Y (ix2 g k) - m) * (Y (ix2 g k) - m)) (Ideal.ofBits .f32 0x43800000#32)) :
    Ideal.div (Y (ix2 g o) - m) (Ideal.sqrt (v + Ideal.ofBits .f32 0x3727C5AC#32)) * G (ix1 o) + B (ix1 o)
      = ln scaleR c256 cEps (fun o => Y (ix2 g o)) (fun o => G (ix1 o)) (fun o => B (ix1 o)) o := by
  subst hv; subst hm
  rw [Cert.Consts.ofBits_zero]
  simp only [zero_add]
  rfl

/-! ## The product with `Wv`ᵀ and its bias: buffers 62 to 67 -/

/-- Position `j` of row `g` of the flattened `[2048, 12544]` array is entry `(g, j / 256, j % 256)`. -/
theorem idx62_row (g : Fin 2048) (o : Fin 256) (j : Fin 12544) :
    idx_main_v62 (lidx_main_v64 (ix2 g o) j) = ix3 g (kOf j) (uOf j) :=
  funext fun a => Fin.ext (by
    have hg := g.isLt
    have hj := j.isLt
    match a with
    | ⟨0, _⟩ => show (g.val * 12544 + j.val) / 12544 = g.val; omega
    | ⟨1, _⟩ => show (g.val * 12544 + j.val) / 256 % 49 = j.val / 256; omega
    | ⟨2, _⟩ => show (g.val * 12544 + j.val) % 256 = j.val % 256; omega)

/-- The transposed weight at `(j, o)` is the weight at `(o, j)`. -/
theorem idx63_row (g : Fin 2048) (o : Fin 256) (j : Fin 12544) :
    idx_main_v63 (ridx_main_v64 (ix2 g o) j) = ix2 o j :=
  funext fun a => Fin.ext (by match a with | ⟨0, _⟩ => rfl | ⟨1, _⟩ => rfl)

theorem idx65_row (g : Fin 2048) (o : Fin 256) : idx_main_v65 (idx_main_v66 (ix2 g o)) = ix1 o :=
  funext fun a => Fin.ext (by match a with | ⟨0, _⟩ => rfl)

/-- Entry `(g, o)` of the product with `Wv`ᵀ plus its bias: the specification's `w` of row `g`. -/
theorem ref_w (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (x6 x7 : (⟨S256, .f32⟩ : BufTy).Contents (Elt Ideal)) (x8 : (⟨S256x12544, .f32⟩ : BufTy).Contents (Elt Ideal)) (x9 : (⟨S256, .f32⟩ : BufTy).Contents (Elt Ideal)) (g : Fin 2048) (o : Fin 256) :
    val_main_v67 (F := Ideal) x0 x1 x2 x3 x4 x5 x6 x7 x8 x9 (ix2 g o)
      = w scaleR (fun c => x0 (ix2 g c)) (fun u k => x1 (ix3 g u k)) (fun j c => x2 (ix2 (lo j) c)) (fun j c => x2 (ix2 (hi j) c)) (fun j => x3 (ix1 (lo j))) (fun j => x3 (ix1 (hi j))) (fun h => x4 (ix1 h)) (fun h => x5 (ix1 h)) (fun u => x6 (ix1 u)) (fun u => x7 (ix1 u)) (fun o j => x8 (ix2 o j)) (fun o => x9 (ix1 o)) o := by
  rw [val_main_v67_apply, val_main_v64_apply, val_main_v66_apply, val_main_v65_apply, idx65_row]
  simp only [val_main_v62_apply, val_main_v63_apply, idx62_row, idx63_row, ref_a2]
  rfl

/-! ## The third layer norm: buffers 68 to 91 over buffer 67 -/

/-- The broadcast row statistics are read at column 0 of the row, whatever the column. -/
theorem idx68_row (g : Fin 2048) (o k : Fin 256) :
    idx_main_v68 (idx_main_v69 (idx_main_v72 (ix2 g o))) k = ix2 g k :=
  funext fun a => Fin.ext (by match a with | ⟨0, _⟩ => rfl | ⟨1, _⟩ => rfl)

/-- The mean of row `g` of buffer 67, as the reference spells it. -/
theorem v71_row (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (x6 x7 : (⟨S256, .f32⟩ : BufTy).Contents (Elt Ideal)) (x8 : (⟨S256x12544, .f32⟩ : BufTy).Contents (Elt Ideal)) (x9 : (⟨S256, .f32⟩ : BufTy).Contents (Elt Ideal)) (g : Fin 2048) (o : Fin 256) :
    val_main_v71 (F := Ideal) x0 x1 x2 x3 x4 x5 x6 x7 x8 x9 (idx_main_v72 (ix2 g o))
      = Ideal.div (Ideal.ofBits .f32 0x00000000#32 + ∑ k : Fin 256, val_main_v67 (F := Ideal) x0 x1 x2 x3 x4 x5 x6 x7 x8 x9 (ix2 g k)) (Ideal.ofBits .f32 0x43800000#32) := by
  rw [val_main_v71_apply, val_main_v69_apply, val_main_v68_apply, val_main_v70_apply, val_main_cst_10_apply, val_main_cst_9_apply]
  simp only [idx68_row]
  rfl

/-- The centred entry (first copy, the one the variance squares). -/
theorem v73_row (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (x6 x7 : (⟨S256, .f32⟩ : BufTy).Contents (Elt Ideal)) (x8 : (⟨S256x12544, .f32⟩ : BufTy).Contents (Elt Ideal)) (x9 : (⟨S256, .f32⟩ : BufTy).Contents (Elt Ideal)) (g : Fin 2048) (o : Fin 256) :
    val_main_v73 (F := Ideal) x0 x1 x2 x3 x4 x5 x6 x7 x8 x9 (ix2 g o)
      = val_main_v67 (F := Ideal) x0 x1 x2 x3 x4 x5 x6 x7 x8 x9 (ix2 g o) - val_main_v71 (F := Ideal) x0 x1 x2 x3 x4 x5 x6 x7 x8 x9 (idx_main_v72 (ix2 g o)) := by
  rw [val_main_v73_apply, val_main_v72_apply]
  rfl

/-- The centred entry (second copy, the one that is scaled). -/
theorem v80_row (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (x6 x7 : (⟨S256, .f32⟩ : BufTy).Contents (Elt Ideal)) (x8 : (⟨S256x12544, .f32⟩ : BufTy).Contents (Elt Ideal)) (x9 : (⟨S256, .f32⟩ : BufTy).Contents (Elt Ideal)) (g : Fin 2048) (o : Fin 256) :
    val_main_v80 (F := Ideal) x0 x1 x2 x3 x4 x5 x6 x7 x8 x9 (ix2 g o)
      = val_main_v67 (F := Ideal) x0 x1 x2 x3 x4 x5 x6 x7 x8 x9 (ix2 g o) - val_main_v71 (F := Ideal) x0 x1 x2 x3 x4 x5 x6 x7 x8 x9 (idx_main_v72 (ix2 g o)) := by
  rw [val_main_v80_apply, val_main_v79_apply]
  rfl

theorem idx75_row (g : Fin 2048) (o k : Fin 256) :
    idx_main_v75 (idx_main_v76 (idx_main_v84 (ix2 g o))) k = ix2 g k :=
  funext fun a => Fin.ext (by match a with | ⟨0, _⟩ => rfl | ⟨1, _⟩ => rfl)

/-- The square root of the offset variance of row `g`. -/
theorem v83_row (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (x6 x7 : (⟨S256, .f32⟩ : BufTy).Contents (Elt Ideal)) (x8 : (⟨S256x12544, .f32⟩ : BufTy).Contents (Elt Ideal)) (x9 : (⟨S256, .f32⟩ : BufTy).Contents (Elt Ideal)) (g : Fin 2048) (o : Fin 256) :
    val_main_v83 (F := Ideal) x0 x1 x2 x3 x4 x5 x6 x7 x8 x9 (idx_main_v84 (ix2 g o))
      = Ideal.sqrt (Ideal.div (Ideal.ofBits .f32 0x00000000#32 + ∑ k : Fin 256, val_main_v73 (F := Ideal) x0 x1 x2 x3 x4 x5 x6 x7 x8 x9 (ix2 g k) * val_main_v73 (F := Ideal) x0 x1 x2 x3 x4 x5 x6 x7 x8 x9 (ix2 g k)) (Ideal.ofBits .f32 0x43800000#32)
          + Ideal.ofBits .f32 0x3727C5AC#32) := by
  rw [val_main_v83_apply, val_main_v82_apply, val_main_v78_apply, val_main_v76_apply, val_main_v75_apply, val_main_v77_apply, val_main_v81_apply,
    val_main_cst_11_apply, val_main_cst_12_apply, val_main_cst_13_apply]
  simp only [idx75_row, val_main_v74_apply]
  rfl

/-- A row vector broadcast over the rows is read at the column. -/
theorem idx86_row (g : Fin 2048) (o : Fin 256) : idx_main_v86 (idx_main_v87 (ix2 g o)) = ix1 o :=
  funext fun a => Fin.ext (by match a with | ⟨0, _⟩ => rfl)

theorem idx89_row (g : Fin 2048) (o : Fin 256) : idx_main_v89 (idx_main_v90 (ix2 g o)) = ix1 o :=
  funext fun a => Fin.ext (by match a with | ⟨0, _⟩ => rfl)

/-- Entry `(g, o)` of the third layer norm, over row `g` of buffer 67. -/
theorem v91_row (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (x6 x7 : (⟨S256, .f32⟩ : BufTy).Contents (Elt Ideal)) (x8 : (⟨S256x12544, .f32⟩ : BufTy).Contents (Elt Ideal)) (x9 : (⟨S256, .f32⟩ : BufTy).Contents (Elt Ideal)) (x10 x11 : (⟨S256, .f32⟩ : BufTy).Contents (Elt Ideal)) (g : Fin 2048) (o : Fin 256) :
    val_main_v91 (F := Ideal) x0 x1 x2 x3 x4 x5 x6 x7 x8 x9 x10 x11 (ix2 g o)
      = ln scaleR c256 cEps (fun o => val_main_v67 (F := Ideal) x0 x1 x2 x3 x4 x5 x6 x7 x8 x9 (ix2 g o)) (fun o => x10 (ix1 o)) (fun o => x11 (ix1 o)) o := by
  rw [val_main_v91_apply, val_main_v88_apply, val_main_v85_apply, val_main_v84_apply, v80_row, v83_row,
    val_main_v87_apply, val_main_v86_apply, val_main_v90_apply, val_main_v89_apply, idx86_row, idx89_row]
  simp only [v73_row, v71_row]
  exact ln_row (val_main_v67 (F := Ideal) x0 x1 x2 x3 x4 x5 x6 x7 x8 x9) x10 x11 g o _ _ rfl rfl

/-- The inlined positive part compares with the zero constant. -/
theorem call2_zero (i : S2048x256.Idx) : val_main_call2_v0 (F := Ideal) i = cZero := by
  rw [val_main_call2_v0_apply, val_main_call2_cst_apply]
  rfl

/-! ## The final layer norm: buffers 94 to 117 over buffer 93 -/

theorem idx94_row (g : Fin 2048) (o k : Fin 256) :
    idx_main_v94 (idx_main_v95 (idx_main_v98 (ix2 g o))) k = ix2 g k :=
  funext fun a => Fin.ext (by match a with | ⟨0, _⟩ => rfl | ⟨1, _⟩ => rfl)

/-- The mean of row `g` of the residual, as the reference spells it. -/
theorem v97_row (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (x6 x7 : (⟨S256, .f32⟩ : BufTy).Contents (Elt Ideal)) (x8 : (⟨S256x12544, .f32⟩ : BufTy).Contents (Elt Ideal)) (x9 : (⟨S256, .f32⟩ : BufTy).Contents (Elt Ideal)) (x10 x11 : (⟨S256, .f32⟩ : BufTy).Contents (Elt Ideal)) (g : Fin 2048) (o : Fin 256) :
    val_main_v97 (F := Ideal) x0 x1 x2 x3 x4 x5 x6 x7 x8 x9 x10 x11 (idx_main_v98 (ix2 g o))
      = Ideal.div (Ideal.ofBits .f32 0x00000000#32 + ∑ k : Fin 256, val_main_v93 (F := Ideal) x0 x1 x2 x3 x4 x5 x6 x7 x8 x9 x10 x11 (ix2 g k)) (Ideal.ofBits .f32 0x43800000#32) := by
  rw [val_main_v97_apply, val_main_v95_apply, val_main_v94_apply, val_main_v96_apply, val_main_cst_15_apply, val_main_cst_14_apply]
  simp only [idx94_row]
  rfl

theorem v99_row (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (x6 x7 : (⟨S256, .f32⟩ : BufTy).Contents (Elt Ideal)) (x8 : (⟨S256x12544, .f32⟩ : BufTy).Contents (Elt Ideal)) (x9 : (⟨S256, .f32⟩ : BufTy).Contents (Elt Ideal)) (x10 x11 : (⟨S256, .f32⟩ : BufTy).Contents (Elt Ideal)) (g : Fin 2048) (o : Fin 256) :
    val_main_v99 (F := Ideal) x0 x1 x2 x3 x4 x5 x6 x7 x8 x9 x10 x11 (ix2 g o)
      = val_main_v93 (F := Ideal) x0 x1 x2 x3 x4 x5 x6 x7 x8 x9 x10 x11 (ix2 g o) - val_main_v97 (F := Ideal) x0 x1 x2 x3 x4 x5 x6 x7 x8 x9 x10 x11 (idx_main_v98 (ix2 g o)) := by
  rw [val_main_v99_apply, val_main_v98_apply]
  rfl

theorem v106_row (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (x6 x7 : (⟨S256, .f32⟩ : BufTy).Contents (Elt Ideal)) (x8 : (⟨S256x12544, .f32⟩ : BufTy).Contents (Elt Ideal)) (x9 : (⟨S256, .f32⟩ : BufTy).Contents (Elt Ideal)) (x10 x11 : (⟨S256, .f32⟩ : BufTy).Contents (Elt Ideal)) (g : Fin 2048) (o : Fin 256) :
    val_main_v106 (F := Ideal) x0 x1 x2 x3 x4 x5 x6 x7 x8 x9 x10 x11 (ix2 g o)
      = val_main_v93 (F := Ideal) x0 x1 x2 x3 x4 x5 x6 x7 x8 x9 x10 x11 (ix2 g o) - val_main_v97 (F := Ideal) x0 x1 x2 x3 x4 x5 x6 x7 x8 x9 x10 x11 (idx_main_v98 (ix2 g o)) := by
  rw [val_main_v106_apply, val_main_v105_apply]
  rfl

theorem idx101_row (g : Fin 2048) (o k : Fin 256) :
    idx_main_v101 (idx_main_v102 (idx_main_v110 (ix2 g o))) k = ix2 g k :=
  funext fun a => Fin.ext (by match a with | ⟨0, _⟩ => rfl | ⟨1, _⟩ => rfl)

/-- The square root of the offset variance of row `g` of the residual. -/
theorem v109_row (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (x6 x7 : (⟨S256, .f32⟩ : BufTy).Contents (Elt Ideal)) (x8 : (⟨S256x12544, .f32⟩ : BufTy).Contents (Elt Ideal)) (x9 : (⟨S256, .f32⟩ : BufTy).Contents (Elt Ideal)) (x10 x11 : (⟨S256, .f32⟩ : BufTy).Contents (Elt Ideal)) (g : Fin 2048) (o : Fin 256) :
    val_main_v109 (F := Ideal) x0 x1 x2 x3 x4 x5 x6 x7 x8 x9 x10 x11 (idx_main_v110 (ix2 g o))
      = Ideal.sqrt (Ideal.div (Ideal.ofBits .f32 0x00000000#32 + ∑ k : Fin 256, val_main_v99 (F := Ideal) x0 x1 x2 x3 x4 x5 x6 x7 x8 x9 x10 x11 (ix2 g k) * val_main_v99 (F := Ideal) x0 x1 x2 x3 x4 x5 x6 x7 x8 x9 x10 x11 (ix2 g k)) (Ideal.ofBits .f32 0x43800000#32)
          + Ideal.ofBits .f32 0x3727C5AC#32) := by
  rw [val_main_v109_apply, val_main_v108_apply, val_main_v104_apply, val_main_v102_apply, val_main_v101_apply, val_main_v103_apply, val_main_v107_apply,
    val_main_cst_16_apply, val_main_cst_17_apply, val_main_cst_18_apply]
  simp only [idx101_row, val_main_v100_apply]
  rfl

theorem idx112_row (g : Fin 2048) (o : Fin 256) : idx_main_v112 (idx_main_v113 (ix2 g o)) = ix1 o :=
  funext fun a => Fin.ext (by match a with | ⟨0, _⟩ => rfl)

theorem idx115_row (g : Fin 2048) (o : Fin 256) : idx_main_v115 (idx_main_v116 (ix2 g o)) = ix1 o :=
  funext fun a => Fin.ext (by match a with | ⟨0, _⟩ => rfl)

/-- Entry `(g, o)` of the final layer norm, over row `g` of the residual. -/
theorem v117_row (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (x6 x7 : (⟨S256, .f32⟩ : BufTy).Contents (Elt Ideal)) (x8 : (⟨S256x12544, .f32⟩ : BufTy).Contents (Elt Ideal)) (x9 : (⟨S256, .f32⟩ : BufTy).Contents (Elt Ideal)) (x10 x11 : (⟨S256, .f32⟩ : BufTy).Contents (Elt Ideal)) (x12 x13 : (⟨S256, .f32⟩ : BufTy).Contents (Elt Ideal)) (g : Fin 2048) (o : Fin 256) :
    val_main_v117 (F := Ideal) x0 x1 x2 x3 x4 x5 x6 x7 x8 x9 x10 x11 x12 x13 (ix2 g o)
      = ln scaleR c256 cEps (fun o => val_main_v93 (F := Ideal) x0 x1 x2 x3 x4 x5 x6 x7 x8 x9 x10 x11 (ix2 g o)) (fun o => x12 (ix1 o)) (fun o => x13 (ix1 o)) o := by
  rw [val_main_v117_apply, val_main_v114_apply, val_main_v111_apply, val_main_v110_apply, v106_row, v109_row,
    val_main_v113_apply, val_main_v112_apply, val_main_v116_apply, val_main_v115_apply, idx112_row, idx115_row]
  simp only [v99_row, v97_row]
  exact ln_row (val_main_v93 (F := Ideal) x0 x1 x2 x3 x4 x5 x6 x7 x8 x9 x10 x11) x12 x13 g o _ _ rfl rfl

end Stage3

/-- Entry `(g, o)` of the residual. -/
theorem ref_r (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (x6 x7 : (⟨S256, .f32⟩ : BufTy).Contents (Elt Ideal)) (x8 : (⟨S256x12544, .f32⟩ : BufTy).Contents (Elt Ideal)) (x9 x10 x11 : (⟨S256, .f32⟩ : BufTy).Contents (Elt Ideal)) (g : Fin 2048) (o : Fin 256) :
    val_main_v93 (F := Ideal) x0 x1 x2 x3 x4 x5 x6 x7 x8 x9 x10 x11 (ix2 g o)
      = Gr scaleR x0 x1 x2 x3 x4 x5 x6 x7 x8 x9 x10 x11 g o := by
  rw [val_main_v93_apply, val_main_v92_apply, Stage3.v91_row, Stage3.call2_zero]
  simp only [Stage3.ref_w]
  rfl

/-- Entry `(g, o)` of the reference's result. -/
theorem ref_out (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (x6 x7 : (⟨S256, .f32⟩ : BufTy).Contents (Elt Ideal)) (x8 : (⟨S256x12544, .f32⟩ : BufTy).Contents (Elt Ideal)) (x9 x10 x11 : (⟨S256, .f32⟩ : BufTy).Contents (Elt Ideal)) (x12 x13 : (⟨S256, .f32⟩ : BufTy).Contents (Elt Ideal)) (g : Fin 2048) (o : Fin 256) :
    val_main_v117 (F := Ideal) x0 x1 x2 x3 x4 x5 x6 x7 x8 x9 x10 x11 x12 x13 (ix2 g o)
      = Gout scaleR x0 x1 x2 x3 x4 x5 x6 x7 x8 x9 x10 x11 x12 x13 g o := by
  rw [Stage3.v117_row]
  simp only [ref_r]
  rfl

end Cert.ReferenceIdeal.Hand

end
-- ==== Proof.RValue.lean ====
/-
  The reference's result array as one function of the argument arrays: at every index it is the specification's
  `Gout` with the reference's scaling step.
-/
import proofs.«115709_j66700842107138_1_alg».proof.Proof.RStage3

noncomputable section

namespace Cert.ReferenceIdeal.Hand

open Cert.ReferenceIdeal Cert.ReferenceIdeal.Gen Cert.ReferenceIdeal.ReadP Idealize.ShloMosaic Idealize.ShloMosaic.ValueIdx Cert.Spec

/-- The reference's result, index by index. -/
theorem ref_result (x0 : (⟨S2048x256, .f32⟩ : BufTy).Contents (Elt Ideal)) (x1 : (⟨S2048x256x49, .f32⟩ : BufTy).Contents (Elt Ideal)) (x2 : (⟨S32768x256, .f32⟩ : BufTy).Contents (Elt Ideal)) (x3 : (⟨S32768, .f32⟩ : BufTy).Contents (Elt Ideal)) (x4 x5 : (⟨S64, .f32⟩ : BufTy).Contents (Elt Ideal)) (x6 x7 : (⟨S256, .f32⟩ : BufTy).Contents (Elt Ideal)) (x8 : (⟨S256x12544, .f32⟩ : BufTy).Contents (Elt Ideal)) (x9 x10 x11 : (⟨S256, .f32⟩ : BufTy).Contents (Elt Ideal)) (x12 x13 : (⟨S256, .f32⟩ : BufTy).Contents (Elt Ideal)) :
    val_main_v117 (F := Ideal) x0 x1 x2 x3 x4 x5 x6 x7 x8 x9 x10 x11 x12 x13
      = fun i => Gout scaleR x0 x1 x2 x3 x4 x5 x6 x7 x8 x9 x10 x11 x12 x13 ⟨(i 0).val, (i 0).isLt⟩ ⟨(i 1).val, (i 1).isLt⟩ := by
  funext i
  obtain ⟨g, o, rfl⟩ : ∃ (g : Fin 2048) (o : Fin 256), i = ix2 g o := ⟨i 0, i 1, eq_ix2 i⟩
  exact ref_out x0 x1 x2 x3 x4 x5 x6 x7 x8 x9 x10 x11 x12 x13 g o

end Cert.ReferenceIdeal.Hand

end
-- ==== Proof.lean ====
/-
  The certificate of a fused dynamic-convolution block: a Pallas kernel that, 32 batch rows at a time, computes
  `q = x · Wqᵀ + bq`, two per-row matrix products against `v`ᵀ with a layer norm and a positive part after each, a
  product with `Wv`, a third layer norm and positive part added to `x`, and a final layer norm — against the plain
  jnp reference of the same block.

  At the ideal instance (a float an extended real, every operation exact, a change of format the identity) the two
  programs differ in one step only: the kernel's layer norm multiplies a centred entry by the reciprocal square
  root of the offset variance, the reference divides it by the square root. The offset variance is a mean of
  squares plus a positive real, so it is positive on EVERY input (a square is never negative on the extended
  reals), and for a positive `s` the product with `rsqrt s` IS the quotient by `sqrt s`: Proof/NormLaw.lean. So the
  claim holds on all inputs and the finiteness precondition is never opened.

  The bridge: Proof/Spec.lean states one row of the result as a function of that row of `x`, of `v` and the
  weights, the scaling step a parameter. The kernel side reads the body's stored value at a block entry against it
  (Proof/KLin, KStage1–3, KBody), then the blocks against the whole array (Proof/KValue: row `n` of point `t`'s
  block is row `32·t + n`; the host-made resident weights are the transposed halves of the arguments; the 64 blocks
  cover the array). The reference side reads its result at an entry, stage by stage, against the same functions
  (Proof/RStage1–3, RValue). Proof/Spec.lean's `Gout_eq` joins the two.

  The frames of the two kernel programs are the generated ones; the reference's frame is its run with the result
  dropped; the idealization rewrote nothing, so `preserves` is trivial.
-/
import proofs.«115709_j66700842107138_1_alg».proof.Defs
import proofs.«115709_j66700842107138_1_alg».proof.Proof.Gen.Kernel
import proofs.«115709_j66700842107138_1_alg».proof.Proof.Gen.Kernel.Skeleton
import proofs.«115709_j66700842107138_1_alg».proof.Proof.Gen.Kernel.Launch
import proofs.«115709_j66700842107138_1_alg».proof.Proof.Gen.Kernel.Points
import proofs.«115709_j66700842107138_1_alg».proof.Proof.Gen.Kernel.Frame
import proofs.«115709_j66700842107138_1_alg».proof.Proof.Gen.KernelIdeal
import proofs.«115709_j66700842107138_1_alg».proof.Proof.Gen.KernelIdeal.Skeleton
import proofs.«115709_j66700842107138_1_alg».proof.Proof.Gen.KernelIdeal.Launch
import proofs.«115709_j66700842107138_1_alg».proof.Proof.Gen.KernelIdeal.Points
import proofs.«115709_j66700842107138_1_alg».proof.Proof.Gen.KernelIdeal.Frame
import proofs.«115709_j66700842107138_1_alg».proof.Proof.Gen.ReferenceIdeal
import proofs.«115709_j66700842107138_1_alg».proof.Proof.Gen.Pre_finite_inputs
import proofs.«115709_j66700842107138_1_alg».proof.Proof.Gen.KernelIdeal.Value
import proofs.«115709_j66700842107138_1_alg».proof.Proof.KValue
import proofs.«115709_j66700842107138_1_alg».proof.Proof.RValue
import proofs.«115709_j66700842107138_1_alg».proof.Proof.RefRun
import Idealize.ShloMosaic.Adequacy
import Idealize.ShloMosaic.Init

noncomputable section

namespace Cert.Proof

open Idealize.ShloMosaic Idealize.SL.Sem

/-- The kernel as printed runs, nothing faulting, its arguments unchanged: the generated frame. -/
theorem frame_k : Cert.frame_Kernel := fun m ρ _ => Cert.Kernel.Gen.frame m ρ

/-- The same of the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The reference's result array, from arguments that agree with the kernel's, is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.RunP.res_main_v117 (F := Ideal) m' c = Cert.KernelIdeal.Hand.Garr m c := by
  obtain ⟨h0, h1, h2, h3, h4, h5, h6, h7, h8, h9, h10, h11, h12, h13⟩ := hagree
  unfold Cert.ReferenceIdeal.RunP.res_main_v117
  rw [Cert.ReferenceIdeal.Hand.ref_result, h0, h1, h2, h3, h4, h5, h6, h7, h8, h9, h10, h11, h12, h13]
  unfold Cert.KernelIdeal.Hand.Garr
  rw [Cert.Spec.Gout_eq]

/-- At the ideal instance both programs run and end with equal results: the kernel's result array is `Garr` of
    its arguments, the reference's is the same function of arguments that agree. -/
theorem algebraic : Cert.algebraic_KernelIdeal_ReferenceIdeal := by
  intro m ρ m' ρ' _ hagree
  refine ⟨fun c => Cert.KernelIdeal.Hand.Garr m c, Cert.KernelIdeal.Hand.run m ρ, ?_⟩
  refine (θ_run Cert.ReferenceIdeal.defs _ _).mono (fun _ h c => ⟨(h c).1.trans ?_, (h c).2⟩)
    (Cert.ReferenceIdeal.RunP.run (F := Ideal) m' ρ')
  exact result_eq m m' c (hagree c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
